-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x4096 : S_.BroadcastsInDim S4x4096 (![] : Fin 0 → Fin S4x4096.rank)
  reducesTo_S4x4096_S_d0_1 : S4x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4x4096x4096 .f32) (main_arg2 : FVec F S4x4096 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S1x4096x4096 : Shape := ⟨3, ![1, 4096, 4096]⟩
abbrev S1x4096 : Shape := ⟨2, ![1, 4096]⟩
abbrev S2048x1024 : Shape := ⟨2, ![2048, 1024]⟩
abbrev S2048 : Shape := ⟨1, ![2048]⟩
abbrev S2048x2048 : Shape := ⟨2, ![2048, 2048]⟩
abbrev S1x2048 : Shape := ⟨2, ![1, 2048]⟩
abbrev S1024x1024 : Shape := ⟨2, ![1024, 1024]⟩
abbrev S1024x2048 : Shape := ⟨2, ![1024, 2048]⟩

abbrev nBuf : Space → Nat
  | .hbm => 30
  | .vmem => 51
  | .smem => 0
  | _ => 0

abbrev bufTy : (tb : Table) → Fin (tcTables nBuf tb) → BufTy
  | .hbm, ⟨0, _⟩ => ⟨S8192x4096, .f32⟩
  | .hbm, ⟨1, _⟩ => ⟨S4x4096x4096, .f32⟩
  | .hbm, ⟨2, _⟩ => ⟨S4x4096, .f32⟩
  | .hbm, ⟨3, _⟩ => ⟨S4096x4096, .f32⟩
  | .hbm, ⟨4, _⟩ => ⟨S4096, .f32⟩
  | .hbm, ⟨5, _⟩ => ⟨S8192x4096, .f32⟩
  | .hbm, ⟨6, _⟩ => ⟨S4x4096x4096, .bf16⟩
  | .hbm, ⟨7, _⟩ => ⟨S4096x4096, .bf16⟩
  | .hbm, ⟨8, _⟩ => ⟨S8192x4096, .bf16⟩
  | .hbm, ⟨9, _⟩ => ⟨S1x4096x4096, .bf16⟩
  | .hbm, ⟨10, _⟩ => ⟨S4096x4096, .bf16⟩
  | .hbm, ⟨11, _⟩ => ⟨S1x4096, .f32⟩
  | .hbm, ⟨12, _⟩ => ⟨S4096, .f32⟩
  | .hbm, ⟨13, _⟩ => ⟨S8192x4096, .bf16⟩
  | .hbm, ⟨14, _⟩ => ⟨S1x4096x4096, .bf16⟩
  | .hbm, ⟨15, _⟩ => ⟨S4096x4096, .bf16⟩
  | .hbm, ⟨16, _⟩ => ⟨S1x4096, .f32⟩
  | .hbm, ⟨17, _⟩ => ⟨S4096, .f32⟩
  | .hbm, ⟨18, _⟩ => ⟨S8192x4096, .bf16⟩
  | .hbm, ⟨19, _⟩ => ⟨S1x4096x4096, .bf16⟩
  | .hbm, ⟨20, _⟩ => ⟨S4096x4096, .bf16⟩
  | .hbm, ⟨21, _⟩ => ⟨S1x4096, .f32⟩
  | .hbm, ⟨22, _⟩ => ⟨S4096, .f32⟩
  | .hbm, ⟨23, _⟩ => ⟨S8192x4096, .bf16⟩
  | .hbm, ⟨24, _⟩ => ⟨S1x4096x4096, .bf16⟩
  | .hbm, ⟨25, _⟩ => ⟨S4096x4096, .bf16⟩
  | .hbm, ⟨26, _⟩ => ⟨S1x4096, .f32⟩
  | .hbm, ⟨27, _⟩ => ⟨S4096, .f32⟩
  | .hbm, ⟨28, _⟩ => ⟨S8192x4096, .bf16⟩
  | .hbm, ⟨29, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048, .f32⟩
  | .local _ .vmem, ⟨9, _⟩ => ⟨S2048, .f32⟩
  | .local _ .vmem, ⟨10, _⟩ => ⟨S2048x2048, .bf16⟩
  | .local _ .vmem, ⟨11, _⟩ => ⟨S2048x2048, .bf16⟩
  | .local _ .vmem, ⟨12, _⟩ => ⟨S2048x2048, .f32⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S2048x1024, .bf16⟩
  | .local _ .vmem, ⟨17, _⟩ => ⟨S2048, .f32⟩
  | .local _ .vmem, ⟨18, _⟩ => ⟨S2048, .f32⟩
  | .local _ .vmem, ⟨19, _⟩ => ⟨S2048x2048, .bf16⟩
  | .local _ .vmem, ⟨20, _⟩ => ⟨S2048x2048, .bf16⟩
  | .local _ .vmem, ⟨21, _⟩ => ⟨S2048x2048, .f32⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S2048, .f32⟩
  | .local _ .vmem, ⟨27, _⟩ => ⟨S2048, .f32⟩
  | .local _ .vmem, ⟨28, _⟩ => ⟨S2048x2048, .bf16⟩
  | .local _ .vmem, ⟨29, _⟩ => ⟨S2048x2048, .bf16⟩
  | .local _ .vmem, ⟨30, _⟩ => ⟨S2048x2048, .f32⟩
  | .local _ .vmem, ⟨31, _⟩ => ⟨S2048x1024, .bf16⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S2048, .f32⟩
  | .local _ .vmem, ⟨36, _⟩ => ⟨S2048, .f32⟩
  | .local _ .vmem, ⟨37, _⟩ => ⟨S2048x2048, .bf16⟩
  | .local _ .vmem, ⟨38, _⟩ => ⟨S2048x2048, .bf16⟩
  | .local _ .vmem, ⟨39, _⟩ => ⟨S2048x2048, .f32⟩
  | .local _ .vmem, ⟨40, _⟩ => ⟨S1024x1024, .bf16⟩
  | .local _ .vmem, ⟨41, _⟩ => ⟨S1024x1024, .bf16⟩
  | .local _ .vmem, ⟨42, _⟩ => ⟨S1024x1024, .f32⟩
  | .local _ .vmem, ⟨43, _⟩ => ⟨S1024x1024, .f32⟩
  | .local _ .vmem, ⟨44, _⟩ => ⟨S2048x1024, .bf16⟩
  | .local _ .vmem, ⟨45, _⟩ => ⟨S2048x1024, .bf16⟩
  | .local _ .vmem, ⟨46, _⟩ => ⟨S2048, .f32⟩
  | .local _ .vmem, ⟨47, _⟩ => ⟨S2048, .f32⟩
  | .local _ .vmem, ⟨48, _⟩ => ⟨S1024x2048, .f32⟩
  | .local _ .vmem, ⟨49, _⟩ => ⟨S1024x2048, .f32⟩
  | .local _ .vmem, ⟨50, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc5_stg4_0 : Ref sig .tc := ⟨.vmem, 48, rfl⟩
abbrev cc5_stg4_1 : Ref sig .tc := ⟨.vmem, 49, rfl⟩
abbrev cc5_scratch0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43
abbrev cc5_sem4_0 : DmaSem sig := 44
abbrev cc5_sem4_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 2, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 2, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S2048x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 2, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S2048x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![8, 2, 4], ![false, false, false]⟩

def k5_cond2 (i : grid5.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_11 : BitVec 32 := 0#32
  let v22 : BitVec 1 := Scalar.cmpi .ne v21 c0_i32_11
  v22

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_3 (i : grid5.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S2048x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true]

abbrev stage5_3 : Fin 2 → Memref sig .tc .vmem S2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, false]

abbrev stage5_4 : Fin 2 → Memref sig .tc .vmem S1024x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S2048x2048 : S1x2048.Broadcasts S2048x2048
  packedbf16_S2048x2048_S2048x2048_0_0 : (Rect.unit (s := S2048x2048) ![0, 0] S2048x2048.size inb_S2048x2048_S2048x2048_0_0).PackedRows (EltTy.packing .bf16)
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x2048_S1024x2048 : S1x2048.Broadcasts S1024x2048
  dot_S2048x1024_S2048x1024_S2048x2048_1_1_0_0_n_n_wf : DotDims.WF S2048x1024 S2048x1024 S2048x2048 [1] [1] [0] [0] [] []
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S8192x4096.size a
  hwx1_3 : ∀ i : grid1.Coords, EltTy.bits .bf16 = 32 ∨ (Rect.block (s := S8192x4096) S2048x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x4096.size a
  hwx2_1 : ∀ i : grid2.Coords, EltTy.bits .bf16 = 32 ∨ (Rect.block (s := S4096x4096) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S4096.size a
  hwx2_2 : ∀ i : grid2.Coords, EltTy.bits .f32 = 32 ∨ (Rect.block (s := S4096) S2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S8192x4096.size a
  hwx2_3 : ∀ i : grid2.Coords, EltTy.bits .bf16 = 32 ∨ (Rect.block (s := S8192x4096) S2048x2048.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x4096.size a
  hwx3_0 : ∀ i : grid3.Coords, EltTy.bits .bf16 = 32 ∨ (Rect.block (s := S8192x4096) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S4096x4096.size a
  hwx3_1 : ∀ i : grid3.Coords, EltTy.bits .bf16 = 32 ∨ (Rect.block (s := S4096x4096) S2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048.size a ≤ S4096.size a
  hwx3_2 : ∀ i : grid3.Coords, EltTy.bits .f32 = 32 ∨ (Rect.block (s := S4096) S2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x2048.size a ≤ S8192x4096.size a
  hwx3_3 : ∀ i : grid3.Coords, EltTy.bits .bf16 = 32 ∨ (Rect.block (s := S8192x4096) S2048x2048.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S8192x4096.size a
  hwx4_0 : ∀ i : grid4.Coords, EltTy.bits .bf16 = 32 ∨ (Rect.block (s := S8192x4096) S2048x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x1024.size a ≤ S4096x4096.size a
  hwx4_1 : ∀ i : grid4.Coords, EltTy.bits .bf16 = 32 ∨ (Rect.block (s := S4096x4096) S2048x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048.size a ≤ S4096.size a
  hwx4_2 : ∀ i : grid4.Coords, EltTy.bits .f32 = 32 ∨ (Rect.block (s := S4096) S2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x2048.size a ≤ S8192x4096.size a
  hwx4_3 : ∀ i : grid4.Coords, EltTy.bits .bf16 = 32 ∨ (Rect.block (s := S8192x4096) S2048x2048.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x4096.size a
  hwx5_0 : ∀ i : grid5.Coords, EltTy.bits .bf16 = 32 ∨ (Rect.block (s := S8192x4096) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S8192x4096.size a
  hwx5_1 : ∀ i : grid5.Coords, EltTy.bits .f32 = 32 ∨ (Rect.block (s := S8192x4096) S1024x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1024.size a ≤ S4096x4096.size a
  hwx5_2 : ∀ i : grid5.Coords, EltTy.bits .bf16 = 32 ∨ (Rect.block (s := S4096x4096) S2048x1024.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048.size a ≤ S4096.size a
  hwx5_3 : ∀ i : grid5.Coords, EltTy.bits .f32 = 32 ∨ (Rect.block (s := S4096) S2048.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x2048.size a ≤ S8192x4096.size a
  hwx5_4 : ∀ i : grid5.Coords, EltTy.bits .f32 = 32 ∨ (Rect.block (s := S8192x4096) S1024x2048.size (cc5_transform_4 i) (hinb5_4 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v8) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S2048x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v13) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S2048x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v18) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S2048x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v23) S2048x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v23) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v2) S2048x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg4) S2048.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v24) S1024x2048.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096x4096 : Shape := ⟨3, ![1, 4096, 4096]⟩
abbrev S1x4096 : Shape := ⟨2, ![1, 4096]⟩

abbrev nBuf : Space → Nat
  | .hbm => 65
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096x4096, .f32⟩
  | .hbm, ⟨2, _⟩ => ⟨S4x4096, .f32⟩
  | .hbm, ⟨3, _⟩ => ⟨S4096x4096, .f32⟩
  | .hbm, ⟨4, _⟩ => ⟨S4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S1x4096x4096, .f32⟩
  | .hbm, ⟨14, _⟩ => ⟨S4096x4096, .f32⟩
  | .hbm, ⟨15, _⟩ => ⟨S8192x4096, .f32⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S1x4096x4096, .f32⟩
  | .hbm, ⟨25, _⟩ => ⟨S4096x4096, .f32⟩
  | .hbm, ⟨26, _⟩ => ⟨S8192x4096, .f32⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S1x4096x4096, .f32⟩
  | .hbm, ⟨36, _⟩ => ⟨S4096x4096, .f32⟩
  | .hbm, ⟨37, _⟩ => ⟨S8192x4096, .f32⟩
  | .hbm, ⟨38, _⟩ => ⟨S1x4096, .f32⟩
  | .hbm, ⟨39, _⟩ => ⟨S4096, .f32⟩
  | .hbm, ⟨40, _⟩ => ⟨S1x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S1x4096x4096, .f32⟩
  | .hbm, ⟨47, _⟩ => ⟨S4096x4096, .f32⟩
  | .hbm, ⟨48, _⟩ => ⟨S8192x4096, .f32⟩
  | .hbm, ⟨49, _⟩ => ⟨S1x4096, .f32⟩
  | .hbm, ⟨50, _⟩ => ⟨S4096, .f32⟩
  | .hbm, ⟨51, _⟩ => ⟨S1x4096, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S8192x4096, .f32⟩
  | .hbm, ⟨58, _⟩ => ⟨S_, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S1x4096, .f32⟩
  | .hbm, ⟨63, _⟩ => ⟨S8192x4096, .f32⟩
  | .hbm, ⟨64, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call2_cst : Ref sig .tc := ⟨.hbm, 32, rfl⟩
abbrev main_call2_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call3_cst : Ref sig .tc := ⟨.hbm, 43, rfl⟩
abbrev main_call3_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call4_cst : Ref sig .tc := ⟨.hbm, 54, rfl⟩
abbrev main_call4_v0 : Ref sig .tc := ⟨.hbm, 55, rfl⟩
abbrev main_v40 : Ref sig .tc := ⟨.hbm, 56, rfl⟩
abbrev main_v41 : Ref sig .tc := ⟨.hbm, 57, rfl⟩
abbrev main_cst_0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Bits.R0.lean ====
/-
  The first launch: one pass over the rows of `x`, 512 rows at a point, sixteen points. The body reads its
  block of 512 full rows, sums each row along the lanes, multiplies every entry by its row's sum and keeps the
  positive part; it stores the whole block. Stated at the buffer contents `V` the launch finds.
-/
import proofs.«171023_j75617194213445_1_alg».proof.Proof.Gen.Kernel.Launch
import proofs.«171023_j75617194213445_1_alg».proof.Proof.Gen.Kernel.Skeleton
import proofs.«171023_j75617194213445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 by 4096 block as one rectangle. -/
abbrev r0_0 : Rect S512x4096 := Rect.unit (s := S512x4096) ![0, 0] S512x4096.size inb_S512x4096_S512x4096_0_0

/-- What the body leaves in the output's staging buffer: every entry times its row's sum, positive part. -/
def out0_1 (x0 : Vec F S512x4096 .f32) : Vec F S512x4096 .f32 :=
  View.canon [⟨r0_0, k0_pay1 (View.ld x0 r0_0)⟩]

theorem cover0_1 (p0 : Vec F S512x4096 .f32) (y : S512x4096.Idx) :
    ∃ pc ∈ ([⟨r0_0, p0⟩] : List (View.Piece (Elt F) S512x4096 .f32)), y ∈ pc.1.set :=
  View.cover_of_tiled [⟨r0_0, p0⟩] S512x4096.size (by rfl) y

set_option maxHeartbeats 1000000 in
/-- The body on whole staging memrefs: the input kept, the output at `out0_1` of the input. -/
theorem sound_kernel0 (c : Dev nD) (E : Set ℕ) (i : grid0.Coords) (arg0 : Memref sig .tc .vmem S512x4096 .f32) (harg0 : arg0.IsWhole) (arg1 : Memref sig .tc .vmem S512x4096 .f32) (harg1 : arg1.IsWhole)
    (x0 : Vec F S512x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__interactions_kernel i arg0 harg0 arg1 harg1) K := by
  simp only [cc0__interactions_kernel_eq_skeleton]; unfold cc0__interactions_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The launch's proof data at the contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.R1.lean ====
/-
  One layer's launch: the layer's product, tiled. The grid has 4 row blocks of 2048 rows, 2 column blocks of 2048
  columns and 4 steps along the contracted axis, the last varying fastest: point t is (t / 8, t / 4 % 2, t % 4). A
  2048 by 2048 accumulator lives in a scratch buffer the kernel keeps between points. At a step-0 point the body
  zeroes it; at every point it adds the product of the point's 2048 by 1024 block of the activations with the
  transpose of the point's 2048 by 1024 block of the weights; at a step-3 point it adds the bias block along the rows,
  keeps the positive part and stores that into the output block, which is written back there and nowhere else.
  Stated at the buffer contents `V` the launch finds.
-/
import proofs.«171023_j75617194213445_1_alg».proof.Proof.Gen.Kernel.Launch
import proofs.«171023_j75617194213445_1_alg».proof.Proof.Gen.Kernel.Skeleton
import proofs.«171023_j75617194213445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the input's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is step 0 of the contracted axis", as the body computes it from the point's coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is step 3, the last". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are live at every point; the output is live exactly at the last step, and elsewhere neither stored into
    nor written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x2048 .bf16 := win1_3.stage (cfg1.slots t 3)
abbrev hs1_3 (t : Fin cfg1.N) : (ms1_3 t).IsWhole := hstage1_3 ((cfg1.slots t 3).cast nbuf1_3)
/-- The accumulator: a whole scratch buffer of the kernel's own. -/
abbrev scM1 : Memref sig .tc .vmem S2048x2048 .f32 := Memref.whole cc1_scratch0

/-- What the launch hands the body besides the windows: the accumulator at some contents, every other scoped buffer
    unopened, the generator register at some state. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

theorem hz1_r1 : (![0] : Fin 1 → Nat) = fun _ => 0 := funext fun a => by fin_cases a; rfl
theorem hz2_r1 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run1_first (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : cond1_0 i) (hc1 : ¬cond1_1 i) (o : Vec F S2048x2048 .bf16) :
    iprop(owns (c : Thread nD τ) arg3 fullShare x ∗ owns (c : Thread nD τ) arg4 fullShare w ∗ owns (c : Thread nD τ) arg5 fullShare b
        ∗ owns (c : Thread nD τ) arg6 fullShare o ∗ (∃ a, owns (c : Thread nD τ) arg7 fullShare a)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 (k1_pay1 (F := F)) x w)) -∗ K ⟨⟩))
      ⊢ wp frame (wpE (defs₀ (F := F)) Variants.none c none) E (cc1__linear_relu_kernel i arg3 harg3 arg4 harg4 arg5 harg5 arg6 harg6 arg7 harg7) K := by
  simp only [cc1__linear_relu_kernel_eq_skeleton]; unfold cc1__linear_relu_kernel_skel
  unfold owns
  iintro ⟨⟨%f3, %hf3, H3⟩, ⟨%f4, %hf4, H4⟩, ⟨%f5, %hf5, H5⟩, ⟨%f6, %hf6, H6⟩, ⟨%a, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r1]; rfl, Rect.set_whole]; exact Finset.mem_univ y⟩), View.canon_cons_unit_zero hz2_r1]
  simp only [View.readAt_eq_ld, View.ld_unit_zero (S := S2048x2048) hz2_r1, View.ld_unit_zero (S := S2048x1024) hz2_r1, View.ld_unit_zero (S := S2048) hz1_r1, View.readCov_unit_zero (S := S2048x2048) _ hz2_r1]

set_option maxHeartbeats 1000000 in
/-- A middle point: the accumulator gains the product; the output's buffer is untouched. -/
theorem run1_mid (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond1_0 i) (hc1 : ¬cond1_1 i) (o : Vec F S2048x2048 .bf16) (a : Vec F S2048x2048 .f32) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 a x w)) -∗ K ⟨⟩))
      ⊢ wp frame (wpE (defs₀ (F := F)) Variants.none c none) E (cc1__linear_relu_kernel i arg3 harg3 arg4 harg4 arg5 harg5 arg6 harg6 arg7 harg7) K := by
  simp only [cc1__linear_relu_kernel_eq_skeleton]; unfold cc1__linear_relu_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r1]; rfl, Rect.set_whole]; exact Finset.mem_univ y⟩), View.canon_cons_unit_zero hz2_r1]
  simp only [View.readAt_eq_ld, View.ld_unit_zero (S := S2048x2048) hz2_r1, View.ld_unit_zero (S := S2048x1024) hz2_r1, View.ld_unit_zero (S := S2048) hz1_r1, View.readCov_unit_zero (S := S2048x2048) _ hz2_r1]

set_option maxHeartbeats 1000000 in
/-- A step-3 point: the accumulator gains the product, and the output's buffer, at anything, ends at the positive part of
    the accumulator plus the bias along the rows. -/
theorem run1_last (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond1_0 i) (hc1 : cond1_1 i) (a : Vec F S2048x2048 .f32) :
    iprop(owns (c : Thread nD τ) arg3 fullShare x ∗ owns (c : Thread nD τ) arg4 fullShare w ∗ owns (c : Thread nD τ) arg5 fullShare b
        ∗ (∃ o, owns (c : Thread nD τ) arg6 fullShare o) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 a x w) b) ∗ owns (c : Thread nD τ) arg7 fullShare (k1_pay2 a x w)) -∗ K ⟨⟩))
      ⊢ wp frame (wpE (defs₀ (F := F)) Variants.none c none) E (cc1__linear_relu_kernel i arg3 harg3 arg4 harg4 arg5 harg5 arg6 harg6 arg7 harg7) K := by
  simp only [cc1__linear_relu_kernel_eq_skeleton]; unfold cc1__linear_relu_kernel_skel
  unfold owns
  iintro ⟨⟨%f3, %hf3, H3⟩, ⟨%f4, %hf4, H4⟩, ⟨%f5, %hf5, H5⟩, ⟨%o, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r1]; rfl, Rect.set_whole]; exact Finset.mem_univ y⟩), View.canon_cons_unit_zero hz2_r1]
    simp only [View.readAt_eq_ld, View.ld_unit_zero (S := S2048x2048) hz2_r1, View.ld_unit_zero (S := S2048x1024) hz2_r1, View.ld_unit_zero (S := S2048) hz1_r1, View.readCov_unit_zero (S := S2048x2048) _ hz2_r1]
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r1]; rfl, Rect.set_whole]; exact Finset.mem_univ y⟩), View.canon_cons_unit_zero hz2_r1]
  simp only [View.readAt_eq_ld, View.ld_unit_zero (S := S2048x2048) hz2_r1, View.ld_unit_zero (S := S2048x1024) hz2_r1, View.ld_unit_zero (S := S2048) hz1_r1, View.readCov_unit_zero (S := S2048x2048) _ hz2_r1]

/-! ## The accumulator after each point -/

/-- What the accumulator holds after the body at point `n`: at a step-0 point the point's product added to zero,
    elsewhere the point's product added to what the point before left. -/
def acc1 (c : Dev nD) : (n : ℕ) → n < cfg1.N → Vec F S2048x2048 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_first (c : Dev nD) (t : Fin cfg1.N) (h0 : t.val % 4 = 0) :
    acc1 V c t.val t.isLt = k1_pay2 (k1_pay1 (F := F)) (iblk1 V c 0 t) (iblk1 V c 1 t) := by
  obtain ⟨n, hn⟩ := t
  cases n with
  | zero => rfl
  | succ n => exact if_pos h0

theorem acc1_step (c : Dev nD) (t : Fin cfg1.N) (h0 : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The launch's proof data at the contents `V`: the inputs' buffers keep their blocks; the output's buffer after a
    step-3 point holds the positive part of the accumulator plus the bias (at the other points it is not consulted). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: which of the three cases the point is in is read off its position; the invariant hands the
    accumulator over at what the point before left (at anything at the very first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [acc1_step V c t h0]
    rw [Phi1_castSucc V c t, Phi1_pos V c _ _ hz]
    iintro ⟨⟨⟨HS, HR⟩, Hg⟩, Ho, ⟨%d0, H0⟩, ⟨%d1, H1⟩, ⟨%d2, H2⟩, ⟨%d3, H3⟩⟩
    iapply (run1_last c Set.univ (grid1.coords t) _ _ _ _ _ _ _ _ _ _ (iblk1 V c 0 t) (iblk1 V c 1 t) (iblk1 V c 2 t) _
      (fun h => h0 ((hcond1_0 t).mp h)) ((hcond1_1 t).mpr h1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 4 = 0
    · rw [acc1_first V c t h0]
      by_cases hz : t.val = 0
      · rw [Phi1_castSucc V c t, Phi1_zero V c _ _ hz, PhiA1_eq]
        iintro ⟨⟨⟨HS, HR⟩, Hg⟩, Ho, ⟨%d0, H0⟩, ⟨%d1, H1⟩, ⟨%d2, H2⟩, ⟨%d3, H3⟩⟩
        iapply (run1_first c Set.univ (grid1.coords t) _ _ _ _ _ _ _ _ _ _ (iblk1 V c 0 t) (iblk1 V c 1 t) (iblk1 V c 2 t) _
          ((hcond1_0 t).mpr h0) (fun h => h1 ((hcond1_1 t).mp h)) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [Phi1_castSucc V c t, Phi1_pos V c _ _ hz]
        iintro ⟨⟨⟨HS, HR⟩, Hg⟩, Ho, ⟨%d0, H0⟩, ⟨%d1, H1⟩, ⟨%d2, H2⟩, ⟨%d3, H3⟩⟩
        iapply (run1_first c Set.univ (grid1.coords t) _ _ _ _ _ _ _ _ _ _ (iblk1 V c 0 t) (iblk1 V c 1 t) (iblk1 V c 2 t) _
          ((hcond1_0 t).mpr h0) (fun h => h1 ((hcond1_1 t).mp h)) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc1_step V c t h0]
      rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (run1_mid c Set.univ (grid1.coords t) _ _ _ _ _ _ _ _ _ _ (iblk1 V c 0 t) (iblk1 V c 1 t) (iblk1 V c 2 t) _
        (fun h => h0 ((hcond1_0 t).mp h)) (fun h => h1 ((hcond1_1 t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands over is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HS, HR⟩, Hg⟩
  isplitl [HS HR]
  · isplitl [HS]; · iexists _; iexact HS
    iexact HR
  iexact Hg

end Cert.Kernel.Hand

end
-- ==== Proof.Bits.R2.lean ====
/-
  One layer's launch: the layer's product, tiled. The grid has 4 row blocks of 2048 rows, 2 column blocks of 2048
  columns and 4 steps along the contracted axis, the last varying fastest: point t is (t / 8, t / 4 % 2, t % 4). A
  2048 by 2048 accumulator lives in a scratch buffer the kernel keeps between points. At a step-0 point the body
  zeroes it; at every point it adds the product of the point's 2048 by 1024 block of the activations with the
  transpose of the point's 2048 by 1024 block of the weights; at a step-3 point it adds the bias block along the rows,
  keeps the positive part and stores that into the output block, which is written back there and nowhere else.
  Stated at the buffer contents `V` the launch finds.
-/
import proofs.«171023_j75617194213445_1_alg».proof.Proof.Gen.Kernel.Launch
import proofs.«171023_j75617194213445_1_alg».proof.Proof.Gen.Kernel.Skeleton
import proofs.«171023_j75617194213445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds the input's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- "This is step 0 of the contracted axis", as the body computes it from the point's coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "This is step 3, the last". -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The inputs are live at every point; the output is live exactly at the last step, and elsewhere neither stored into
    nor written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x2048 .bf16 := win2_3.stage (cfg2.slots t 3)
abbrev hs2_3 (t : Fin cfg2.N) : (ms2_3 t).IsWhole := hstage2_3 ((cfg2.slots t 3).cast nbuf2_3)
/-- The accumulator: a whole scratch buffer of the kernel's own. -/
abbrev scM2 : Memref sig .tc .vmem S2048x2048 .f32 := Memref.whole cc2_scratch0

/-- What the launch hands the body besides the windows: the accumulator at some contents, every other scoped buffer
    unopened, the generator register at some state. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

theorem hz1_r2 : (![0] : Fin 1 → Nat) = fun _ => 0 := funext fun a => by fin_cases a; rfl
theorem hz2_r2 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run2_first (c : Dev nD) (E : Set ℕ) (i : grid2.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : cond2_0 i) (hc1 : ¬cond2_1 i) (o : Vec F S2048x2048 .bf16) :
    iprop(owns (c : Thread nD τ) arg3 fullShare x ∗ owns (c : Thread nD τ) arg4 fullShare w ∗ owns (c : Thread nD τ) arg5 fullShare b
        ∗ owns (c : Thread nD τ) arg6 fullShare o ∗ (∃ a, owns (c : Thread nD τ) arg7 fullShare a)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 (k2_pay1 (F := F)) x w)) -∗ K ⟨⟩))
      ⊢ wp frame (wpE (defs₀ (F := F)) Variants.none c none) E (cc2__linear_relu_kernel i arg3 harg3 arg4 harg4 arg5 harg5 arg6 harg6 arg7 harg7) K := by
  simp only [cc2__linear_relu_kernel_eq_skeleton]; unfold cc2__linear_relu_kernel_skel
  unfold owns
  iintro ⟨⟨%f3, %hf3, H3⟩, ⟨%f4, %hf4, H4⟩, ⟨%f5, %hf5, H5⟩, ⟨%f6, %hf6, H6⟩, ⟨%a, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r2]; rfl, Rect.set_whole]; exact Finset.mem_univ y⟩), View.canon_cons_unit_zero hz2_r2]
  simp only [View.readAt_eq_ld, View.ld_unit_zero (S := S2048x2048) hz2_r2, View.ld_unit_zero (S := S2048x1024) hz2_r2, View.ld_unit_zero (S := S2048) hz1_r2, View.readCov_unit_zero (S := S2048x2048) _ hz2_r2]

set_option maxHeartbeats 1000000 in
/-- A middle point: the accumulator gains the product; the output's buffer is untouched. -/
theorem run2_mid (c : Dev nD) (E : Set ℕ) (i : grid2.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond2_0 i) (hc1 : ¬cond2_1 i) (o : Vec F S2048x2048 .bf16) (a : Vec F S2048x2048 .f32) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 a x w)) -∗ K ⟨⟩))
      ⊢ wp frame (wpE (defs₀ (F := F)) Variants.none c none) E (cc2__linear_relu_kernel i arg3 harg3 arg4 harg4 arg5 harg5 arg6 harg6 arg7 harg7) K := by
  simp only [cc2__linear_relu_kernel_eq_skeleton]; unfold cc2__linear_relu_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r2]; rfl, Rect.set_whole]; exact Finset.mem_univ y⟩), View.canon_cons_unit_zero hz2_r2]
  simp only [View.readAt_eq_ld, View.ld_unit_zero (S := S2048x2048) hz2_r2, View.ld_unit_zero (S := S2048x1024) hz2_r2, View.ld_unit_zero (S := S2048) hz1_r2, View.readCov_unit_zero (S := S2048x2048) _ hz2_r2]

set_option maxHeartbeats 1000000 in
/-- A step-3 point: the accumulator gains the product, and the output's buffer, at anything, ends at the positive part of
    the accumulator plus the bias along the rows. -/
theorem run2_last (c : Dev nD) (E : Set ℕ) (i : grid2.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond2_0 i) (hc1 : cond2_1 i) (a : Vec F S2048x2048 .f32) :
    iprop(owns (c : Thread nD τ) arg3 fullShare x ∗ owns (c : Thread nD τ) arg4 fullShare w ∗ owns (c : Thread nD τ) arg5 fullShare b
        ∗ (∃ o, owns (c : Thread nD τ) arg6 fullShare o) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k2_pay3 (k2_pay2 a x w) b) ∗ owns (c : Thread nD τ) arg7 fullShare (k2_pay2 a x w)) -∗ K ⟨⟩))
      ⊢ wp frame (wpE (defs₀ (F := F)) Variants.none c none) E (cc2__linear_relu_kernel i arg3 harg3 arg4 harg4 arg5 harg5 arg6 harg6 arg7 harg7) K := by
  simp only [cc2__linear_relu_kernel_eq_skeleton]; unfold cc2__linear_relu_kernel_skel
  unfold owns
  iintro ⟨⟨%f3, %hf3, H3⟩, ⟨%f4, %hf4, H4⟩, ⟨%f5, %hf5, H5⟩, ⟨%o, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r2]; rfl, Rect.set_whole]; exact Finset.mem_univ y⟩), View.canon_cons_unit_zero hz2_r2]
    simp only [View.readAt_eq_ld, View.ld_unit_zero (S := S2048x2048) hz2_r2, View.ld_unit_zero (S := S2048x1024) hz2_r2, View.ld_unit_zero (S := S2048) hz1_r2, View.readCov_unit_zero (S := S2048x2048) _ hz2_r2]
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r2]; rfl, Rect.set_whole]; exact Finset.mem_univ y⟩), View.canon_cons_unit_zero hz2_r2]
  simp only [View.readAt_eq_ld, View.ld_unit_zero (S := S2048x2048) hz2_r2, View.ld_unit_zero (S := S2048x1024) hz2_r2, View.ld_unit_zero (S := S2048) hz1_r2, View.readCov_unit_zero (S := S2048x2048) _ hz2_r2]

/-! ## The accumulator after each point -/

/-- What the accumulator holds after the body at point `n`: at a step-0 point the point's product added to zero,
    elsewhere the point's product added to what the point before left. -/
def acc2 (c : Dev nD) : (n : ℕ) → n < cfg2.N → Vec F S2048x2048 .f32
  | 0, hn => k2_pay2 (k2_pay1 (F := F)) (iblk2 V c 0 ⟨0, hn⟩) (iblk2 V c 1 ⟨0, hn⟩)
  | n + 1, hn =>
    if (n + 1) % 4 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_first (c : Dev nD) (t : Fin cfg2.N) (h0 : t.val % 4 = 0) :
    acc2 V c t.val t.isLt = k2_pay2 (k2_pay1 (F := F)) (iblk2 V c 0 t) (iblk2 V c 1 t) := by
  obtain ⟨n, hn⟩ := t
  cases n with
  | zero => rfl
  | succ n => exact if_pos h0

theorem acc2_step (c : Dev nD) (t : Fin cfg2.N) (h0 : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl
theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The launch's proof data at the contents `V`: the inputs' buffers keep their blocks; the output's buffer after a
    step-3 point holds the positive part of the accumulator plus the bias (at the other points it is not consulted). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (acc2 V c t.val t.isLt) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: which of the three cases the point is in is read off its position; the invariant hands the
    accumulator over at what the point before left (at anything at the very first point) and takes it back at this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 32 := lt_of_lt_of_eq t.isLt (show cfg2.N = 32 from N_2)
  by_cases h1 : t.val % 4 = 3
  · have h0 : ¬t.val % 4 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [acc2_step V c t h0]
    rw [Phi2_castSucc V c t, Phi2_pos V c _ _ hz]
    iintro ⟨⟨⟨HS, HR⟩, Hg⟩, Ho, ⟨%d0, H0⟩, ⟨%d1, H1⟩, ⟨%d2, H2⟩, ⟨%d3, H3⟩⟩
    iapply (run2_last c Set.univ (grid2.coords t) _ _ _ _ _ _ _ _ _ _ (iblk2 V c 0 t) (iblk2 V c 1 t) (iblk2 V c 2 t) _
      (fun h => h0 ((hcond2_0 t).mp h)) ((hcond2_1 t).mpr h1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t (fun h => h1 ((hcond2_1 t).mp h))) (noFlush2_3 t (fun h => h1 ((hcond2_1 t).mp h)))]
    by_cases h0 : t.val % 4 = 0
    · rw [acc2_first V c t h0]
      by_cases hz : t.val = 0
      · rw [Phi2_castSucc V c t, Phi2_zero V c _ _ hz, PhiA2_eq]
        iintro ⟨⟨⟨HS, HR⟩, Hg⟩, Ho, ⟨%d0, H0⟩, ⟨%d1, H1⟩, ⟨%d2, H2⟩, ⟨%d3, H3⟩⟩
        iapply (run2_first c Set.univ (grid2.coords t) _ _ _ _ _ _ _ _ _ _ (iblk2 V c 0 t) (iblk2 V c 1 t) (iblk2 V c 2 t) _
          ((hcond2_0 t).mpr h0) (fun h => h1 ((hcond2_1 t).mp h)) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [Phi2_castSucc V c t, Phi2_pos V c _ _ hz]
        iintro ⟨⟨⟨HS, HR⟩, Hg⟩, Ho, ⟨%d0, H0⟩, ⟨%d1, H1⟩, ⟨%d2, H2⟩, ⟨%d3, H3⟩⟩
        iapply (run2_first c Set.univ (grid2.coords t) _ _ _ _ _ _ _ _ _ _ (iblk2 V c 0 t) (iblk2 V c 1 t) (iblk2 V c 2 t) _
          ((hcond2_0 t).mpr h0) (fun h => h1 ((hcond2_1 t).mp h)) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc2_step V c t h0]
      rw [Phi2_castSucc V c t, Phi2_pos V c _ _ hz]
      iintro ⟨⟨⟨HS, HR⟩, Hg⟩, Ho, ⟨%d0, H0⟩, ⟨%d1, H1⟩, ⟨%d2, H2⟩, ⟨%d3, H3⟩⟩
      iapply (run2_mid c Set.univ (grid2.coords t) _ _ _ _ _ _ _ _ _ _ (iblk2 V c 0 t) (iblk2 V c 1 t) (iblk2 V c 2 t) _
        (fun h => h0 ((hcond2_0 t).mp h)) (fun h => h1 ((hcond2_1 t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands over is the invariant before the first point, -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- and after the last point the invariant gives it back, the accumulator's contents forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), PhiA2_eq]
  iintro ⟨⟨HS, HR⟩, Hg⟩
  isplitl [HS HR]
  · isplitl [HS]; · iexists _; iexact HS
    iexact HR
  iexact Hg

end Cert.Kernel.Hand

end
-- ==== Proof.Bits.R3.lean ====
/-
  One layer's launch: the layer's product, tiled. The grid has 4 row blocks of 2048 rows, 2 column blocks of 2048
  columns and 4 steps along the contracted axis, the last varying fastest: point t is (t / 8, t / 4 % 2, t % 4). A
  2048 by 2048 accumulator lives in a scratch buffer the kernel keeps between points. At a step-0 point the body
  zeroes it; at every point it adds the product of the point's 2048 by 1024 block of the activations with the
  transpose of the point's 2048 by 1024 block of the weights; at a step-3 point it adds the bias block along the rows,
  keeps the positive part and stores that into the output block, which is written back there and nowhere else.
  Stated at the buffer contents `V` the launch finds.
-/
import proofs.«171023_j75617194213445_1_alg».proof.Proof.Gen.Kernel.Launch
import proofs.«171023_j75617194213445_1_alg».proof.Proof.Gen.Kernel.Skeleton
import proofs.«171023_j75617194213445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds the input's block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- "This is step 0 of the contracted axis", as the body computes it from the point's coordinates. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- "This is step 3, the last". -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-- The inputs are live at every point; the output is live exactly at the last step, and elsewhere neither stored into
    nor written back. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x2048 .bf16 := win3_3.stage (cfg3.slots t 3)
abbrev hs3_3 (t : Fin cfg3.N) : (ms3_3 t).IsWhole := hstage3_3 ((cfg3.slots t 3).cast nbuf3_3)
/-- The accumulator: a whole scratch buffer of the kernel's own. -/
abbrev scM3 : Memref sig .tc .vmem S2048x2048 .f32 := Memref.whole cc3_scratch0

/-- What the launch hands the body besides the windows: the accumulator at some contents, every other scoped buffer
    unopened, the generator register at some state. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

theorem hz1_r3 : (![0] : Fin 1 → Nat) = fun _ => 0 := funext fun a => by fin_cases a; rfl
theorem hz2_r3 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run3_first (c : Dev nD) (E : Set ℕ) (i : grid3.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : cond3_0 i) (hc1 : ¬cond3_1 i) (o : Vec F S2048x2048 .bf16) :
    iprop(owns (c : Thread nD τ) arg3 fullShare x ∗ owns (c : Thread nD τ) arg4 fullShare w ∗ owns (c : Thread nD τ) arg5 fullShare b
        ∗ owns (c : Thread nD τ) arg6 fullShare o ∗ (∃ a, owns (c : Thread nD τ) arg7 fullShare a)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k3_pay2 (k3_pay1 (F := F)) x w)) -∗ K ⟨⟩))
      ⊢ wp frame (wpE (defs₀ (F := F)) Variants.none c none) E (cc3__linear_relu_kernel i arg3 harg3 arg4 harg4 arg5 harg5 arg6 harg6 arg7 harg7) K := by
  simp only [cc3__linear_relu_kernel_eq_skeleton]; unfold cc3__linear_relu_kernel_skel
  unfold owns
  iintro ⟨⟨%f3, %hf3, H3⟩, ⟨%f4, %hf4, H4⟩, ⟨%f5, %hf5, H5⟩, ⟨%f6, %hf6, H6⟩, ⟨%a, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r3]; rfl, Rect.set_whole]; exact Finset.mem_univ y⟩), View.canon_cons_unit_zero hz2_r3]
  simp only [View.readAt_eq_ld, View.ld_unit_zero (S := S2048x2048) hz2_r3, View.ld_unit_zero (S := S2048x1024) hz2_r3, View.ld_unit_zero (S := S2048) hz1_r3, View.readCov_unit_zero (S := S2048x2048) _ hz2_r3]

set_option maxHeartbeats 1000000 in
/-- A middle point: the accumulator gains the product; the output's buffer is untouched. -/
theorem run3_mid (c : Dev nD) (E : Set ℕ) (i : grid3.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond3_0 i) (hc1 : ¬cond3_1 i) (o : Vec F S2048x2048 .bf16) (a : Vec F S2048x2048 .f32) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k3_pay2 a x w)) -∗ K ⟨⟩))
      ⊢ wp frame (wpE (defs₀ (F := F)) Variants.none c none) E (cc3__linear_relu_kernel i arg3 harg3 arg4 harg4 arg5 harg5 arg6 harg6 arg7 harg7) K := by
  simp only [cc3__linear_relu_kernel_eq_skeleton]; unfold cc3__linear_relu_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r3]; rfl, Rect.set_whole]; exact Finset.mem_univ y⟩), View.canon_cons_unit_zero hz2_r3]
  simp only [View.readAt_eq_ld, View.ld_unit_zero (S := S2048x2048) hz2_r3, View.ld_unit_zero (S := S2048x1024) hz2_r3, View.ld_unit_zero (S := S2048) hz1_r3, View.readCov_unit_zero (S := S2048x2048) _ hz2_r3]

set_option maxHeartbeats 1000000 in
/-- A step-3 point: the accumulator gains the product, and the output's buffer, at anything, ends at the positive part of
    the accumulator plus the bias along the rows. -/
theorem run3_last (c : Dev nD) (E : Set ℕ) (i : grid3.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond3_0 i) (hc1 : cond3_1 i) (a : Vec F S2048x2048 .f32) :
    iprop(owns (c : Thread nD τ) arg3 fullShare x ∗ owns (c : Thread nD τ) arg4 fullShare w ∗ owns (c : Thread nD τ) arg5 fullShare b
        ∗ (∃ o, owns (c : Thread nD τ) arg6 fullShare o) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k3_pay3 (k3_pay2 a x w) b) ∗ owns (c : Thread nD τ) arg7 fullShare (k3_pay2 a x w)) -∗ K ⟨⟩))
      ⊢ wp frame (wpE (defs₀ (F := F)) Variants.none c none) E (cc3__linear_relu_kernel i arg3 harg3 arg4 harg4 arg5 harg5 arg6 harg6 arg7 harg7) K := by
  simp only [cc3__linear_relu_kernel_eq_skeleton]; unfold cc3__linear_relu_kernel_skel
  unfold owns
  iintro ⟨⟨%f3, %hf3, H3⟩, ⟨%f4, %hf4, H4⟩, ⟨%f5, %hf5, H5⟩, ⟨%o, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r3]; rfl, Rect.set_whole]; exact Finset.mem_univ y⟩), View.canon_cons_unit_zero hz2_r3]
    simp only [View.readAt_eq_ld, View.ld_unit_zero (S := S2048x2048) hz2_r3, View.ld_unit_zero (S := S2048x1024) hz2_r3, View.ld_unit_zero (S := S2048) hz1_r3, View.readCov_unit_zero (S := S2048x2048) _ hz2_r3]
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r3]; rfl, Rect.set_whole]; exact Finset.mem_univ y⟩), View.canon_cons_unit_zero hz2_r3]
  simp only [View.readAt_eq_ld, View.ld_unit_zero (S := S2048x2048) hz2_r3, View.ld_unit_zero (S := S2048x1024) hz2_r3, View.ld_unit_zero (S := S2048) hz1_r3, View.readCov_unit_zero (S := S2048x2048) _ hz2_r3]

/-! ## The accumulator after each point -/

/-- What the accumulator holds after the body at point `n`: at a step-0 point the point's product added to zero,
    elsewhere the point's product added to what the point before left. -/
def acc3 (c : Dev nD) : (n : ℕ) → n < cfg3.N → Vec F S2048x2048 .f32
  | 0, hn => k3_pay2 (k3_pay1 (F := F)) (iblk3 V c 0 ⟨0, hn⟩) (iblk3 V c 1 ⟨0, hn⟩)
  | n + 1, hn =>
    if (n + 1) % 4 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

theorem acc3_first (c : Dev nD) (t : Fin cfg3.N) (h0 : t.val % 4 = 0) :
    acc3 V c t.val t.isLt = k3_pay2 (k3_pay1 (F := F)) (iblk3 V c 0 t) (iblk3 V c 1 t) := by
  obtain ⟨n, hn⟩ := t
  cases n with
  | zero => rfl
  | succ n => exact if_pos h0

theorem acc3_step (c : Dev nD) (t : Fin cfg3.N) (h0 : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl
theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl
theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The launch's proof data at the contents `V`: the inputs' buffers keep their blocks; the output's buffer after a
    step-3 point holds the positive part of the accumulator plus the bias (at the other points it is not consulted). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Phi3_castSucc (c : Dev nD) (t : Fin cfg3.N) :
    (dat3 V c).Φ t.castSucc = Phi3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = k3_pay3 (acc3 V c t.val t.isLt) (iblk3 V c 2 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: which of the three cases the point is in is read off its position; the invariant hands the
    accumulator over at what the point before left (at anything at the very first point) and takes it back at this point's. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h1 : t.val % 4 = 3
  · have h0 : ¬t.val % 4 = 0 := by omega
    have hz : t.val ≠ 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    rw [acc3_step V c t h0]
    rw [Phi3_castSucc V c t, Phi3_pos V c _ _ hz]
    iintro ⟨⟨⟨HS, HR⟩, Hg⟩, Ho, ⟨%d0, H0⟩, ⟨%d1, H1⟩, ⟨%d2, H2⟩, ⟨%d3, H3⟩⟩
    iapply (run3_last c Set.univ (grid3.coords t) _ _ _ _ _ _ _ _ _ _ (iblk3 V c 0 t) (iblk3 V c 1 t) (iblk3 V c 2 t) _
      (fun h => h0 ((hcond3_0 t).mp h)) ((hcond3_1 t).mpr h1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat3 V c) 3 t (idleAt3_3 t (fun h => h1 ((hcond3_1 t).mp h))) (noFlush3_3 t (fun h => h1 ((hcond3_1 t).mp h)))]
    by_cases h0 : t.val % 4 = 0
    · rw [acc3_first V c t h0]
      by_cases hz : t.val = 0
      · rw [Phi3_castSucc V c t, Phi3_zero V c _ _ hz, PhiA3_eq]
        iintro ⟨⟨⟨HS, HR⟩, Hg⟩, Ho, ⟨%d0, H0⟩, ⟨%d1, H1⟩, ⟨%d2, H2⟩, ⟨%d3, H3⟩⟩
        iapply (run3_first c Set.univ (grid3.coords t) _ _ _ _ _ _ _ _ _ _ (iblk3 V c 0 t) (iblk3 V c 1 t) (iblk3 V c 2 t) _
          ((hcond3_0 t).mpr h0) (fun h => h1 ((hcond3_1 t).mp h)) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [Phi3_castSucc V c t, Phi3_pos V c _ _ hz]
        iintro ⟨⟨⟨HS, HR⟩, Hg⟩, Ho, ⟨%d0, H0⟩, ⟨%d1, H1⟩, ⟨%d2, H2⟩, ⟨%d3, H3⟩⟩
        iapply (run3_first c Set.univ (grid3.coords t) _ _ _ _ _ _ _ _ _ _ (iblk3 V c 0 t) (iblk3 V c 1 t) (iblk3 V c 2 t) _
          ((hcond3_0 t).mpr h0) (fun h => h1 ((hcond3_1 t).mp h)) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc3_step V c t h0]
      rw [Phi3_castSucc V c t, Phi3_pos V c _ _ hz]
      iintro ⟨⟨⟨HS, HR⟩, Hg⟩, Ho, ⟨%d0, H0⟩, ⟨%d1, H1⟩, ⟨%d2, H2⟩, ⟨%d3, H3⟩⟩
      iapply (run3_mid c Set.univ (grid3.coords t) _ _ _ _ _ _ _ _ _ _ (iblk3 V c 0 t) (iblk3 V c 1 t) (iblk3 V c 2 t) _
        (fun h => h0 ((hcond3_0 t).mp h)) (fun h => h1 ((hcond3_1 t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the launch hands over is the invariant before the first point, -/
theorem hin3 (c : Dev nD) : Pipeline.ΦA spec3 c ⊢ (dat3 V c).Φ 0 := by
  rw [show (dat3 V c).Φ 0 = Phi3 V c 0 (Nat.zero_le _) from rfl, Phi3_zero V c 0 _ rfl]

/-- and after the last point the invariant gives it back, the accumulator's contents forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), PhiA3_eq]
  iintro ⟨⟨HS, HR⟩, Hg⟩
  isplitl [HS HR]
  · isplitl [HS]; · iexists _; iexact HS
    iexact HR
  iexact Hg

end Cert.Kernel.Hand

end
-- ==== Proof.Bits.R4.lean ====
/-
  One layer's launch: the layer's product, tiled. The grid has 4 row blocks of 2048 rows, 2 column blocks of 2048
  columns and 4 steps along the contracted axis, the last varying fastest: point t is (t / 8, t / 4 % 2, t % 4). A
  2048 by 2048 accumulator lives in a scratch buffer the kernel keeps between points. At a step-0 point the body
  zeroes it; at every point it adds the product of the point's 2048 by 1024 block of the activations with the
  transpose of the point's 2048 by 1024 block of the weights; at a step-3 point it adds the bias block along the rows,
  keeps the positive part and stores that into the output block, which is written back there and nowhere else.
  Stated at the buffer contents `V` the launch finds.
-/
import proofs.«171023_j75617194213445_1_alg».proof.Proof.Gen.Kernel.Launch
import proofs.«171023_j75617194213445_1_alg».proof.Proof.Gen.Kernel.Skeleton
import proofs.«171023_j75617194213445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds the input's block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body, over the grid -/

/-- "This is step 0 of the contracted axis", as the body computes it from the point's coordinates. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- "This is step 3, the last". -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-- The inputs are live at every point; the output is live exactly at the last step, and elsewhere neither stored into
    nor written back. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

/-! ## The memrefs the body is called with -/

abbrev ms4_0 (t : Fin cfg4.N) : Memref sig .tc .vmem S2048x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x2048 .bf16 := win4_3.stage (cfg4.slots t 3)
abbrev hs4_3 (t : Fin cfg4.N) : (ms4_3 t).IsWhole := hstage4_3 ((cfg4.slots t 3).cast nbuf4_3)
/-- The accumulator: a whole scratch buffer of the kernel's own. -/
abbrev scM4 : Memref sig .tc .vmem S2048x2048 .f32 := Memref.whole cc4_scratch0

/-- What the launch hands the body besides the windows: the accumulator at some contents, every other scoped buffer
    unopened, the generator register at some state. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; rfl

theorem hz1_r4 : (![0] : Fin 1 → Nat) = fun _ => 0 := funext fun a => by fin_cases a; rfl
theorem hz2_r4 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run4_first (c : Dev nD) (E : Set ℕ) (i : grid4.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : cond4_0 i) (hc1 : ¬cond4_1 i) (o : Vec F S2048x2048 .bf16) :
    iprop(owns (c : Thread nD τ) arg3 fullShare x ∗ owns (c : Thread nD τ) arg4 fullShare w ∗ owns (c : Thread nD τ) arg5 fullShare b
        ∗ owns (c : Thread nD τ) arg6 fullShare o ∗ (∃ a, owns (c : Thread nD τ) arg7 fullShare a)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k4_pay2 (k4_pay1 (F := F)) x w)) -∗ K ⟨⟩))
      ⊢ wp frame (wpE (defs₀ (F := F)) Variants.none c none) E (cc4__linear_relu_kernel i arg3 harg3 arg4 harg4 arg5 harg5 arg6 harg6 arg7 harg7) K := by
  simp only [cc4__linear_relu_kernel_eq_skeleton]; unfold cc4__linear_relu_kernel_skel
  unfold owns
  iintro ⟨⟨%f3, %hf3, H3⟩, ⟨%f4, %hf4, H4⟩, ⟨%f5, %hf5, H5⟩, ⟨%f6, %hf6, H6⟩, ⟨%a, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r4]; rfl, Rect.set_whole]; exact Finset.mem_univ y⟩), View.canon_cons_unit_zero hz2_r4]
  simp only [View.readAt_eq_ld, View.ld_unit_zero (S := S2048x2048) hz2_r4, View.ld_unit_zero (S := S2048x1024) hz2_r4, View.ld_unit_zero (S := S2048) hz1_r4, View.readCov_unit_zero (S := S2048x2048) _ hz2_r4]

set_option maxHeartbeats 1000000 in
/-- A middle point: the accumulator gains the product; the output's buffer is untouched. -/
theorem run4_mid (c : Dev nD) (E : Set ℕ) (i : grid4.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond4_0 i) (hc1 : ¬cond4_1 i) (o : Vec F S2048x2048 .bf16) (a : Vec F S2048x2048 .f32) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k4_pay2 a x w)) -∗ K ⟨⟩))
      ⊢ wp frame (wpE (defs₀ (F := F)) Variants.none c none) E (cc4__linear_relu_kernel i arg3 harg3 arg4 harg4 arg5 harg5 arg6 harg6 arg7 harg7) K := by
  simp only [cc4__linear_relu_kernel_eq_skeleton]; unfold cc4__linear_relu_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r4]; rfl, Rect.set_whole]; exact Finset.mem_univ y⟩), View.canon_cons_unit_zero hz2_r4]
  simp only [View.readAt_eq_ld, View.ld_unit_zero (S := S2048x2048) hz2_r4, View.ld_unit_zero (S := S2048x1024) hz2_r4, View.ld_unit_zero (S := S2048) hz1_r4, View.readCov_unit_zero (S := S2048x2048) _ hz2_r4]

set_option maxHeartbeats 1000000 in
/-- A step-3 point: the accumulator gains the product, and the output's buffer, at anything, ends at the positive part of
    the accumulator plus the bias along the rows. -/
theorem run4_last (c : Dev nD) (E : Set ℕ) (i : grid4.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond4_0 i) (hc1 : cond4_1 i) (a : Vec F S2048x2048 .f32) :
    iprop(owns (c : Thread nD τ) arg3 fullShare x ∗ owns (c : Thread nD τ) arg4 fullShare w ∗ owns (c : Thread nD τ) arg5 fullShare b
        ∗ (∃ o, owns (c : Thread nD τ) arg6 fullShare o) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k4_pay3 (k4_pay2 a x w) b) ∗ owns (c : Thread nD τ) arg7 fullShare (k4_pay2 a x w)) -∗ K ⟨⟩))
      ⊢ wp frame (wpE (defs₀ (F := F)) Variants.none c none) E (cc4__linear_relu_kernel i arg3 harg3 arg4 harg4 arg5 harg5 arg6 harg6 arg7 harg7) K := by
  simp only [cc4__linear_relu_kernel_eq_skeleton]; unfold cc4__linear_relu_kernel_skel
  unfold owns
  iintro ⟨⟨%f3, %hf3, H3⟩, ⟨%f4, %hf4, H4⟩, ⟨%f5, %hf5, H5⟩, ⟨%o, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r4]; rfl, Rect.set_whole]; exact Finset.mem_univ y⟩), View.canon_cons_unit_zero hz2_r4]
    simp only [View.readAt_eq_ld, View.ld_unit_zero (S := S2048x2048) hz2_r4, View.ld_unit_zero (S := S2048x1024) hz2_r4, View.ld_unit_zero (S := S2048) hz1_r4, View.readCov_unit_zero (S := S2048x2048) _ hz2_r4]
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r4]; rfl, Rect.set_whole]; exact Finset.mem_univ y⟩), View.canon_cons_unit_zero hz2_r4]
  simp only [View.readAt_eq_ld, View.ld_unit_zero (S := S2048x2048) hz2_r4, View.ld_unit_zero (S := S2048x1024) hz2_r4, View.ld_unit_zero (S := S2048) hz1_r4, View.readCov_unit_zero (S := S2048x2048) _ hz2_r4]

/-! ## The accumulator after each point -/

/-- What the accumulator holds after the body at point `n`: at a step-0 point the point's product added to zero,
    elsewhere the point's product added to what the point before left. -/
def acc4 (c : Dev nD) : (n : ℕ) → n < cfg4.N → Vec F S2048x2048 .f32
  | 0, hn => k4_pay2 (k4_pay1 (F := F)) (iblk4 V c 0 ⟨0, hn⟩) (iblk4 V c 1 ⟨0, hn⟩)
  | n + 1, hn =>
    if (n + 1) % 4 = 0 then k4_pay2 (k4_pay1 (F := F)) (iblk4 V c 0 ⟨n + 1, hn⟩) (iblk4 V c 1 ⟨n + 1, hn⟩)
    else k4_pay2 (acc4 c n (Nat.lt_of_succ_lt hn)) (iblk4 V c 0 ⟨n + 1, hn⟩) (iblk4 V c 1 ⟨n + 1, hn⟩)

theorem acc4_first (c : Dev nD) (t : Fin cfg4.N) (h0 : t.val % 4 = 0) :
    acc4 V c t.val t.isLt = k4_pay2 (k4_pay1 (F := F)) (iblk4 V c 0 t) (iblk4 V c 1 t) := by
  obtain ⟨n, hn⟩ := t
  cases n with
  | zero => rfl
  | succ n => exact if_pos h0

theorem acc4_step (c : Dev nD) (t : Fin cfg4.N) (h0 : ¬t.val % 4 = 0) :
    acc4 V c t.val t.isLt = k4_pay2 (acc4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl
theorem Phi4_succ (c : Dev nD) (n : ℕ) (hn : n < cfg4.N) :
    Phi4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl
theorem Phi4_pos (c : Dev nD) (n : ℕ) (h : n ≤ cfg4.N) (hz : n ≠ 0) :
    Phi4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The launch's proof data at the contents `V`: the inputs' buffers keep their blocks; the output's buffer after a
    step-3 point holds the positive part of the accumulator plus the bias (at the other points it is not consulted). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt) (iblk4 V c 2 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem Phi4_castSucc (c : Dev nD) (t : Fin cfg4.N) :
    (dat4 V c).Φ t.castSucc = Phi4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k4_pay3 (acc4 V c t.val t.isLt) (iblk4 V c 2 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: which of the three cases the point is in is read off its position; the invariant hands the
    accumulator over at what the point before left (at anything at the very first point) and takes it back at this point's. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 32 := lt_of_lt_of_eq t.isLt (show cfg4.N = 32 from N_4)
  by_cases h1 : t.val % 4 = 3
  · have h0 : ¬t.val % 4 = 0 := by omega
    have hz : t.val ≠ 0 := by omega
    rw [show (dat4 V c).leavesExact 3 t = owns (c : Thread nD τ) (ms4_3 t) fullShare ((dat4 V c).after 3 t) from by
      unfold Dat.leavesExact; rw [liveAt4_3 t ((hcond4_1 t).mpr h1)], after4_3]
    rw [acc4_step V c t h0]
    rw [Phi4_castSucc V c t, Phi4_pos V c _ _ hz]
    iintro ⟨⟨⟨HS, HR⟩, Hg⟩, Ho, ⟨%d0, H0⟩, ⟨%d1, H1⟩, ⟨%d2, H2⟩, ⟨%d3, H3⟩⟩
    iapply (run4_last c Set.univ (grid4.coords t) _ _ _ _ _ _ _ _ _ _ (iblk4 V c 0 t) (iblk4 V c 1 t) (iblk4 V c 2 t) _
      (fun h => h0 ((hcond4_0 t).mp h)) ((hcond4_1 t).mpr h1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat4 V c) 3 t (idleAt4_3 t (fun h => h1 ((hcond4_1 t).mp h))) (noFlush4_3 t (fun h => h1 ((hcond4_1 t).mp h)))]
    by_cases h0 : t.val % 4 = 0
    · rw [acc4_first V c t h0]
      by_cases hz : t.val = 0
      · rw [Phi4_castSucc V c t, Phi4_zero V c _ _ hz, PhiA4_eq]
        iintro ⟨⟨⟨HS, HR⟩, Hg⟩, Ho, ⟨%d0, H0⟩, ⟨%d1, H1⟩, ⟨%d2, H2⟩, ⟨%d3, H3⟩⟩
        iapply (run4_first c Set.univ (grid4.coords t) _ _ _ _ _ _ _ _ _ _ (iblk4 V c 0 t) (iblk4 V c 1 t) (iblk4 V c 2 t) _
          ((hcond4_0 t).mpr h0) (fun h => h1 ((hcond4_1 t).mp h)) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [Phi4_castSucc V c t, Phi4_pos V c _ _ hz]
        iintro ⟨⟨⟨HS, HR⟩, Hg⟩, Ho, ⟨%d0, H0⟩, ⟨%d1, H1⟩, ⟨%d2, H2⟩, ⟨%d3, H3⟩⟩
        iapply (run4_first c Set.univ (grid4.coords t) _ _ _ _ _ _ _ _ _ _ (iblk4 V c 0 t) (iblk4 V c 1 t) (iblk4 V c 2 t) _
          ((hcond4_0 t).mpr h0) (fun h => h1 ((hcond4_1 t).mp h)) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc4_step V c t h0]
      rw [Phi4_castSucc V c t, Phi4_pos V c _ _ hz]
      iintro ⟨⟨⟨HS, HR⟩, Hg⟩, Ho, ⟨%d0, H0⟩, ⟨%d1, H1⟩, ⟨%d2, H2⟩, ⟨%d3, H3⟩⟩
      iapply (run4_mid c Set.univ (grid4.coords t) _ _ _ _ _ _ _ _ _ _ (iblk4 V c 0 t) (iblk4 V c 1 t) (iblk4 V c 2 t) _
        (fun h => h0 ((hcond4_0 t).mp h)) (fun h => h1 ((hcond4_1 t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

/-- What the launch hands over is the invariant before the first point, -/
theorem hin4 (c : Dev nD) : Pipeline.ΦA spec4 c ⊢ (dat4 V c).Φ 0 := by
  rw [show (dat4 V c).Φ 0 = Phi4 V c 0 (Nat.zero_le _) from rfl, Phi4_zero V c 0 _ rfl]

/-- and after the last point the invariant gives it back, the accumulator's contents forgotten. -/
theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), PhiA4_eq]
  iintro ⟨⟨HS, HR⟩, Hg⟩
  isplitl [HS HR]
  · isplitl [HS]; · iexists _; iexact HS
    iexact HR
  iexact Hg

end Cert.Kernel.Hand

end
-- ==== Proof.Bits.R5.lean ====
/-
  The last launch: the output product, tiled like a layer's but with 8 row blocks of 1024 rows: point t is
  (t / 8, t / 4 % 2, t % 4), 64 points. A 1024 by 2048 accumulator lives in a scratch buffer between points. At a step-0
  point the body zeroes it; at every point it adds to it the product of half the sum of the point's 1024 by 1024 blocks
  of the last layer's value and of the interaction term with the transpose of the point's 2048 by 1024 block of the output
  weights; at a step-3 point it adds the bias block along the rows and stores that into the output block, which is written
  back there and nowhere else. Stated at the buffer contents `V` the launch finds.
-/
import proofs.«171023_j75617194213445_1_alg».proof.Proof.Gen.Kernel.Launch
import proofs.«171023_j75617194213445_1_alg».proof.Proof.Gen.Kernel.Skeleton
import proofs.«171023_j75617194213445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's staging buffer holds the input's block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The two conditions of the body, over the grid -/

/-- "This is step 0 of the contracted axis", as the body computes it from the point's coordinates. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)
/-- "This is step 3, the last". -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-- The inputs are live at every point; the output is live exactly at the last step, and elsewhere neither stored into
    nor written back. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

/-! ## The memrefs the body is called with -/

abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x1024 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x2048 .f32 := win5_4.stage (cfg5.slots t 4)
abbrev hs5_4 (t : Fin cfg5.N) : (ms5_4 t).IsWhole := hstage5_4 ((cfg5.slots t 4).cast nbuf5_4)
/-- The accumulator: a whole scratch buffer of the kernel's own. -/
abbrev scM5 : Memref sig .tc .vmem S1024x2048 .f32 := Memref.whole cc5_scratch0

/-- What the launch hands the body besides the windows: the accumulator at some contents, every other scoped buffer
    unopened, the generator register at some state. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; rfl

theorem hz1_r5 : (![0] : Fin 1 → Nat) = fun _ => 0 := funext fun a => by fin_cases a; rfl
theorem hz2_r5 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run5_first (c : Dev nD) (E : Set ℕ) (i : grid5.Coords)
    (arg3 : Memref sig .tc .vmem S1024x1024 .bf16) (harg3 : arg3.IsWhole) (arg4 : Memref sig .tc .vmem S1024x1024 .f32) (harg4 : arg4.IsWhole)
    (arg5 : Memref sig .tc .vmem S2048x1024 .bf16) (harg5 : arg5.IsWhole) (arg6 : Memref sig .tc .vmem S2048 .f32) (harg6 : arg6.IsWhole)
    (arg7 : Memref sig .tc .vmem S1024x2048 .f32) (harg7 : arg7.IsWhole) (arg8 : Memref sig .tc .vmem S1024x2048 .f32) (harg8 : arg8.IsWhole)
    (h : Vec F S1024x1024 .bf16) (u : Vec F S1024x1024 .f32) (w : Vec F S2048x1024 .bf16) (b : Vec F S2048 .f32) (K : PUnit → sProp 𝕄)
    (hc0 : cond5_0 i) (hc1 : ¬cond5_1 i) (o : Vec F S1024x2048 .f32) :
    iprop(owns (c : Thread nD τ) arg3 fullShare h ∗ owns (c : Thread nD τ) arg4 fullShare u ∗ owns (c : Thread nD τ) arg5 fullShare w ∗ owns (c : Thread nD τ) arg6 fullShare b
        ∗ owns (c : Thread nD τ) arg7 fullShare o ∗ (∃ a, owns (c : Thread nD τ) arg8 fullShare a)
        ∗ (iprop(owns (c : Thread nD τ) arg3 fullShare h ∗ owns (c : Thread nD τ) arg4 fullShare u ∗ owns (c : Thread nD τ) arg5 fullShare w ∗ owns (c : Thread nD τ) arg6 fullShare b
            ∗ owns (c : Thread nD τ) arg7 fullShare o ∗ owns (c : Thread nD τ) arg8 fullShare (k5_pay2 h u (k5_pay1 (F := F)) w)) -∗ K ⟨⟩))
      ⊢ wp frame (wpE (defs₀ (F := F)) Variants.none c none) E (cc5__combine_kernel i arg3 harg3 arg4 harg4 arg5 harg5 arg6 harg6 arg7 harg7 arg8 harg8) K := by
  simp only [cc5__combine_kernel_eq_skeleton]; unfold cc5__combine_kernel_skel
  unfold owns
  iintro ⟨⟨%f3, %hf3, H3⟩, ⟨%f4, %hf4, H4⟩, ⟨%f5, %hf5, H5⟩, ⟨%f6, %hf6, H6⟩, ⟨%f7, %hf7, H7⟩, ⟨%a, %f8, -, H8⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, by
    show y ∈ (Rect.unit (s := S1024x2048) ![0, 0] S1024x2048.size inb_S1024x2048_S1024x2048_0_0).set
    rw [show (Rect.unit (s := S1024x2048) ![0, 0] S1024x2048.size inb_S1024x2048_S1024x2048_0_0) = Rect.whole S1024x2048 from by
      simp only [hz2_r5]; rfl, Rect.set_whole]; exact Finset.mem_univ y⟩), View.canon_cons_unit_zero hz2_r5]
  simp only [View.readAt_eq_ld, View.ld_unit_zero (S := S1024x2048) hz2_r5, View.ld_unit_zero (S := S1024x1024) hz2_r5, View.ld_unit_zero (S := S2048x1024) hz2_r5, View.ld_unit_zero (S := S2048) hz1_r5, View.readCov_unit_zero (S := S1024x2048) _ hz2_r5]

set_option maxHeartbeats 1000000 in
/-- A middle point: the accumulator gains the product; the output's buffer is untouched. -/
theorem run5_mid (c : Dev nD) (E : Set ℕ) (i : grid5.Coords)
    (arg3 : Memref sig .tc .vmem S1024x1024 .bf16) (harg3 : arg3.IsWhole) (arg4 : Memref sig .tc .vmem S1024x1024 .f32) (harg4 : arg4.IsWhole)
    (arg5 : Memref sig .tc .vmem S2048x1024 .bf16) (harg5 : arg5.IsWhole) (arg6 : Memref sig .tc .vmem S2048 .f32) (harg6 : arg6.IsWhole)
    (arg7 : Memref sig .tc .vmem S1024x2048 .f32) (harg7 : arg7.IsWhole) (arg8 : Memref sig .tc .vmem S1024x2048 .f32) (harg8 : arg8.IsWhole)
    (h : Vec F S1024x1024 .bf16) (u : Vec F S1024x1024 .f32) (w : Vec F S2048x1024 .bf16) (b : Vec F S2048 .f32) (K : PUnit → sProp 𝕄)
    (hc0 : ¬cond5_0 i) (hc1 : ¬cond5_1 i) (o : Vec F S1024x2048 .f32) (a : Vec F S1024x2048 .f32) :
    iprop(owns (c : Thread nD τ) arg3 fullShare h ∗ owns (c : Thread nD τ) arg4 fullShare u ∗ owns (c : Thread nD τ) arg5 fullShare w ∗ owns (c : Thread nD τ) arg6 fullShare b
        ∗ owns (c : Thread nD τ) arg7 fullShare o ∗ owns (c : Thread nD τ) arg8 fullShare a
        ∗ (iprop(owns (c : Thread nD τ) arg3 fullShare h ∗ owns (c : Thread nD τ) arg4 fullShare u ∗ owns (c : Thread nD τ) arg5 fullShare w ∗ owns (c : Thread nD τ) arg6 fullShare b
            ∗ owns (c : Thread nD τ) arg7 fullShare o ∗ owns (c : Thread nD τ) arg8 fullShare (k5_pay2 h u a w)) -∗ K ⟨⟩))
      ⊢ wp frame (wpE (defs₀ (F := F)) Variants.none c none) E (cc5__combine_kernel i arg3 harg3 arg4 harg4 arg5 harg5 arg6 harg6 arg7 harg7 arg8 harg8) K := by
  simp only [cc5__combine_kernel_eq_skeleton]; unfold cc5__combine_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, by
    show y ∈ (Rect.unit (s := S1024x2048) ![0, 0] S1024x2048.size inb_S1024x2048_S1024x2048_0_0).set
    rw [show (Rect.unit (s := S1024x2048) ![0, 0] S1024x2048.size inb_S1024x2048_S1024x2048_0_0) = Rect.whole S1024x2048 from by
      simp only [hz2_r5]; rfl, Rect.set_whole]; exact Finset.mem_univ y⟩), View.canon_cons_unit_zero hz2_r5]
  simp only [View.readAt_eq_ld, View.ld_unit_zero (S := S1024x2048) hz2_r5, View.ld_unit_zero (S := S1024x1024) hz2_r5, View.ld_unit_zero (S := S2048x1024) hz2_r5, View.ld_unit_zero (S := S2048) hz1_r5, View.readCov_unit_zero (S := S1024x2048) _ hz2_r5]

set_option maxHeartbeats 1000000 in
/-- A step-3 point: the accumulator gains the product, and the output's buffer, at anything, ends at the accumulator plus the
    bias along the rows. -/
theorem run5_last (c : Dev nD) (E : Set ℕ) (i : grid5.Coords)
    (arg3 : Memref sig .tc .vmem S1024x1024 .bf16) (harg3 : arg3.IsWhole) (arg4 : Memref sig .tc .vmem S1024x1024 .f32) (harg4 : arg4.IsWhole)
    (arg5 : Memref sig .tc .vmem S2048x1024 .bf16) (harg5 : arg5.IsWhole) (arg6 : Memref sig .tc .vmem S2048 .f32) (harg6 : arg6.IsWhole)
    (arg7 : Memref sig .tc .vmem S1024x2048 .f32) (harg7 : arg7.IsWhole) (arg8 : Memref sig .tc .vmem S1024x2048 .f32) (harg8 : arg8.IsWhole)
    (h : Vec F S1024x1024 .bf16) (u : Vec F S1024x1024 .f32) (w : Vec F S2048x1024 .bf16) (b : Vec F S2048 .f32) (K : PUnit → sProp 𝕄)
    (hc0 : ¬cond5_0 i) (hc1 : cond5_1 i) (a : Vec F S1024x2048 .f32) :
    iprop(owns (c : Thread nD τ) arg3 fullShare h ∗ owns (c : Thread nD τ) arg4 fullShare u ∗ owns (c : Thread nD τ) arg5 fullShare w ∗ owns (c : Thread nD τ) arg6 fullShare b
        ∗ (∃ o, owns (c : Thread nD τ) arg7 fullShare o) ∗ owns (c : Thread nD τ) arg8 fullShare a
        ∗ (iprop(owns (c : Thread nD τ) arg3 fullShare h ∗ owns (c : Thread nD τ) arg4 fullShare u ∗ owns (c : Thread nD τ) arg5 fullShare w ∗ owns (c : Thread nD τ) arg6 fullShare b
            ∗ owns (c : Thread nD τ) arg7 fullShare (k5_pay3 (k5_pay2 h u a w) b) ∗ owns (c : Thread nD τ) arg8 fullShare (k5_pay2 h u a w)) -∗ K ⟨⟩))
      ⊢ wp frame (wpE (defs₀ (F := F)) Variants.none c none) E (cc5__combine_kernel i arg3 harg3 arg4 harg4 arg5 harg5 arg6 harg6 arg7 harg7 arg8 harg8) K := by
  simp only [cc5__combine_kernel_eq_skeleton]; unfold cc5__combine_kernel_skel
  unfold owns
  iintro ⟨⟨%f3, %hf3, H3⟩, ⟨%f4, %hf4, H4⟩, ⟨%f5, %hf5, H5⟩, ⟨%f6, %hf6, H6⟩, ⟨%o, %f7, -, H7⟩, ⟨%f8, %hf8, H8⟩, Hk⟩
  subst hf3; subst hf4; subst hf5; subst hf6; subst hf8
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, by
      show y ∈ (Rect.unit (s := S1024x2048) ![0, 0] S1024x2048.size inb_S1024x2048_S1024x2048_0_0).set
      rw [show (Rect.unit (s := S1024x2048) ![0, 0] S1024x2048.size inb_S1024x2048_S1024x2048_0_0) = Rect.whole S1024x2048 from by
        simp only [hz2_r5]; rfl, Rect.set_whole]; exact Finset.mem_univ y⟩), View.canon_cons_unit_zero hz2_r5]
    simp only [View.readAt_eq_ld, View.ld_unit_zero (S := S1024x2048) hz2_r5, View.ld_unit_zero (S := S1024x1024) hz2_r5, View.ld_unit_zero (S := S2048x1024) hz2_r5, View.ld_unit_zero (S := S2048) hz1_r5, View.readCov_unit_zero (S := S1024x2048) _ hz2_r5]
  iexists _; isplitr
  swap; · iexact H8
  ipureintro
  sl_unfold_words
  rw [View.read_writes_eq_canon _ _ _ (fun y => ⟨_, List.mem_cons_self, by
    show y ∈ (Rect.unit (s := S1024x2048) ![0, 0] S1024x2048.size inb_S1024x2048_S1024x2048_0_0).set
    rw [show (Rect.unit (s := S1024x2048) ![0, 0] S1024x2048.size inb_S1024x2048_S1024x2048_0_0) = Rect.whole S1024x2048 from by
      simp only [hz2_r5]; rfl, Rect.set_whole]; exact Finset.mem_univ y⟩), View.canon_cons_unit_zero hz2_r5]
  simp only [View.readAt_eq_ld, View.ld_unit_zero (S := S1024x2048) hz2_r5, View.ld_unit_zero (S := S1024x1024) hz2_r5, View.ld_unit_zero (S := S2048x1024) hz2_r5, View.ld_unit_zero (S := S2048) hz1_r5, View.readCov_unit_zero (S := S1024x2048) _ hz2_r5]

/-! ## The accumulator after each point -/

/-- What the accumulator holds after the body at point `n`: at a step-0 point the point's product added to zero,
    elsewhere the point's product added to what the point before left. -/
def acc5 (c : Dev nD) : (n : ℕ) → n < cfg5.N → Vec F S1024x2048 .f32
  | 0, hn => k5_pay2 (iblk5 V c 0 ⟨0, hn⟩) (iblk5 V c 1 ⟨0, hn⟩) (k5_pay1 (F := F)) (iblk5 V c 2 ⟨0, hn⟩)
  | n + 1, hn =>
    if (n + 1) % 4 = 0 then k5_pay2 (iblk5 V c 0 ⟨n + 1, hn⟩) (iblk5 V c 1 ⟨n + 1, hn⟩) (k5_pay1 (F := F)) (iblk5 V c 2 ⟨n + 1, hn⟩)
    else k5_pay2 (iblk5 V c 0 ⟨n + 1, hn⟩) (iblk5 V c 1 ⟨n + 1, hn⟩) (acc5 c n (Nat.lt_of_succ_lt hn)) (iblk5 V c 2 ⟨n + 1, hn⟩)

theorem acc5_first (c : Dev nD) (t : Fin cfg5.N) (h0 : t.val % 4 = 0) :
    acc5 V c t.val t.isLt = k5_pay2 (iblk5 V c 0 t) (iblk5 V c 1 t) (k5_pay1 (F := F)) (iblk5 V c 2 t) := by
  obtain ⟨n, hn⟩ := t
  cases n with
  | zero => rfl
  | succ n => exact if_pos h0

theorem acc5_step (c : Dev nD) (t : Fin cfg5.N) (h0 : ¬t.val % 4 = 0) :
    acc5 V c t.val t.isLt = k5_pay2 (iblk5 V c 0 t) (iblk5 V c 1 t) (acc5 V c (t.val - 1) (Nat.lt_of_le_of_lt (Nat.sub_le _ _) t.isLt)) (iblk5 V c 2 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi5 (c : Dev nD) : (n : ℕ) → n ≤ cfg5.N → sProp 𝕄
  | 0, _ => Pipeline.ΦA spec5 c
  | n + 1, hn => iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r))

theorem Phi5_zero (c : Dev nD) (n : ℕ) (h : n ≤ cfg5.N) (hz : n = 0) : Phi5 V c n h = Pipeline.ΦA spec5 c := by
  subst hz; rfl
theorem Phi5_succ (c : Dev nD) (n : ℕ) (hn : n < cfg5.N) :
    Phi5 V c (n + 1) hn = iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r)) := rfl
theorem Phi5_pos (c : Dev nD) (n : ℕ) (h : n ≤ cfg5.N) (hz : n ≠ 0) :
    Phi5 V c n h = iprop(iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The launch's proof data at the contents `V`: the inputs' buffers keep their blocks; the output's buffer after a
    step-3 point holds the accumulator plus the bias (at the other points it is not consulted). -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (acc5 V c t.val t.isLt) (iblk5 V c 3 t)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem Phi5_castSucc (c : Dev nD) (t : Fin cfg5.N) :
    (dat5 V c).Φ t.castSucc = Phi5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = k5_pay3 (acc5 V c t.val t.isLt) (iblk5 V c 3 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: which of the three cases the point is in is read off its position; the invariant hands the
    accumulator over at what the point before left (at anything at the very first point) and takes it back at this point's. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Phi5 V c (t.val + 1) t.isLt from rfl, Phi5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  have hN : t.val < 64 := lt_of_lt_of_eq t.isLt (show cfg5.N = 64 from N_5)
  by_cases h1 : t.val % 4 = 3
  · have h0 : ¬t.val % 4 = 0 := by omega
    have hz : t.val ≠ 0 := by omega
    rw [show (dat5 V c).leavesExact 4 t = owns (c : Thread nD τ) (ms5_4 t) fullShare ((dat5 V c).after 4 t) from by
      unfold Dat.leavesExact; rw [liveAt5_4 t ((hcond5_1 t).mpr h1)], after5_4]
    rw [acc5_step V c t h0]
    rw [Phi5_castSucc V c t, Phi5_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (run5_last c Set.univ (grid5.coords t) _ _ _ _ _ _ _ _ _ _ _ _ (iblk5 V c 0 t) (iblk5 V c 1 t) (iblk5 V c 2 t) (iblk5 V c 3 t) _
      (fun h => h0 ((hcond5_0 t).mp h)) ((hcond5_1 t).mpr h1) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat5 V c) 4 t (idleAt5_4 t (fun h => h1 ((hcond5_1 t).mp h))) (noFlush5_4 t (fun h => h1 ((hcond5_1 t).mp h)))]
    by_cases h0 : t.val % 4 = 0
    · rw [acc5_first V c t h0]
      by_cases hz : t.val = 0
      · rw [Phi5_castSucc V c t, Phi5_zero V c _ _ hz, PhiA5_eq]
        iintro ⟨⟨⟨HS, HR⟩, Hg⟩, Ho, ⟨%d0, H0⟩, ⟨%d1, H1⟩, ⟨%d2, H2⟩, ⟨%d3, H3⟩, ⟨%d4, H4⟩⟩
        iapply (run5_first c Set.univ (grid5.coords t) _ _ _ _ _ _ _ _ _ _ _ _ (iblk5 V c 0 t) (iblk5 V c 1 t) (iblk5 V c 2 t) (iblk5 V c 3 t) _
          ((hcond5_0 t).mpr h0) (fun h => h1 ((hcond5_1 t).mp h)) _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists _; iexact H4
      · rw [Phi5_castSucc V c t, Phi5_pos V c _ _ hz]
        iintro ⟨⟨⟨HS, HR⟩, Hg⟩, Ho, ⟨%d0, H0⟩, ⟨%d1, H1⟩, ⟨%d2, H2⟩, ⟨%d3, H3⟩, ⟨%d4, H4⟩⟩
        iapply (run5_first c Set.univ (grid5.coords t) _ _ _ _ _ _ _ _ _ _ _ _ (iblk5 V c 0 t) (iblk5 V c 1 t) (iblk5 V c 2 t) (iblk5 V c 3 t) _
          ((hcond5_0 t).mpr h0) (fun h => h1 ((hcond5_1 t).mp h)) _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [acc5_step V c t h0]
      rw [Phi5_castSucc V c t, Phi5_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run5_mid c Set.univ (grid5.coords t) _ _ _ _ _ _ _ _ _ _ _ _ (iblk5 V c 0 t) (iblk5 V c 1 t) (iblk5 V c 2 t) (iblk5 V c 3 t) _
        (fun h => h0 ((hcond5_0 t).mp h)) (fun h => h1 ((hcond5_1 t).mp h)) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

theorem body_obligation5 (c : Dev nD) : BodyObligation (dat5 (F := F) V c) (defs₀ (F := F)) Variants.none () Set.univ := fun t => by
  rw [bigSep_W5, bigSep_W5]
  exact sound_body5 V c t

/-- What the launch hands over is the invariant before the first point, -/
theorem hin5 (c : Dev nD) : Pipeline.ΦA spec5 c ⊢ (dat5 V c).Φ 0 := by
  rw [show (dat5 V c).Φ 0 = Phi5 V c 0 (Nat.zero_le _) from rfl, Phi5_zero V c 0 _ rfl]

/-- and after the last point the invariant gives it back, the accumulator's contents forgotten. -/
theorem hout5 (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl,
    Phi5_pos V c _ _ (by rw [Fin.val_last]; have : cfg5.N = 64 := N_5; omega), PhiA5_eq]
  iintro ⟨⟨HS, HR⟩, Hg⟩
  isplitl [HS HR]
  · isplitl [HS]; · iexists _; iexact HS
    iexact HR
  iexact Hg

end Cert.Kernel.Hand

end
-- ==== Proof.Bits.Run.lean ====
/-
  The whole program: six launches and four stretches of host operations between them. The contents of the unscoped
  buffers are followed from the start through every item: a host stretch applies its operations; a launch replaces
  its output array by what its write-backs leave and keeps every other buffer. Every weakly fair execution ends, and at
  the end every unscoped buffer holds what this fold says; in particular each argument array holds what it held at the
  start, since no host operation writes one and no launch has one as its output.
-/
import proofs.«171023_j75617194213445_1_alg».proof.Proof.Gen.Kernel.Launch
import proofs.«171023_j75617194213445_1_alg».proof.Proof.Gen.Kernel.Skeleton
import proofs.«171023_j75617194213445_1_alg».proof.Proof.Gen.Kernel.Points
import proofs.«171023_j75617194213445_1_alg».proof.Proof.Gen.Kernel.Regions
import proofs.«171023_j75617194213445_1_alg».proof.Proof.Bits.R0
import proofs.«171023_j75617194213445_1_alg».proof.Proof.Bits.R1
import proofs.«171023_j75617194213445_1_alg».proof.Proof.Bits.R2
import proofs.«171023_j75617194213445_1_alg».proof.Proof.Bits.R3
import proofs.«171023_j75617194213445_1_alg».proof.Proof.Bits.R4
import proofs.«171023_j75617194213445_1_alg».proof.Proof.Bits.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At the start. -/
abbrev WW0 : Dev nD → Valuation τ sig (Elt F) := fun c b => m ((c : Dev nD), b)
/-- Launch 0's entry contents read at the TensorCore's references. -/
abbrev Ve0 : (c : Dev nD) → (b : Ref sig .tc) → Buf (Elt F) ((c : Thread nD τ).loc b) := fun c b => WW0 m c b
/-- After launch 0: its arrays at what its write-backs leave, every other buffer as entered. -/
def WW1 (c : Dev nD) : Valuation τ sig (Elt F) :=
  Pipeline.withArrays spec0 c (WW0 m c) fun w => (dat0 (Ve0 m) c).arrAt w cfg0.N
theorem WW1_arr (c : Dev nD) (w : Fin cfg0.W) :
    WW1 m c (Proc.devRef .tc (Pipeline.arrRef spec0 w)) = (dat0 (Ve0 m) c).arrAt w cfg0.N := by
  unfold WW1; exact Pipeline.withArrays_arr spec0 launch0.win.arr_inj c _ _ w
theorem WW1_of_ne (c : Dev nD) (b : Ref sig .tc) (hb : ∀ w, Pipeline.arrRef spec0 w ≠ b) :
    WW1 m c (Proc.devRef .tc b) = WW0 m c (Proc.devRef .tc b) := by
  unfold WW1; exact Pipeline.withArrays_of_ne spec0 c _ _ b hb
abbrev Ve0x : (c : Dev nD) → (b : Ref sig .tc) → Buf (Elt F) ((c : Thread nD τ).loc b) := fun c b => WW1 m c b
theorem hF0 (c : Dev nD) (w : Fin cfg0.W) : (dat0 (Ve0 m) c).arrAt w cfg0.N = Ve0x m c (Pipeline.arrRef spec0 w) :=
  (WW1_arr m c w).symm
theorem hrest0 (c : Dev nD) : ∀ b, b ∉ Finset.univ.image (Pipeline.arrRef spec0) → Ve0x m c b = Ve0 m c b :=
  fun b hb => WW1_of_ne m c b fun w e => hb (Finset.mem_image.mpr ⟨w, Finset.mem_univ _, e⟩)

/-- After the host stretch `hostOps1`. -/
abbrev WW2 : Dev nD → Valuation τ sig (Elt F) := fun c => StableHlo.after hostOps1 (WW1 m c)
theorem WW2_of (c : Dev nD) (r : Ref sig .tc) (h : r ∉ hostOps1_W) : WW2 m c (Proc.devRef .tc r) = WW1 m c (Proc.devRef .tc r) :=
  StableHlo.after_of_writes_sub hostOps1 _ hostOps1_writes h

/-- Launch 1's entry contents read at the TensorCore's references. -/
abbrev Ve1 : (c : Dev nD) → (b : Ref sig .tc) → Buf (Elt F) ((c : Thread nD τ).loc b) := fun c b => WW2 m c b
/-- After launch 1: its arrays at what its write-backs leave, every other buffer as entered. -/
def WW3 (c : Dev nD) : Valuation τ sig (Elt F) :=
  Pipeline.withArrays spec1 c (WW2 m c) fun w => (dat1 (Ve1 m) c).arrAt w cfg1.N
theorem WW3_arr (c : Dev nD) (w : Fin cfg1.W) :
    WW3 m c (Proc.devRef .tc (Pipeline.arrRef spec1 w)) = (dat1 (Ve1 m) c).arrAt w cfg1.N := by
  unfold WW3; exact Pipeline.withArrays_arr spec1 launch1.win.arr_inj c _ _ w
theorem WW3_of_ne (c : Dev nD) (b : Ref sig .tc) (hb : ∀ w, Pipeline.arrRef spec1 w ≠ b) :
    WW3 m c (Proc.devRef .tc b) = WW2 m c (Proc.devRef .tc b) := by
  unfold WW3; exact Pipeline.withArrays_of_ne spec1 c _ _ b hb
abbrev Ve1x : (c : Dev nD) → (b : Ref sig .tc) → Buf (Elt F) ((c : Thread nD τ).loc b) := fun c b => WW3 m c b
theorem hF1 (c : Dev nD) (w : Fin cfg1.W) : (dat1 (Ve1 m) c).arrAt w cfg1.N = Ve1x m c (Pipeline.arrRef spec1 w) :=
  (WW3_arr m c w).symm
theorem hrest1 (c : Dev nD) : ∀ b, b ∉ Finset.univ.image (Pipeline.arrRef spec1) → Ve1x m c b = Ve1 m c b :=
  fun b hb => WW3_of_ne m c b fun w e => hb (Finset.mem_image.mpr ⟨w, Finset.mem_univ _, e⟩)

/-- After the host stretch `hostOps2`. -/
abbrev WW4 : Dev nD → Valuation τ sig (Elt F) := fun c => StableHlo.after hostOps2 (WW3 m c)
theorem WW4_of (c : Dev nD) (r : Ref sig .tc) (h : r ∉ hostOps2_W) : WW4 m c (Proc.devRef .tc r) = WW3 m c (Proc.devRef .tc r) :=
  StableHlo.after_of_writes_sub hostOps2 _ hostOps2_writes h

/-- Launch 2's entry contents read at the TensorCore's references. -/
abbrev Ve2 : (c : Dev nD) → (b : Ref sig .tc) → Buf (Elt F) ((c : Thread nD τ).loc b) := fun c b => WW4 m c b
/-- After launch 2: its arrays at what its write-backs leave, every other buffer as entered. -/
def WW5 (c : Dev nD) : Valuation τ sig (Elt F) :=
  Pipeline.withArrays spec2 c (WW4 m c) fun w => (dat2 (Ve2 m) c).arrAt w cfg2.N
theorem WW5_arr (c : Dev nD) (w : Fin cfg2.W) :
    WW5 m c (Proc.devRef .tc (Pipeline.arrRef spec2 w)) = (dat2 (Ve2 m) c).arrAt w cfg2.N := by
  unfold WW5; exact Pipeline.withArrays_arr spec2 launch2.win.arr_inj c _ _ w
theorem WW5_of_ne (c : Dev nD) (b : Ref sig .tc) (hb : ∀ w, Pipeline.arrRef spec2 w ≠ b) :
    WW5 m c (Proc.devRef .tc b) = WW4 m c (Proc.devRef .tc b) := by
  unfold WW5; exact Pipeline.withArrays_of_ne spec2 c _ _ b hb
abbrev Ve2x : (c : Dev nD) → (b : Ref sig .tc) → Buf (Elt F) ((c : Thread nD τ).loc b) := fun c b => WW5 m c b
theorem hF2 (c : Dev nD) (w : Fin cfg2.W) : (dat2 (Ve2 m) c).arrAt w cfg2.N = Ve2x m c (Pipeline.arrRef spec2 w) :=
  (WW5_arr m c w).symm
theorem hrest2 (c : Dev nD) : ∀ b, b ∉ Finset.univ.image (Pipeline.arrRef spec2) → Ve2x m c b = Ve2 m c b :=
  fun b hb => WW5_of_ne m c b fun w e => hb (Finset.mem_image.mpr ⟨w, Finset.mem_univ _, e⟩)

/-- After the host stretch `hostOps3`. -/
abbrev WW6 : Dev nD → Valuation τ sig (Elt F) := fun c => StableHlo.after hostOps3 (WW5 m c)
theorem WW6_of (c : Dev nD) (r : Ref sig .tc) (h : r ∉ hostOps3_W) : WW6 m c (Proc.devRef .tc r) = WW5 m c (Proc.devRef .tc r) :=
  StableHlo.after_of_writes_sub hostOps3 _ hostOps3_writes h

/-- Launch 3's entry contents read at the TensorCore's references. -/
abbrev Ve3 : (c : Dev nD) → (b : Ref sig .tc) → Buf (Elt F) ((c : Thread nD τ).loc b) := fun c b => WW6 m c b
/-- After launch 3: its arrays at what its write-backs leave, every other buffer as entered. -/
def WW7 (c : Dev nD) : Valuation τ sig (Elt F) :=
  Pipeline.withArrays spec3 c (WW6 m c) fun w => (dat3 (Ve3 m) c).arrAt w cfg3.N
theorem WW7_arr (c : Dev nD) (w : Fin cfg3.W) :
    WW7 m c (Proc.devRef .tc (Pipeline.arrRef spec3 w)) = (dat3 (Ve3 m) c).arrAt w cfg3.N := by
  unfold WW7; exact Pipeline.withArrays_arr spec3 launch3.win.arr_inj c _ _ w
theorem WW7_of_ne (c : Dev nD) (b : Ref sig .tc) (hb : ∀ w, Pipeline.arrRef spec3 w ≠ b) :
    WW7 m c (Proc.devRef .tc b) = WW6 m c (Proc.devRef .tc b) := by
  unfold WW7; exact Pipeline.withArrays_of_ne spec3 c _ _ b hb
abbrev Ve3x : (c : Dev nD) → (b : Ref sig .tc) → Buf (Elt F) ((c : Thread nD τ).loc b) := fun c b => WW7 m c b
theorem hF3 (c : Dev nD) (w : Fin cfg3.W) : (dat3 (Ve3 m) c).arrAt w cfg3.N = Ve3x m c (Pipeline.arrRef spec3 w) :=
  (WW7_arr m c w).symm
theorem hrest3 (c : Dev nD) : ∀ b, b ∉ Finset.univ.image (Pipeline.arrRef spec3) → Ve3x m c b = Ve3 m c b :=
  fun b hb => WW7_of_ne m c b fun w e => hb (Finset.mem_image.mpr ⟨w, Finset.mem_univ _, e⟩)

/-- After the host stretch `hostOps4`. -/
abbrev WW8 : Dev nD → Valuation τ sig (Elt F) := fun c => StableHlo.after hostOps4 (WW7 m c)
theorem WW8_of (c : Dev nD) (r : Ref sig .tc) (h : r ∉ hostOps4_W) : WW8 m c (Proc.devRef .tc r) = WW7 m c (Proc.devRef .tc r) :=
  StableHlo.after_of_writes_sub hostOps4 _ hostOps4_writes h

/-- Launch 4's entry contents read at the TensorCore's references. -/
abbrev Ve4 : (c : Dev nD) → (b : Ref sig .tc) → Buf (Elt F) ((c : Thread nD τ).loc b) := fun c b => WW8 m c b
/-- After launch 4: its arrays at what its write-backs leave, every other buffer as entered. -/
def WW9 (c : Dev nD) : Valuation τ sig (Elt F) :=
  Pipeline.withArrays spec4 c (WW8 m c) fun w => (dat4 (Ve4 m) c).arrAt w cfg4.N
theorem WW9_arr (c : Dev nD) (w : Fin cfg4.W) :
    WW9 m c (Proc.devRef .tc (Pipeline.arrRef spec4 w)) = (dat4 (Ve4 m) c).arrAt w cfg4.N := by
  unfold WW9; exact Pipeline.withArrays_arr spec4 launch4.win.arr_inj c _ _ w
theorem WW9_of_ne (c : Dev nD) (b : Ref sig .tc) (hb : ∀ w, Pipeline.arrRef spec4 w ≠ b) :
    WW9 m c (Proc.devRef .tc b) = WW8 m c (Proc.devRef .tc b) := by
  unfold WW9; exact Pipeline.withArrays_of_ne spec4 c _ _ b hb
abbrev Ve4x : (c : Dev nD) → (b : Ref sig .tc) → Buf (Elt F) ((c : Thread nD τ).loc b) := fun c b => WW9 m c b
theorem hF4 (c : Dev nD) (w : Fin cfg4.W) : (dat4 (Ve4 m) c).arrAt w cfg4.N = Ve4x m c (Pipeline.arrRef spec4 w) :=
  (WW9_arr m c w).symm
theorem hrest4 (c : Dev nD) : ∀ b, b ∉ Finset.univ.image (Pipeline.arrRef spec4) → Ve4x m c b = Ve4 m c b :=
  fun b hb => WW9_of_ne m c b fun w e => hb (Finset.mem_image.mpr ⟨w, Finset.mem_univ _, e⟩)

/-- Launch 5's entry contents read at the TensorCore's references. -/
abbrev Ve5 : (c : Dev nD) → (b : Ref sig .tc) → Buf (Elt F) ((c : Thread nD τ).loc b) := fun c b => WW9 m c b
/-- After launch 5: its arrays at what its write-backs leave, every other buffer as entered. -/
def WW10 (c : Dev nD) : Valuation τ sig (Elt F) :=
  Pipeline.withArrays spec5 c (WW9 m c) fun w => (dat5 (Ve5 m) c).arrAt w cfg5.N
theorem WW10_arr (c : Dev nD) (w : Fin cfg5.W) :
    WW10 m c (Proc.devRef .tc (Pipeline.arrRef spec5 w)) = (dat5 (Ve5 m) c).arrAt w cfg5.N := by
  unfold WW10; exact Pipeline.withArrays_arr spec5 launch5.win.arr_inj c _ _ w
theorem WW10_of_ne (c : Dev nD) (b : Ref sig .tc) (hb : ∀ w, Pipeline.arrRef spec5 w ≠ b) :
    WW10 m c (Proc.devRef .tc b) = WW9 m c (Proc.devRef .tc b) := by
  unfold WW10; exact Pipeline.withArrays_of_ne spec5 c _ _ b hb
abbrev Ve5x : (c : Dev nD) → (b : Ref sig .tc) → Buf (Elt F) ((c : Thread nD τ).loc b) := fun c b => WW10 m c b
theorem hF5 (c : Dev nD) (w : Fin cfg5.W) : (dat5 (Ve5 m) c).arrAt w cfg5.N = Ve5x m c (Pipeline.arrRef spec5 w) :=
  (WW10_arr m c w).symm
theorem hrest5 (c : Dev nD) : ∀ b, b ∉ Finset.univ.image (Pipeline.arrRef spec5) → Ve5x m c b = Ve5 m c b :=
  fun b hb => WW10_of_ne m c b fun w e => hb (Finset.mem_image.mpr ⟨w, Finset.mem_univ _, e⟩)

/-! ## The arguments end as they started -/

theorem WW10_main_arg0 (c : Dev nD) : WW10 m c (Proc.devRef .tc main_arg0) = m ((c : Thread nD τ).loc main_arg0) :=
  calc WW10 m c (Proc.devRef .tc main_arg0)
    _ = WW9 m c (Proc.devRef .tc main_arg0) := WW10_of_ne m c main_arg0 (by decide)
    _ = WW8 m c (Proc.devRef .tc main_arg0) := WW9_of_ne m c main_arg0 (by decide)
    _ = WW7 m c (Proc.devRef .tc main_arg0) := WW8_of m c main_arg0 (by decide)
    _ = WW6 m c (Proc.devRef .tc main_arg0) := WW7_of_ne m c main_arg0 (by decide)
    _ = WW5 m c (Proc.devRef .tc main_arg0) := WW6_of m c main_arg0 (by decide)
    _ = WW4 m c (Proc.devRef .tc main_arg0) := WW5_of_ne m c main_arg0 (by decide)
    _ = WW3 m c (Proc.devRef .tc main_arg0) := WW4_of m c main_arg0 (by decide)
    _ = WW2 m c (Proc.devRef .tc main_arg0) := WW3_of_ne m c main_arg0 (by decide)
    _ = WW1 m c (Proc.devRef .tc main_arg0) := WW2_of m c main_arg0 (by decide)
    _ = WW0 m c (Proc.devRef .tc main_arg0) := (WW1_arr m c 0).trans (((dat0 (Ve0 m) c).arrAt_in 0 rfl _).trans (A_eq0 (Ve0 m) c 0))
    _ = m ((c : Thread nD τ).loc main_arg0) := rfl

theorem WW10_main_arg1 (c : Dev nD) : WW10 m c (Proc.devRef .tc main_arg1) = m ((c : Thread nD τ).loc main_arg1) :=
  calc WW10 m c (Proc.devRef .tc main_arg1)
    _ = WW9 m c (Proc.devRef .tc main_arg1) := WW10_of_ne m c main_arg1 (by decide)
    _ = WW8 m c (Proc.devRef .tc main_arg1) := WW9_of_ne m c main_arg1 (by decide)
    _ = WW7 m c (Proc.devRef .tc main_arg1) := WW8_of m c main_arg1 (by decide)
    _ = WW6 m c (Proc.devRef .tc main_arg1) := WW7_of_ne m c main_arg1 (by decide)
    _ = WW5 m c (Proc.devRef .tc main_arg1) := WW6_of m c main_arg1 (by decide)
    _ = WW4 m c (Proc.devRef .tc main_arg1) := WW5_of_ne m c main_arg1 (by decide)
    _ = WW3 m c (Proc.devRef .tc main_arg1) := WW4_of m c main_arg1 (by decide)
    _ = WW2 m c (Proc.devRef .tc main_arg1) := WW3_of_ne m c main_arg1 (by decide)
    _ = WW1 m c (Proc.devRef .tc main_arg1) := WW2_of m c main_arg1 (by decide)
    _ = WW0 m c (Proc.devRef .tc main_arg1) := WW1_of_ne m c main_arg1 (by decide)
    _ = m ((c : Thread nD τ).loc main_arg1) := rfl

theorem WW10_main_arg2 (c : Dev nD) : WW10 m c (Proc.devRef .tc main_arg2) = m ((c : Thread nD τ).loc main_arg2) :=
  calc WW10 m c (Proc.devRef .tc main_arg2)
    _ = WW9 m c (Proc.devRef .tc main_arg2) := WW10_of_ne m c main_arg2 (by decide)
    _ = WW8 m c (Proc.devRef .tc main_arg2) := WW9_of_ne m c main_arg2 (by decide)
    _ = WW7 m c (Proc.devRef .tc main_arg2) := WW8_of m c main_arg2 (by decide)
    _ = WW6 m c (Proc.devRef .tc main_arg2) := WW7_of_ne m c main_arg2 (by decide)
    _ = WW5 m c (Proc.devRef .tc main_arg2) := WW6_of m c main_arg2 (by decide)
    _ = WW4 m c (Proc.devRef .tc main_arg2) := WW5_of_ne m c main_arg2 (by decide)
    _ = WW3 m c (Proc.devRef .tc main_arg2) := WW4_of m c main_arg2 (by decide)
    _ = WW2 m c (Proc.devRef .tc main_arg2) := WW3_of_ne m c main_arg2 (by decide)
    _ = WW1 m c (Proc.devRef .tc main_arg2) := WW2_of m c main_arg2 (by decide)
    _ = WW0 m c (Proc.devRef .tc main_arg2) := WW1_of_ne m c main_arg2 (by decide)
    _ = m ((c : Thread nD τ).loc main_arg2) := rfl

theorem WW10_main_arg3 (c : Dev nD) : WW10 m c (Proc.devRef .tc main_arg3) = m ((c : Thread nD τ).loc main_arg3) :=
  calc WW10 m c (Proc.devRef .tc main_arg3)
    _ = WW9 m c (Proc.devRef .tc main_arg3) := WW10_of_ne m c main_arg3 (by decide)
    _ = WW8 m c (Proc.devRef .tc main_arg3) := WW9_of_ne m c main_arg3 (by decide)
    _ = WW7 m c (Proc.devRef .tc main_arg3) := WW8_of m c main_arg3 (by decide)
    _ = WW6 m c (Proc.devRef .tc main_arg3) := WW7_of_ne m c main_arg3 (by decide)
    _ = WW5 m c (Proc.devRef .tc main_arg3) := WW6_of m c main_arg3 (by decide)
    _ = WW4 m c (Proc.devRef .tc main_arg3) := WW5_of_ne m c main_arg3 (by decide)
    _ = WW3 m c (Proc.devRef .tc main_arg3) := WW4_of m c main_arg3 (by decide)
    _ = WW2 m c (Proc.devRef .tc main_arg3) := WW3_of_ne m c main_arg3 (by decide)
    _ = WW1 m c (Proc.devRef .tc main_arg3) := WW2_of m c main_arg3 (by decide)
    _ = WW0 m c (Proc.devRef .tc main_arg3) := WW1_of_ne m c main_arg3 (by decide)
    _ = m ((c : Thread nD τ).loc main_arg3) := rfl

theorem WW10_main_arg4 (c : Dev nD) : WW10 m c (Proc.devRef .tc main_arg4) = m ((c : Thread nD τ).loc main_arg4) :=
  calc WW10 m c (Proc.devRef .tc main_arg4)
    _ = WW9 m c (Proc.devRef .tc main_arg4) := (WW10_arr m c 3).trans (((dat5 (Ve5 m) c).arrAt_in 3 rfl _).trans (A_eq5 (Ve5 m) c 3))
    _ = WW8 m c (Proc.devRef .tc main_arg4) := WW9_of_ne m c main_arg4 (by decide)
    _ = WW7 m c (Proc.devRef .tc main_arg4) := WW8_of m c main_arg4 (by decide)
    _ = WW6 m c (Proc.devRef .tc main_arg4) := WW7_of_ne m c main_arg4 (by decide)
    _ = WW5 m c (Proc.devRef .tc main_arg4) := WW6_of m c main_arg4 (by decide)
    _ = WW4 m c (Proc.devRef .tc main_arg4) := WW5_of_ne m c main_arg4 (by decide)
    _ = WW3 m c (Proc.devRef .tc main_arg4) := WW4_of m c main_arg4 (by decide)
    _ = WW2 m c (Proc.devRef .tc main_arg4) := WW3_of_ne m c main_arg4 (by decide)
    _ = WW1 m c (Proc.devRef .tc main_arg4) := WW2_of m c main_arg4 (by decide)
    _ = WW0 m c (Proc.devRef .tc main_arg4) := WW1_of_ne m c main_arg4 (by decide)
    _ = m ((c : Thread nD τ).loc main_arg4) := rfl

/-! ## The launches' proof data, and what rides along -/

/-- No launch has a prefetched table. -/
abbrev admH : (p : Fin 6) → (pcfgs (F := F) p).Adm := fun p => (cfgs p).toPCfg_adm
/-- Every launch's proof data, each at the contents its launch finds. -/
def pdatsH : (p : Fin 6) → (c : Dev nD) → Dat τ (Elt F) Unit ℕ (UR sig nD τ) ℕ (Pipeline.pin (pcfgs (F := F)) admH p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
abbrev 𝒱H : Variants := Variants.none
/-- No core owes another anything. -/
abbrev LH : GSem nD τ sig → Finset Unit := fun _ => ∅
abbrev lvH : GSem nD τ sig → Unit → ℕ := fun _ _ => 0
/-- Beside the buffers every item carries the generator register at some state and the core owing nothing. -/
abbrev Rst (c : Dev nD) : sProp 𝕄 := iprop((∃ r, prngReg c r) ∗ ∃ W, owes (c : Thread nD τ) (0 : CellTallies nD τ sig Unit) W)
/-- A host stretch as a segment over the unscoped references. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tend (c : Dev nD) : sProp 𝕄 := iprop(StableHlo.held (c : Thread nD τ) (Pipeline.ucRefs τ sig) (WW10 m c) ∗ ∃ r, prngReg c r)

/-! ## The launches as segments -/

set_option backward.isDefEq.respectTransparency.types false in
/-- Launch 0 as a segment: entered with every unscoped buffer at `WW0`, left with them at `WW1`; its arrays are split
    out of the unscoped buffers at entry and put back at exit; the generator register goes into the launch's invariant and
    comes back; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ LH lvH 0 fun _ _ => rfl
  pre c := iprop(StableHlo.held (c : Thread nD τ) (Pipeline.ucRefs τ sig) (WW0 m c) ∗ Rst c)
  post c := iprop(StableHlo.held (c : Thread nD τ) (Pipeline.ucRefs τ sig) (WW1 m c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (Ve0 m c) (Ve0x m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `WW2`, left with them at `WW3`; its arrays are split
    out of the unscoped buffers at entry and put back at exit; the generator register goes into the launch's invariant and
    comes back; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ LH lvH 1 fun _ _ => rfl
  pre c := iprop(StableHlo.held (c : Thread nD τ) (Pipeline.ucRefs τ sig) (WW2 m c) ∗ Rst c)
  post c := iprop(StableHlo.held (c : Thread nD τ) (Pipeline.ucRefs τ sig) (WW3 m c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec1 c from by
      unfold Pipeline.ΦA
      iintro ⟨Hp, -, Hr⟩
      isplitl [Hr]; · iexact Hr
      iexact Hp).trans (hin1 (Ve1 m) c)
  hout c := by
    rw [Pipeline.ownSems0_none]
    exact (hout1 (Ve1 m) c).trans (show Pipeline.ΦA spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (Ve1 m c) (Ve1x m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `WW4`, left with them at `WW5`; its arrays are split
    out of the unscoped buffers at entry and put back at exit; the generator register goes into the launch's invariant and
    comes back; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ LH lvH 2 fun _ _ => rfl
  pre c := iprop(StableHlo.held (c : Thread nD τ) (Pipeline.ucRefs τ sig) (WW4 m c) ∗ Rst c)
  post c := iprop(StableHlo.held (c : Thread nD τ) (Pipeline.ucRefs τ sig) (WW5 m c) ∗ Rst c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec2 c from by
      unfold Pipeline.ΦA
      iintro ⟨Hp, -, Hr⟩
      isplitl [Hr]; · iexact Hr
      iexact Hp).trans (hin2 (Ve2 m) c)
  hout c := by
    rw [Pipeline.ownSems0_none]
    exact (hout2 (Ve2 m) c).trans (show Pipeline.ΦA spec2 c ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (Ve2 m c) (Ve2x m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: entered with every unscoped buffer at `WW6`, left with them at `WW7`; its arrays are split
    out of the unscoped buffers at entry and put back at exit; the generator register goes into the launch's invariant and
    comes back; nothing is owed; the kernel has no semaphore of its own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ LH lvH 3 fun _ _ => rfl
  pre c := iprop(StableHlo.held (c : Thread nD τ) (Pipeline.ucRefs τ sig) (WW6 m c) ∗ Rst c)
  post c := iprop(StableHlo.held (c : Thread nD τ) (Pipeline.ucRefs τ sig) (WW7 m c) ∗ Rst c)
  X c := iprop(∃ r, prngReg c r)
  Y c := iprop(∃ r, prngReg c r)
  Z c := Pipeline.unscopedRest (Ix := Unit) (Name := ℕ) (U := UR sig nD τ) (Lvl := ℕ) spec3 c (Ve3 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec3 c from by
      unfold Pipeline.ΦA
      iintro ⟨Hp, -, Hr⟩
      isplitl [Hr]; · iexact Hr
      iexact Hp).trans (hin3 (Ve3 m) c)
  hout c := by
    rw [Pipeline.ownSems0_none]
    exact (hout3 (Ve3 m) c).trans (show Pipeline.ΦA spec3 c ⊢ _ from by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (Ve3 m c) (Ve3x m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 as a segment: entered with every unscoped buffer at `WW8`, left with them at `WW9`; its arrays are split
    out of the unscoped buffers at entry and put back at exit; the generator register goes into the launch's invariant and
    comes back; nothing is owed; the kernel has no semaphore of its own. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Ve4 m) c).loose
  hwaits := Pipeline.hwaits_of_owed_zero _ _ _ _ LH lvH 4 fun _ _ => rfl
  pre c := iprop(StableHlo.held (c : Thread nD τ) (Pipeline.ucRefs τ sig) (WW8 m c) ∗ Rst c)
  post c := iprop(StableHlo.held (c : Thread nD τ) (Pipeline.ucRefs τ sig) (WW9 m c) ∗ Rst c)
  X c := iprop(∃ r, prngReg c r)
  Y c := iprop(∃ r, prngReg c r)
  Z c := Pipeline.unscopedRest (Ix := Unit) (Name := ℕ) (U := UR sig nD τ) (Lvl := ℕ) spec4 c (Ve4 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (Ve4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec4 c from by
      unfold Pipeline.ΦA
      iintro ⟨Hp, -, Hr⟩
      isplitl [Hr]; · iexact Hr
      iexact Hp).trans (hin4 (Ve4 m) c)
  hout c := by
    rw [Pipeline.ownSems0_none]
    exact (hout4 (Ve4 m) c).trans (show Pipeline.ΦA spec4 c ⊢ _ from by
      unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (Ve4 m c) (Ve4x m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5 as a segment: entered with every unscoped buffer at `WW9`, left with them at `WW10`; its arrays are split
    out of the unscoped buffers at entry and put back at exit; the generator register goes into the launch's invariant and
    comes back; nothing is owed; the kernel has no semaphore of its own. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (Ve5 m) c).loose
  hwaits := Pipeline.hwaits_of_owed_zero _ _ _ _ LH lvH 5 fun _ _ => rfl
  pre c := iprop(StableHlo.held (c : Thread nD τ) (Pipeline.ucRefs τ sig) (WW9 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Ve5 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (Ve5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec5 c from by
      unfold Pipeline.ΦA
      iintro ⟨Hp, -, Hr⟩
      isplitl [Hr]; · iexact Hr
      iexact Hp).trans (hin5 (Ve5 m) c)
  hout c := by
    rw [Pipeline.ownSems0_none]
    exact (hout5 (Ve5 m) c).trans (show Pipeline.ΦA spec5 c ⊢ _ from by
      unfold Pipeline.ΦA
      iintro ⟨Hr, Hp⟩
      isplitl [Hp]; · iexact Hp
      isplitr; · iempintro
      iexact Hr)
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (Ve5 m c) (Ve5x m c) ((pdatsH m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segsH : List (Pipeline.Seg (pcfgs (F := F)) admH (pdatsH m) () defs₀ 𝒱H LH lvH) :=
  [ .region (reg0 m),
    .host (hsegH hostOps1 hostOps1_sub hostOps1_fresh (WW1 m)),
    .region (reg1 m),
    .host (hsegH hostOps2 hostOps2_sub hostOps2_fresh (WW3 m)),
    .region (reg2 m),
    .host (hsegH hostOps3 hostOps3_sub hostOps3_fresh (WW5 m)),
    .region (reg3 m),
    .host (hsegH hostOps4 hostOps4_sub hostOps4_fresh (WW7 m)),
    .region (reg4 m),
    .region (reg5 m) ]
theorem main_runH (c : Dev nD) : main (F := F) c = Pipeline.Seg.run (segsH m) := (main_chain c).trans (by chain_rfl)

set_option backward.isDefEq.respectTransparency.types false in
/-- From any memory with zero counters every weakly fair execution of the program terminates, nothing faulting, and at
    the end every unscoped buffer holds what the fold says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WW10 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WW0 m c) ∗ Rst c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (WW0 m c)
        from Pipeline.unscopedBufs_held c (WW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WW10 m c b)
    (hfin := fun c s' => by
      iintro ⟨⟨Hh, -⟩, HSI⟩
      unfold StableHlo.held
      imodintro
      iapply (pointsTo_read_all (Pipeline.ucRefs τ sig) (fun b => (((c : Thread nD τ)).1, b)) (WW10 m c) s')
      isplitl [Hh] <;> iassumption)
    (hQ := fun s h c => h c)

/-- The frame: the arguments end as they started. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_arg0 (by decide))).trans (WW10_main_arg0 m c),
     (h c _ (mem_ucH main_arg1 (by decide))).trans (WW10_main_arg1 m c),
     (h c _ (mem_ucH main_arg2 (by decide))).trans (WW10_main_arg2 m c),
     (h c _ (mem_ucH main_arg3 (by decide))).trans (WW10_main_arg3 m c),
     (h c _ (mem_ucH main_arg4 (by decide))).trans (WW10_main_arg4 m c)⟩) (run_all m ρ)

end Cert.Kernel.Hand

end
-- ==== Proof.Ideal.R0.lean ====
/-
  The first launch: one pass over the rows of `x`, 512 rows at a point, sixteen points. The body reads its
  block of 512 full rows, sums each row along the lanes, multiplies every entry by its row's sum and keeps the
  positive part; it stores the whole block. Stated at the buffer contents `V` the launch finds.
-/
import proofs.«171023_j75617194213445_1_alg».proof.Proof.Gen.KernelIdeal.Launch
import proofs.«171023_j75617194213445_1_alg».proof.Proof.Gen.KernelIdeal.Skeleton
import proofs.«171023_j75617194213445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 by 4096 block as one rectangle. -/
abbrev r0_0 : Rect S512x4096 := Rect.unit (s := S512x4096) ![0, 0] S512x4096.size inb_S512x4096_S512x4096_0_0

/-- What the body leaves in the output's staging buffer: every entry times its row's sum, positive part. -/
def out0_1 (x0 : Vec F S512x4096 .f32) : Vec F S512x4096 .f32 :=
  View.canon [⟨r0_0, k0_pay1 (View.ld x0 r0_0)⟩]

theorem cover0_1 (p0 : Vec F S512x4096 .f32) (y : S512x4096.Idx) :
    ∃ pc ∈ ([⟨r0_0, p0⟩] : List (View.Piece (Elt F) S512x4096 .f32)), y ∈ pc.1.set :=
  View.cover_of_tiled [⟨r0_0, p0⟩] S512x4096.size (by rfl) y

set_option maxHeartbeats 1000000 in
/-- The body on whole staging memrefs: the input kept, the output at `out0_1` of the input. -/
theorem sound_kernel0 (c : Dev nD) (E : Set ℕ) (i : grid0.Coords) (arg0 : Memref sig .tc .vmem S512x4096 .f32) (harg0 : arg0.IsWhole) (arg1 : Memref sig .tc .vmem S512x4096 .f32) (harg1 : arg1.IsWhole)
    (x0 : Vec F S512x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__interactions_kernel i arg0 harg0 arg1 harg1) K := by
  simp only [cc0__interactions_kernel_eq_skeleton]; unfold cc0__interactions_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The launch's proof data at the contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.R1.lean ====
/-
  One layer's launch: the layer's product, tiled. The grid has 4 row blocks of 2048 rows, 2 column blocks of 2048
  columns and 4 steps along the contracted axis, the last varying fastest: point t is (t / 8, t / 4 % 2, t % 4). A
  2048 by 2048 accumulator lives in a scratch buffer the kernel keeps between points. At a step-0 point the body
  zeroes it; at every point it adds the product of the point's 2048 by 1024 block of the activations with the
  transpose of the point's 2048 by 1024 block of the weights; at a step-3 point it adds the bias block along the rows,
  keeps the positive part and stores that into the output block, which is written back there and nowhere else.
  Stated at the buffer contents `V` the launch finds.
-/
import proofs.«171023_j75617194213445_1_alg».proof.Proof.Gen.KernelIdeal.Launch
import proofs.«171023_j75617194213445_1_alg».proof.Proof.Gen.KernelIdeal.Skeleton
import proofs.«171023_j75617194213445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the input's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is step 0 of the contracted axis", as the body computes it from the point's coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is step 3, the last". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are live at every point; the output is live exactly at the last step, and elsewhere neither stored into
    nor written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x2048 .bf16 := win1_3.stage (cfg1.slots t 3)
abbrev hs1_3 (t : Fin cfg1.N) : (ms1_3 t).IsWhole := hstage1_3 ((cfg1.slots t 3).cast nbuf1_3)
/-- The accumulator: a whole scratch buffer of the kernel's own. -/
abbrev scM1 : Memref sig .tc .vmem S2048x2048 .f32 := Memref.whole cc1_scratch0

/-- What the launch hands the body besides the windows: the accumulator at some contents, every other scoped buffer
    unopened, the generator register at some state. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

theorem hz1_r1 : (![0] : Fin 1 → Nat) = fun _ => 0 := funext fun a => by fin_cases a; rfl
theorem hz2_r1 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run1_first (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : cond1_0 i) (hc1 : ¬cond1_1 i) (o : Vec F S2048x2048 .bf16) :
    iprop(owns (c : Thread nD τ) arg3 fullShare x ∗ owns (c : Thread nD τ) arg4 fullShare w ∗ owns (c : Thread nD τ) arg5 fullShare b
        ∗ owns (c : Thread nD τ) arg6 fullShare o ∗ (∃ a, owns (c : Thread nD τ) arg7 fullShare a)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 (k1_pay1 (F := F)) x w)) -∗ K ⟨⟩))
      ⊢ wp frame (wpE (defs₀ (F := F)) Variants.none c none) E (cc1__linear_relu_kernel i arg3 harg3 arg4 harg4 arg5 harg5 arg6 harg6 arg7 harg7) K := by
  simp only [cc1__linear_relu_kernel_eq_skeleton]; unfold cc1__linear_relu_kernel_skel
  unfold owns
  iintro ⟨⟨%f3, %hf3, H3⟩, ⟨%f4, %hf4, H4⟩, ⟨%f5, %hf5, H5⟩, ⟨%f6, %hf6, H6⟩, ⟨%a, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r1]; rfl, Rect.set_whole]; exact Finset.mem_univ y⟩), View.canon_cons_unit_zero hz2_r1]
  simp only [View.readAt_eq_ld, View.ld_unit_zero (S := S2048x2048) hz2_r1, View.ld_unit_zero (S := S2048x1024) hz2_r1, View.ld_unit_zero (S := S2048) hz1_r1, View.readCov_unit_zero (S := S2048x2048) _ hz2_r1]

set_option maxHeartbeats 1000000 in
/-- A middle point: the accumulator gains the product; the output's buffer is untouched. -/
theorem run1_mid (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond1_0 i) (hc1 : ¬cond1_1 i) (o : Vec F S2048x2048 .bf16) (a : Vec F S2048x2048 .f32) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 a x w)) -∗ K ⟨⟩))
      ⊢ wp frame (wpE (defs₀ (F := F)) Variants.none c none) E (cc1__linear_relu_kernel i arg3 harg3 arg4 harg4 arg5 harg5 arg6 harg6 arg7 harg7) K := by
  simp only [cc1__linear_relu_kernel_eq_skeleton]; unfold cc1__linear_relu_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r1]; rfl, Rect.set_whole]; exact Finset.mem_univ y⟩), View.canon_cons_unit_zero hz2_r1]
  simp only [View.readAt_eq_ld, View.ld_unit_zero (S := S2048x2048) hz2_r1, View.ld_unit_zero (S := S2048x1024) hz2_r1, View.ld_unit_zero (S := S2048) hz1_r1, View.readCov_unit_zero (S := S2048x2048) _ hz2_r1]

set_option maxHeartbeats 1000000 in
/-- A step-3 point: the accumulator gains the product, and the output's buffer, at anything, ends at the positive part of
    the accumulator plus the bias along the rows. -/
theorem run1_last (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond1_0 i) (hc1 : cond1_1 i) (a : Vec F S2048x2048 .f32) :
    iprop(owns (c : Thread nD τ) arg3 fullShare x ∗ owns (c : Thread nD τ) arg4 fullShare w ∗ owns (c : Thread nD τ) arg5 fullShare b
        ∗ (∃ o, owns (c : Thread nD τ) arg6 fullShare o) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 a x w) b) ∗ owns (c : Thread nD τ) arg7 fullShare (k1_pay2 a x w)) -∗ K ⟨⟩))
      ⊢ wp frame (wpE (defs₀ (F := F)) Variants.none c none) E (cc1__linear_relu_kernel i arg3 harg3 arg4 harg4 arg5 harg5 arg6 harg6 arg7 harg7) K := by
  simp only [cc1__linear_relu_kernel_eq_skeleton]; unfold cc1__linear_relu_kernel_skel
  unfold owns
  iintro ⟨⟨%f3, %hf3, H3⟩, ⟨%f4, %hf4, H4⟩, ⟨%f5, %hf5, H5⟩, ⟨%o, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r1]; rfl, Rect.set_whole]; exact Finset.mem_univ y⟩), View.canon_cons_unit_zero hz2_r1]
    simp only [View.readAt_eq_ld, View.ld_unit_zero (S := S2048x2048) hz2_r1, View.ld_unit_zero (S := S2048x1024) hz2_r1, View.ld_unit_zero (S := S2048) hz1_r1, View.readCov_unit_zero (S := S2048x2048) _ hz2_r1]
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r1]; rfl, Rect.set_whole]; exact Finset.mem_univ y⟩), View.canon_cons_unit_zero hz2_r1]
  simp only [View.readAt_eq_ld, View.ld_unit_zero (S := S2048x2048) hz2_r1, View.ld_unit_zero (S := S2048x1024) hz2_r1, View.ld_unit_zero (S := S2048) hz1_r1, View.readCov_unit_zero (S := S2048x2048) _ hz2_r1]

/-! ## The accumulator after each point -/

/-- What the accumulator holds after the body at point `n`: at a step-0 point the point's product added to zero,
    elsewhere the point's product added to what the point before left. -/
def acc1 (c : Dev nD) : (n : ℕ) → n < cfg1.N → Vec F S2048x2048 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_first (c : Dev nD) (t : Fin cfg1.N) (h0 : t.val % 4 = 0) :
    acc1 V c t.val t.isLt = k1_pay2 (k1_pay1 (F := F)) (iblk1 V c 0 t) (iblk1 V c 1 t) := by
  obtain ⟨n, hn⟩ := t
  cases n with
  | zero => rfl
  | succ n => exact if_pos h0

theorem acc1_step (c : Dev nD) (t : Fin cfg1.N) (h0 : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The launch's proof data at the contents `V`: the inputs' buffers keep their blocks; the output's buffer after a
    step-3 point holds the positive part of the accumulator plus the bias (at the other points it is not consulted). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: which of the three cases the point is in is read off its position; the invariant hands the
    accumulator over at what the point before left (at anything at the very first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [acc1_step V c t h0]
    rw [Phi1_castSucc V c t, Phi1_pos V c _ _ hz]
    iintro ⟨⟨⟨HS, HR⟩, Hg⟩, Ho, ⟨%d0, H0⟩, ⟨%d1, H1⟩, ⟨%d2, H2⟩, ⟨%d3, H3⟩⟩
    iapply (run1_last c Set.univ (grid1.coords t) _ _ _ _ _ _ _ _ _ _ (iblk1 V c 0 t) (iblk1 V c 1 t) (iblk1 V c 2 t) _
      (fun h => h0 ((hcond1_0 t).mp h)) ((hcond1_1 t).mpr h1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 4 = 0
    · rw [acc1_first V c t h0]
      by_cases hz : t.val = 0
      · rw [Phi1_castSucc V c t, Phi1_zero V c _ _ hz, PhiA1_eq]
        iintro ⟨⟨⟨HS, HR⟩, Hg⟩, Ho, ⟨%d0, H0⟩, ⟨%d1, H1⟩, ⟨%d2, H2⟩, ⟨%d3, H3⟩⟩
        iapply (run1_first c Set.univ (grid1.coords t) _ _ _ _ _ _ _ _ _ _ (iblk1 V c 0 t) (iblk1 V c 1 t) (iblk1 V c 2 t) _
          ((hcond1_0 t).mpr h0) (fun h => h1 ((hcond1_1 t).mp h)) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [Phi1_castSucc V c t, Phi1_pos V c _ _ hz]
        iintro ⟨⟨⟨HS, HR⟩, Hg⟩, Ho, ⟨%d0, H0⟩, ⟨%d1, H1⟩, ⟨%d2, H2⟩, ⟨%d3, H3⟩⟩
        iapply (run1_first c Set.univ (grid1.coords t) _ _ _ _ _ _ _ _ _ _ (iblk1 V c 0 t) (iblk1 V c 1 t) (iblk1 V c 2 t) _
          ((hcond1_0 t).mpr h0) (fun h => h1 ((hcond1_1 t).mp h)) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc1_step V c t h0]
      rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (run1_mid c Set.univ (grid1.coords t) _ _ _ _ _ _ _ _ _ _ (iblk1 V c 0 t) (iblk1 V c 1 t) (iblk1 V c 2 t) _
        (fun h => h0 ((hcond1_0 t).mp h)) (fun h => h1 ((hcond1_1 t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands over is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HS, HR⟩, Hg⟩
  isplitl [HS HR]
  · isplitl [HS]; · iexists _; iexact HS
    iexact HR
  iexact Hg

end Cert.KernelIdeal.Hand

end
-- ==== Proof.Ideal.R2.lean ====
/-
  One layer's launch: the layer's product, tiled. The grid has 4 row blocks of 2048 rows, 2 column blocks of 2048
  columns and 4 steps along the contracted axis, the last varying fastest: point t is (t / 8, t / 4 % 2, t % 4). A
  2048 by 2048 accumulator lives in a scratch buffer the kernel keeps between points. At a step-0 point the body
  zeroes it; at every point it adds the product of the point's 2048 by 1024 block of the activations with the
  transpose of the point's 2048 by 1024 block of the weights; at a step-3 point it adds the bias block along the rows,
  keeps the positive part and stores that into the output block, which is written back there and nowhere else.
  Stated at the buffer contents `V` the launch finds.
-/
import proofs.«171023_j75617194213445_1_alg».proof.Proof.Gen.KernelIdeal.Launch
import proofs.«171023_j75617194213445_1_alg».proof.Proof.Gen.KernelIdeal.Skeleton
import proofs.«171023_j75617194213445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds the input's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- "This is step 0 of the contracted axis", as the body computes it from the point's coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "This is step 3, the last". -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The inputs are live at every point; the output is live exactly at the last step, and elsewhere neither stored into
    nor written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x2048 .bf16 := win2_3.stage (cfg2.slots t 3)
abbrev hs2_3 (t : Fin cfg2.N) : (ms2_3 t).IsWhole := hstage2_3 ((cfg2.slots t 3).cast nbuf2_3)
/-- The accumulator: a whole scratch buffer of the kernel's own. -/
abbrev scM2 : Memref sig .tc .vmem S2048x2048 .f32 := Memref.whole cc2_scratch0

/-- What the launch hands the body besides the windows: the accumulator at some contents, every other scoped buffer
    unopened, the generator register at some state. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

theorem hz1_r2 : (![0] : Fin 1 → Nat) = fun _ => 0 := funext fun a => by fin_cases a; rfl
theorem hz2_r2 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run2_first (c : Dev nD) (E : Set ℕ) (i : grid2.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : cond2_0 i) (hc1 : ¬cond2_1 i) (o : Vec F S2048x2048 .bf16) :
    iprop(owns (c : Thread nD τ) arg3 fullShare x ∗ owns (c : Thread nD τ) arg4 fullShare w ∗ owns (c : Thread nD τ) arg5 fullShare b
        ∗ owns (c : Thread nD τ) arg6 fullShare o ∗ (∃ a, owns (c : Thread nD τ) arg7 fullShare a)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 (k2_pay1 (F := F)) x w)) -∗ K ⟨⟩))
      ⊢ wp frame (wpE (defs₀ (F := F)) Variants.none c none) E (cc2__linear_relu_kernel i arg3 harg3 arg4 harg4 arg5 harg5 arg6 harg6 arg7 harg7) K := by
  simp only [cc2__linear_relu_kernel_eq_skeleton]; unfold cc2__linear_relu_kernel_skel
  unfold owns
  iintro ⟨⟨%f3, %hf3, H3⟩, ⟨%f4, %hf4, H4⟩, ⟨%f5, %hf5, H5⟩, ⟨%f6, %hf6, H6⟩, ⟨%a, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r2]; rfl, Rect.set_whole]; exact Finset.mem_univ y⟩), View.canon_cons_unit_zero hz2_r2]
  simp only [View.readAt_eq_ld, View.ld_unit_zero (S := S2048x2048) hz2_r2, View.ld_unit_zero (S := S2048x1024) hz2_r2, View.ld_unit_zero (S := S2048) hz1_r2, View.readCov_unit_zero (S := S2048x2048) _ hz2_r2]

set_option maxHeartbeats 1000000 in
/-- A middle point: the accumulator gains the product; the output's buffer is untouched. -/
theorem run2_mid (c : Dev nD) (E : Set ℕ) (i : grid2.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond2_0 i) (hc1 : ¬cond2_1 i) (o : Vec F S2048x2048 .bf16) (a : Vec F S2048x2048 .f32) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 a x w)) -∗ K ⟨⟩))
      ⊢ wp frame (wpE (defs₀ (F := F)) Variants.none c none) E (cc2__linear_relu_kernel i arg3 harg3 arg4 harg4 arg5 harg5 arg6 harg6 arg7 harg7) K := by
  simp only [cc2__linear_relu_kernel_eq_skeleton]; unfold cc2__linear_relu_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r2]; rfl, Rect.set_whole]; exact Finset.mem_univ y⟩), View.canon_cons_unit_zero hz2_r2]
  simp only [View.readAt_eq_ld, View.ld_unit_zero (S := S2048x2048) hz2_r2, View.ld_unit_zero (S := S2048x1024) hz2_r2, View.ld_unit_zero (S := S2048) hz1_r2, View.readCov_unit_zero (S := S2048x2048) _ hz2_r2]

set_option maxHeartbeats 1000000 in
/-- A step-3 point: the accumulator gains the product, and the output's buffer, at anything, ends at the positive part of
    the accumulator plus the bias along the rows. -/
theorem run2_last (c : Dev nD) (E : Set ℕ) (i : grid2.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond2_0 i) (hc1 : cond2_1 i) (a : Vec F S2048x2048 .f32) :
    iprop(owns (c : Thread nD τ) arg3 fullShare x ∗ owns (c : Thread nD τ) arg4 fullShare w ∗ owns (c : Thread nD τ) arg5 fullShare b
        ∗ (∃ o, owns (c : Thread nD τ) arg6 fullShare o) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k2_pay3 (k2_pay2 a x w) b) ∗ owns (c : Thread nD τ) arg7 fullShare (k2_pay2 a x w)) -∗ K ⟨⟩))
      ⊢ wp frame (wpE (defs₀ (F := F)) Variants.none c none) E (cc2__linear_relu_kernel i arg3 harg3 arg4 harg4 arg5 harg5 arg6 harg6 arg7 harg7) K := by
  simp only [cc2__linear_relu_kernel_eq_skeleton]; unfold cc2__linear_relu_kernel_skel
  unfold owns
  iintro ⟨⟨%f3, %hf3, H3⟩, ⟨%f4, %hf4, H4⟩, ⟨%f5, %hf5, H5⟩, ⟨%o, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r2]; rfl, Rect.set_whole]; exact Finset.mem_univ y⟩), View.canon_cons_unit_zero hz2_r2]
    simp only [View.readAt_eq_ld, View.ld_unit_zero (S := S2048x2048) hz2_r2, View.ld_unit_zero (S := S2048x1024) hz2_r2, View.ld_unit_zero (S := S2048) hz1_r2, View.readCov_unit_zero (S := S2048x2048) _ hz2_r2]
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r2]; rfl, Rect.set_whole]; exact Finset.mem_univ y⟩), View.canon_cons_unit_zero hz2_r2]
  simp only [View.readAt_eq_ld, View.ld_unit_zero (S := S2048x2048) hz2_r2, View.ld_unit_zero (S := S2048x1024) hz2_r2, View.ld_unit_zero (S := S2048) hz1_r2, View.readCov_unit_zero (S := S2048x2048) _ hz2_r2]

/-! ## The accumulator after each point -/

/-- What the accumulator holds after the body at point `n`: at a step-0 point the point's product added to zero,
    elsewhere the point's product added to what the point before left. -/
def acc2 (c : Dev nD) : (n : ℕ) → n < cfg2.N → Vec F S2048x2048 .f32
  | 0, hn => k2_pay2 (k2_pay1 (F := F)) (iblk2 V c 0 ⟨0, hn⟩) (iblk2 V c 1 ⟨0, hn⟩)
  | n + 1, hn =>
    if (n + 1) % 4 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_first (c : Dev nD) (t : Fin cfg2.N) (h0 : t.val % 4 = 0) :
    acc2 V c t.val t.isLt = k2_pay2 (k2_pay1 (F := F)) (iblk2 V c 0 t) (iblk2 V c 1 t) := by
  obtain ⟨n, hn⟩ := t
  cases n with
  | zero => rfl
  | succ n => exact if_pos h0

theorem acc2_step (c : Dev nD) (t : Fin cfg2.N) (h0 : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl
theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The launch's proof data at the contents `V`: the inputs' buffers keep their blocks; the output's buffer after a
    step-3 point holds the positive part of the accumulator plus the bias (at the other points it is not consulted). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (acc2 V c t.val t.isLt) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: which of the three cases the point is in is read off its position; the invariant hands the
    accumulator over at what the point before left (at anything at the very first point) and takes it back at this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 32 := lt_of_lt_of_eq t.isLt (show cfg2.N = 32 from N_2)
  by_cases h1 : t.val % 4 = 3
  · have h0 : ¬t.val % 4 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [acc2_step V c t h0]
    rw [Phi2_castSucc V c t, Phi2_pos V c _ _ hz]
    iintro ⟨⟨⟨HS, HR⟩, Hg⟩, Ho, ⟨%d0, H0⟩, ⟨%d1, H1⟩, ⟨%d2, H2⟩, ⟨%d3, H3⟩⟩
    iapply (run2_last c Set.univ (grid2.coords t) _ _ _ _ _ _ _ _ _ _ (iblk2 V c 0 t) (iblk2 V c 1 t) (iblk2 V c 2 t) _
      (fun h => h0 ((hcond2_0 t).mp h)) ((hcond2_1 t).mpr h1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t (fun h => h1 ((hcond2_1 t).mp h))) (noFlush2_3 t (fun h => h1 ((hcond2_1 t).mp h)))]
    by_cases h0 : t.val % 4 = 0
    · rw [acc2_first V c t h0]
      by_cases hz : t.val = 0
      · rw [Phi2_castSucc V c t, Phi2_zero V c _ _ hz, PhiA2_eq]
        iintro ⟨⟨⟨HS, HR⟩, Hg⟩, Ho, ⟨%d0, H0⟩, ⟨%d1, H1⟩, ⟨%d2, H2⟩, ⟨%d3, H3⟩⟩
        iapply (run2_first c Set.univ (grid2.coords t) _ _ _ _ _ _ _ _ _ _ (iblk2 V c 0 t) (iblk2 V c 1 t) (iblk2 V c 2 t) _
          ((hcond2_0 t).mpr h0) (fun h => h1 ((hcond2_1 t).mp h)) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [Phi2_castSucc V c t, Phi2_pos V c _ _ hz]
        iintro ⟨⟨⟨HS, HR⟩, Hg⟩, Ho, ⟨%d0, H0⟩, ⟨%d1, H1⟩, ⟨%d2, H2⟩, ⟨%d3, H3⟩⟩
        iapply (run2_first c Set.univ (grid2.coords t) _ _ _ _ _ _ _ _ _ _ (iblk2 V c 0 t) (iblk2 V c 1 t) (iblk2 V c 2 t) _
          ((hcond2_0 t).mpr h0) (fun h => h1 ((hcond2_1 t).mp h)) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc2_step V c t h0]
      rw [Phi2_castSucc V c t, Phi2_pos V c _ _ hz]
      iintro ⟨⟨⟨HS, HR⟩, Hg⟩, Ho, ⟨%d0, H0⟩, ⟨%d1, H1⟩, ⟨%d2, H2⟩, ⟨%d3, H3⟩⟩
      iapply (run2_mid c Set.univ (grid2.coords t) _ _ _ _ _ _ _ _ _ _ (iblk2 V c 0 t) (iblk2 V c 1 t) (iblk2 V c 2 t) _
        (fun h => h0 ((hcond2_0 t).mp h)) (fun h => h1 ((hcond2_1 t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands over is the invariant before the first point, -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- and after the last point the invariant gives it back, the accumulator's contents forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), PhiA2_eq]
  iintro ⟨⟨HS, HR⟩, Hg⟩
  isplitl [HS HR]
  · isplitl [HS]; · iexists _; iexact HS
    iexact HR
  iexact Hg

end Cert.KernelIdeal.Hand

end
-- ==== Proof.Ideal.R3.lean ====
/-
  One layer's launch: the layer's product, tiled. The grid has 4 row blocks of 2048 rows, 2 column blocks of 2048
  columns and 4 steps along the contracted axis, the last varying fastest: point t is (t / 8, t / 4 % 2, t % 4). A
  2048 by 2048 accumulator lives in a scratch buffer the kernel keeps between points. At a step-0 point the body
  zeroes it; at every point it adds the product of the point's 2048 by 1024 block of the activations with the
  transpose of the point's 2048 by 1024 block of the weights; at a step-3 point it adds the bias block along the rows,
  keeps the positive part and stores that into the output block, which is written back there and nowhere else.
  Stated at the buffer contents `V` the launch finds.
-/
import proofs.«171023_j75617194213445_1_alg».proof.Proof.Gen.KernelIdeal.Launch
import proofs.«171023_j75617194213445_1_alg».proof.Proof.Gen.KernelIdeal.Skeleton
import proofs.«171023_j75617194213445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds the input's block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- "This is step 0 of the contracted axis", as the body computes it from the point's coordinates. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- "This is step 3, the last". -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-- The inputs are live at every point; the output is live exactly at the last step, and elsewhere neither stored into
    nor written back. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x2048 .bf16 := win3_3.stage (cfg3.slots t 3)
abbrev hs3_3 (t : Fin cfg3.N) : (ms3_3 t).IsWhole := hstage3_3 ((cfg3.slots t 3).cast nbuf3_3)
/-- The accumulator: a whole scratch buffer of the kernel's own. -/
abbrev scM3 : Memref sig .tc .vmem S2048x2048 .f32 := Memref.whole cc3_scratch0

/-- What the launch hands the body besides the windows: the accumulator at some contents, every other scoped buffer
    unopened, the generator register at some state. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

theorem hz1_r3 : (![0] : Fin 1 → Nat) = fun _ => 0 := funext fun a => by fin_cases a; rfl
theorem hz2_r3 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run3_first (c : Dev nD) (E : Set ℕ) (i : grid3.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : cond3_0 i) (hc1 : ¬cond3_1 i) (o : Vec F S2048x2048 .bf16) :
    iprop(owns (c : Thread nD τ) arg3 fullShare x ∗ owns (c : Thread nD τ) arg4 fullShare w ∗ owns (c : Thread nD τ) arg5 fullShare b
        ∗ owns (c : Thread nD τ) arg6 fullShare o ∗ (∃ a, owns (c : Thread nD τ) arg7 fullShare a)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k3_pay2 (k3_pay1 (F := F)) x w)) -∗ K ⟨⟩))
      ⊢ wp frame (wpE (defs₀ (F := F)) Variants.none c none) E (cc3__linear_relu_kernel i arg3 harg3 arg4 harg4 arg5 harg5 arg6 harg6 arg7 harg7) K := by
  simp only [cc3__linear_relu_kernel_eq_skeleton]; unfold cc3__linear_relu_kernel_skel
  unfold owns
  iintro ⟨⟨%f3, %hf3, H3⟩, ⟨%f4, %hf4, H4⟩, ⟨%f5, %hf5, H5⟩, ⟨%f6, %hf6, H6⟩, ⟨%a, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r3]; rfl, Rect.set_whole]; exact Finset.mem_univ y⟩), View.canon_cons_unit_zero hz2_r3]
  simp only [View.readAt_eq_ld, View.ld_unit_zero (S := S2048x2048) hz2_r3, View.ld_unit_zero (S := S2048x1024) hz2_r3, View.ld_unit_zero (S := S2048) hz1_r3, View.readCov_unit_zero (S := S2048x2048) _ hz2_r3]

set_option maxHeartbeats 1000000 in
/-- A middle point: the accumulator gains the product; the output's buffer is untouched. -/
theorem run3_mid (c : Dev nD) (E : Set ℕ) (i : grid3.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond3_0 i) (hc1 : ¬cond3_1 i) (o : Vec F S2048x2048 .bf16) (a : Vec F S2048x2048 .f32) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k3_pay2 a x w)) -∗ K ⟨⟩))
      ⊢ wp frame (wpE (defs₀ (F := F)) Variants.none c none) E (cc3__linear_relu_kernel i arg3 harg3 arg4 harg4 arg5 harg5 arg6 harg6 arg7 harg7) K := by
  simp only [cc3__linear_relu_kernel_eq_skeleton]; unfold cc3__linear_relu_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r3]; rfl, Rect.set_whole]; exact Finset.mem_univ y⟩), View.canon_cons_unit_zero hz2_r3]
  simp only [View.readAt_eq_ld, View.ld_unit_zero (S := S2048x2048) hz2_r3, View.ld_unit_zero (S := S2048x1024) hz2_r3, View.ld_unit_zero (S := S2048) hz1_r3, View.readCov_unit_zero (S := S2048x2048) _ hz2_r3]

set_option maxHeartbeats 1000000 in
/-- A step-3 point: the accumulator gains the product, and the output's buffer, at anything, ends at the positive part of
    the accumulator plus the bias along the rows. -/
theorem run3_last (c : Dev nD) (E : Set ℕ) (i : grid3.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond3_0 i) (hc1 : cond3_1 i) (a : Vec F S2048x2048 .f32) :
    iprop(owns (c : Thread nD τ) arg3 fullShare x ∗ owns (c : Thread nD τ) arg4 fullShare w ∗ owns (c : Thread nD τ) arg5 fullShare b
        ∗ (∃ o, owns (c : Thread nD τ) arg6 fullShare o) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k3_pay3 (k3_pay2 a x w) b) ∗ owns (c : Thread nD τ) arg7 fullShare (k3_pay2 a x w)) -∗ K ⟨⟩))
      ⊢ wp frame (wpE (defs₀ (F := F)) Variants.none c none) E (cc3__linear_relu_kernel i arg3 harg3 arg4 harg4 arg5 harg5 arg6 harg6 arg7 harg7) K := by
  simp only [cc3__linear_relu_kernel_eq_skeleton]; unfold cc3__linear_relu_kernel_skel
  unfold owns
  iintro ⟨⟨%f3, %hf3, H3⟩, ⟨%f4, %hf4, H4⟩, ⟨%f5, %hf5, H5⟩, ⟨%o, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r3]; rfl, Rect.set_whole]; exact Finset.mem_univ y⟩), View.canon_cons_unit_zero hz2_r3]
    simp only [View.readAt_eq_ld, View.ld_unit_zero (S := S2048x2048) hz2_r3, View.ld_unit_zero (S := S2048x1024) hz2_r3, View.ld_unit_zero (S := S2048) hz1_r3, View.readCov_unit_zero (S := S2048x2048) _ hz2_r3]
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r3]; rfl, Rect.set_whole]; exact Finset.mem_univ y⟩), View.canon_cons_unit_zero hz2_r3]
  simp only [View.readAt_eq_ld, View.ld_unit_zero (S := S2048x2048) hz2_r3, View.ld_unit_zero (S := S2048x1024) hz2_r3, View.ld_unit_zero (S := S2048) hz1_r3, View.readCov_unit_zero (S := S2048x2048) _ hz2_r3]

/-! ## The accumulator after each point -/

/-- What the accumulator holds after the body at point `n`: at a step-0 point the point's product added to zero,
    elsewhere the point's product added to what the point before left. -/
def acc3 (c : Dev nD) : (n : ℕ) → n < cfg3.N → Vec F S2048x2048 .f32
  | 0, hn => k3_pay2 (k3_pay1 (F := F)) (iblk3 V c 0 ⟨0, hn⟩) (iblk3 V c 1 ⟨0, hn⟩)
  | n + 1, hn =>
    if (n + 1) % 4 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

theorem acc3_first (c : Dev nD) (t : Fin cfg3.N) (h0 : t.val % 4 = 0) :
    acc3 V c t.val t.isLt = k3_pay2 (k3_pay1 (F := F)) (iblk3 V c 0 t) (iblk3 V c 1 t) := by
  obtain ⟨n, hn⟩ := t
  cases n with
  | zero => rfl
  | succ n => exact if_pos h0

theorem acc3_step (c : Dev nD) (t : Fin cfg3.N) (h0 : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl
theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl
theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The launch's proof data at the contents `V`: the inputs' buffers keep their blocks; the output's buffer after a
    step-3 point holds the positive part of the accumulator plus the bias (at the other points it is not consulted). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Phi3_castSucc (c : Dev nD) (t : Fin cfg3.N) :
    (dat3 V c).Φ t.castSucc = Phi3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = k3_pay3 (acc3 V c t.val t.isLt) (iblk3 V c 2 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: which of the three cases the point is in is read off its position; the invariant hands the
    accumulator over at what the point before left (at anything at the very first point) and takes it back at this point's. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h1 : t.val % 4 = 3
  · have h0 : ¬t.val % 4 = 0 := by omega
    have hz : t.val ≠ 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    rw [acc3_step V c t h0]
    rw [Phi3_castSucc V c t, Phi3_pos V c _ _ hz]
    iintro ⟨⟨⟨HS, HR⟩, Hg⟩, Ho, ⟨%d0, H0⟩, ⟨%d1, H1⟩, ⟨%d2, H2⟩, ⟨%d3, H3⟩⟩
    iapply (run3_last c Set.univ (grid3.coords t) _ _ _ _ _ _ _ _ _ _ (iblk3 V c 0 t) (iblk3 V c 1 t) (iblk3 V c 2 t) _
      (fun h => h0 ((hcond3_0 t).mp h)) ((hcond3_1 t).mpr h1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat3 V c) 3 t (idleAt3_3 t (fun h => h1 ((hcond3_1 t).mp h))) (noFlush3_3 t (fun h => h1 ((hcond3_1 t).mp h)))]
    by_cases h0 : t.val % 4 = 0
    · rw [acc3_first V c t h0]
      by_cases hz : t.val = 0
      · rw [Phi3_castSucc V c t, Phi3_zero V c _ _ hz, PhiA3_eq]
        iintro ⟨⟨⟨HS, HR⟩, Hg⟩, Ho, ⟨%d0, H0⟩, ⟨%d1, H1⟩, ⟨%d2, H2⟩, ⟨%d3, H3⟩⟩
        iapply (run3_first c Set.univ (grid3.coords t) _ _ _ _ _ _ _ _ _ _ (iblk3 V c 0 t) (iblk3 V c 1 t) (iblk3 V c 2 t) _
          ((hcond3_0 t).mpr h0) (fun h => h1 ((hcond3_1 t).mp h)) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [Phi3_castSucc V c t, Phi3_pos V c _ _ hz]
        iintro ⟨⟨⟨HS, HR⟩, Hg⟩, Ho, ⟨%d0, H0⟩, ⟨%d1, H1⟩, ⟨%d2, H2⟩, ⟨%d3, H3⟩⟩
        iapply (run3_first c Set.univ (grid3.coords t) _ _ _ _ _ _ _ _ _ _ (iblk3 V c 0 t) (iblk3 V c 1 t) (iblk3 V c 2 t) _
          ((hcond3_0 t).mpr h0) (fun h => h1 ((hcond3_1 t).mp h)) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc3_step V c t h0]
      rw [Phi3_castSucc V c t, Phi3_pos V c _ _ hz]
      iintro ⟨⟨⟨HS, HR⟩, Hg⟩, Ho, ⟨%d0, H0⟩, ⟨%d1, H1⟩, ⟨%d2, H2⟩, ⟨%d3, H3⟩⟩
      iapply (run3_mid c Set.univ (grid3.coords t) _ _ _ _ _ _ _ _ _ _ (iblk3 V c 0 t) (iblk3 V c 1 t) (iblk3 V c 2 t) _
        (fun h => h0 ((hcond3_0 t).mp h)) (fun h => h1 ((hcond3_1 t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the launch hands over is the invariant before the first point, -/
theorem hin3 (c : Dev nD) : Pipeline.ΦA spec3 c ⊢ (dat3 V c).Φ 0 := by
  rw [show (dat3 V c).Φ 0 = Phi3 V c 0 (Nat.zero_le _) from rfl, Phi3_zero V c 0 _ rfl]

/-- and after the last point the invariant gives it back, the accumulator's contents forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), PhiA3_eq]
  iintro ⟨⟨HS, HR⟩, Hg⟩
  isplitl [HS HR]
  · isplitl [HS]; · iexists _; iexact HS
    iexact HR
  iexact Hg

end Cert.KernelIdeal.Hand

end
-- ==== Proof.Ideal.R4.lean ====
/-
  One layer's launch: the layer's product, tiled. The grid has 4 row blocks of 2048 rows, 2 column blocks of 2048
  columns and 4 steps along the contracted axis, the last varying fastest: point t is (t / 8, t / 4 % 2, t % 4). A
  2048 by 2048 accumulator lives in a scratch buffer the kernel keeps between points. At a step-0 point the body
  zeroes it; at every point it adds the product of the point's 2048 by 1024 block of the activations with the
  transpose of the point's 2048 by 1024 block of the weights; at a step-3 point it adds the bias block along the rows,
  keeps the positive part and stores that into the output block, which is written back there and nowhere else.
  Stated at the buffer contents `V` the launch finds.
-/
import proofs.«171023_j75617194213445_1_alg».proof.Proof.Gen.KernelIdeal.Launch
import proofs.«171023_j75617194213445_1_alg».proof.Proof.Gen.KernelIdeal.Skeleton
import proofs.«171023_j75617194213445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds the input's block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body, over the grid -/

/-- "This is step 0 of the contracted axis", as the body computes it from the point's coordinates. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- "This is step 3, the last". -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-- The inputs are live at every point; the output is live exactly at the last step, and elsewhere neither stored into
    nor written back. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

/-! ## The memrefs the body is called with -/

abbrev ms4_0 (t : Fin cfg4.N) : Memref sig .tc .vmem S2048x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x2048 .bf16 := win4_3.stage (cfg4.slots t 3)
abbrev hs4_3 (t : Fin cfg4.N) : (ms4_3 t).IsWhole := hstage4_3 ((cfg4.slots t 3).cast nbuf4_3)
/-- The accumulator: a whole scratch buffer of the kernel's own. -/
abbrev scM4 : Memref sig .tc .vmem S2048x2048 .f32 := Memref.whole cc4_scratch0

/-- What the launch hands the body besides the windows: the accumulator at some contents, every other scoped buffer
    unopened, the generator register at some state. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; rfl

theorem hz1_r4 : (![0] : Fin 1 → Nat) = fun _ => 0 := funext fun a => by fin_cases a; rfl
theorem hz2_r4 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run4_first (c : Dev nD) (E : Set ℕ) (i : grid4.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : cond4_0 i) (hc1 : ¬cond4_1 i) (o : Vec F S2048x2048 .bf16) :
    iprop(owns (c : Thread nD τ) arg3 fullShare x ∗ owns (c : Thread nD τ) arg4 fullShare w ∗ owns (c : Thread nD τ) arg5 fullShare b
        ∗ owns (c : Thread nD τ) arg6 fullShare o ∗ (∃ a, owns (c : Thread nD τ) arg7 fullShare a)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k4_pay2 (k4_pay1 (F := F)) x w)) -∗ K ⟨⟩))
      ⊢ wp frame (wpE (defs₀ (F := F)) Variants.none c none) E (cc4__linear_relu_kernel i arg3 harg3 arg4 harg4 arg5 harg5 arg6 harg6 arg7 harg7) K := by
  simp only [cc4__linear_relu_kernel_eq_skeleton]; unfold cc4__linear_relu_kernel_skel
  unfold owns
  iintro ⟨⟨%f3, %hf3, H3⟩, ⟨%f4, %hf4, H4⟩, ⟨%f5, %hf5, H5⟩, ⟨%f6, %hf6, H6⟩, ⟨%a, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r4]; rfl, Rect.set_whole]; exact Finset.mem_univ y⟩), View.canon_cons_unit_zero hz2_r4]
  simp only [View.readAt_eq_ld, View.ld_unit_zero (S := S2048x2048) hz2_r4, View.ld_unit_zero (S := S2048x1024) hz2_r4, View.ld_unit_zero (S := S2048) hz1_r4, View.readCov_unit_zero (S := S2048x2048) _ hz2_r4]

set_option maxHeartbeats 1000000 in
/-- A middle point: the accumulator gains the product; the output's buffer is untouched. -/
theorem run4_mid (c : Dev nD) (E : Set ℕ) (i : grid4.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond4_0 i) (hc1 : ¬cond4_1 i) (o : Vec F S2048x2048 .bf16) (a : Vec F S2048x2048 .f32) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k4_pay2 a x w)) -∗ K ⟨⟩))
      ⊢ wp frame (wpE (defs₀ (F := F)) Variants.none c none) E (cc4__linear_relu_kernel i arg3 harg3 arg4 harg4 arg5 harg5 arg6 harg6 arg7 harg7) K := by
  simp only [cc4__linear_relu_kernel_eq_skeleton]; unfold cc4__linear_relu_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r4]; rfl, Rect.set_whole]; exact Finset.mem_univ y⟩), View.canon_cons_unit_zero hz2_r4]
  simp only [View.readAt_eq_ld, View.ld_unit_zero (S := S2048x2048) hz2_r4, View.ld_unit_zero (S := S2048x1024) hz2_r4, View.ld_unit_zero (S := S2048) hz1_r4, View.readCov_unit_zero (S := S2048x2048) _ hz2_r4]

set_option maxHeartbeats 1000000 in
/-- A step-3 point: the accumulator gains the product, and the output's buffer, at anything, ends at the positive part of
    the accumulator plus the bias along the rows. -/
theorem run4_last (c : Dev nD) (E : Set ℕ) (i : grid4.Coords)
    (arg3 : Memref sig .tc .vmem S2048x1024 .bf16) (harg3 : arg3.IsWhole) (arg4 : Memref sig .tc .vmem S2048x1024 .bf16) (harg4 : arg4.IsWhole)
    (arg5 : Memref sig .tc .vmem S2048 .f32) (harg5 : arg5.IsWhole) (arg6 : Memref sig .tc .vmem S2048x2048 .bf16) (harg6 : arg6.IsWhole)
    (arg7 : Memref sig .tc .vmem S2048x2048 .f32) (harg7 : arg7.IsWhole)
    (x w : Vec F S2048x1024 .bf16) (b : Vec F S2048 .f32) (K : PUnit → sProp 𝕄)
    (hc0 : ¬cond4_0 i) (hc1 : cond4_1 i) (a : Vec F S2048x2048 .f32) :
    iprop(owns (c : Thread nD τ) arg3 fullShare x ∗ owns (c : Thread nD τ) arg4 fullShare w ∗ owns (c : Thread nD τ) arg5 fullShare b
        ∗ (∃ o, owns (c : Thread nD τ) arg6 fullShare o) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k4_pay3 (k4_pay2 a x w) b) ∗ owns (c : Thread nD τ) arg7 fullShare (k4_pay2 a x w)) -∗ K ⟨⟩))
      ⊢ wp frame (wpE (defs₀ (F := F)) Variants.none c none) E (cc4__linear_relu_kernel i arg3 harg3 arg4 harg4 arg5 harg5 arg6 harg6 arg7 harg7) K := by
  simp only [cc4__linear_relu_kernel_eq_skeleton]; unfold cc4__linear_relu_kernel_skel
  unfold owns
  iintro ⟨⟨%f3, %hf3, H3⟩, ⟨%f4, %hf4, H4⟩, ⟨%f5, %hf5, H5⟩, ⟨%o, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r4]; rfl, Rect.set_whole]; exact Finset.mem_univ y⟩), View.canon_cons_unit_zero hz2_r4]
    simp only [View.readAt_eq_ld, View.ld_unit_zero (S := S2048x2048) hz2_r4, View.ld_unit_zero (S := S2048x1024) hz2_r4, View.ld_unit_zero (S := S2048) hz1_r4, View.readCov_unit_zero (S := S2048x2048) _ hz2_r4]
  iexists _; isplitr
  swap; · iexact H7
  ipureintro
  sl_unfold_words
  rw [View.read_writes_eq_canon _ _ _ (fun y => ⟨_, List.mem_cons_self, by
    show y ∈ (Rect.unit (s := S2048x2048) ![0, 0] S2048x2048.size inb_S2048x2048_S2048x2048_0_0).set
    rw [show (Rect.unit (s := S2048x2048) ![0, 0] S2048x2048.size inb_S2048x2048_S2048x2048_0_0) = Rect.whole S2048x2048 from by
      simp only [hz2_r4]; rfl, Rect.set_whole]; exact Finset.mem_univ y⟩), View.canon_cons_unit_zero hz2_r4]
  simp only [View.readAt_eq_ld, View.ld_unit_zero (S := S2048x2048) hz2_r4, View.ld_unit_zero (S := S2048x1024) hz2_r4, View.ld_unit_zero (S := S2048) hz1_r4, View.readCov_unit_zero (S := S2048x2048) _ hz2_r4]

/-! ## The accumulator after each point -/

/-- What the accumulator holds after the body at point `n`: at a step-0 point the point's product added to zero,
    elsewhere the point's product added to what the point before left. -/
def acc4 (c : Dev nD) : (n : ℕ) → n < cfg4.N → Vec F S2048x2048 .f32
  | 0, hn => k4_pay2 (k4_pay1 (F := F)) (iblk4 V c 0 ⟨0, hn⟩) (iblk4 V c 1 ⟨0, hn⟩)
  | n + 1, hn =>
    if (n + 1) % 4 = 0 then k4_pay2 (k4_pay1 (F := F)) (iblk4 V c 0 ⟨n + 1, hn⟩) (iblk4 V c 1 ⟨n + 1, hn⟩)
    else k4_pay2 (acc4 c n (Nat.lt_of_succ_lt hn)) (iblk4 V c 0 ⟨n + 1, hn⟩) (iblk4 V c 1 ⟨n + 1, hn⟩)

theorem acc4_first (c : Dev nD) (t : Fin cfg4.N) (h0 : t.val % 4 = 0) :
    acc4 V c t.val t.isLt = k4_pay2 (k4_pay1 (F := F)) (iblk4 V c 0 t) (iblk4 V c 1 t) := by
  obtain ⟨n, hn⟩ := t
  cases n with
  | zero => rfl
  | succ n => exact if_pos h0

theorem acc4_step (c : Dev nD) (t : Fin cfg4.N) (h0 : ¬t.val % 4 = 0) :
    acc4 V c t.val t.isLt = k4_pay2 (acc4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl
theorem Phi4_succ (c : Dev nD) (n : ℕ) (hn : n < cfg4.N) :
    Phi4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl
theorem Phi4_pos (c : Dev nD) (n : ℕ) (h : n ≤ cfg4.N) (hz : n ≠ 0) :
    Phi4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The launch's proof data at the contents `V`: the inputs' buffers keep their blocks; the output's buffer after a
    step-3 point holds the positive part of the accumulator plus the bias (at the other points it is not consulted). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt) (iblk4 V c 2 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem Phi4_castSucc (c : Dev nD) (t : Fin cfg4.N) :
    (dat4 V c).Φ t.castSucc = Phi4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k4_pay3 (acc4 V c t.val t.isLt) (iblk4 V c 2 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: which of the three cases the point is in is read off its position; the invariant hands the
    accumulator over at what the point before left (at anything at the very first point) and takes it back at this point's. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 32 := lt_of_lt_of_eq t.isLt (show cfg4.N = 32 from N_4)
  by_cases h1 : t.val % 4 = 3
  · have h0 : ¬t.val % 4 = 0 := by omega
    have hz : t.val ≠ 0 := by omega
    rw [show (dat4 V c).leavesExact 3 t = owns (c : Thread nD τ) (ms4_3 t) fullShare ((dat4 V c).after 3 t) from by
      unfold Dat.leavesExact; rw [liveAt4_3 t ((hcond4_1 t).mpr h1)], after4_3]
    rw [acc4_step V c t h0]
    rw [Phi4_castSucc V c t, Phi4_pos V c _ _ hz]
    iintro ⟨⟨⟨HS, HR⟩, Hg⟩, Ho, ⟨%d0, H0⟩, ⟨%d1, H1⟩, ⟨%d2, H2⟩, ⟨%d3, H3⟩⟩
    iapply (run4_last c Set.univ (grid4.coords t) _ _ _ _ _ _ _ _ _ _ (iblk4 V c 0 t) (iblk4 V c 1 t) (iblk4 V c 2 t) _
      (fun h => h0 ((hcond4_0 t).mp h)) ((hcond4_1 t).mpr h1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat4 V c) 3 t (idleAt4_3 t (fun h => h1 ((hcond4_1 t).mp h))) (noFlush4_3 t (fun h => h1 ((hcond4_1 t).mp h)))]
    by_cases h0 : t.val % 4 = 0
    · rw [acc4_first V c t h0]
      by_cases hz : t.val = 0
      · rw [Phi4_castSucc V c t, Phi4_zero V c _ _ hz, PhiA4_eq]
        iintro ⟨⟨⟨HS, HR⟩, Hg⟩, Ho, ⟨%d0, H0⟩, ⟨%d1, H1⟩, ⟨%d2, H2⟩, ⟨%d3, H3⟩⟩
        iapply (run4_first c Set.univ (grid4.coords t) _ _ _ _ _ _ _ _ _ _ (iblk4 V c 0 t) (iblk4 V c 1 t) (iblk4 V c 2 t) _
          ((hcond4_0 t).mpr h0) (fun h => h1 ((hcond4_1 t).mp h)) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [Phi4_castSucc V c t, Phi4_pos V c _ _ hz]
        iintro ⟨⟨⟨HS, HR⟩, Hg⟩, Ho, ⟨%d0, H0⟩, ⟨%d1, H1⟩, ⟨%d2, H2⟩, ⟨%d3, H3⟩⟩
        iapply (run4_first c Set.univ (grid4.coords t) _ _ _ _ _ _ _ _ _ _ (iblk4 V c 0 t) (iblk4 V c 1 t) (iblk4 V c 2 t) _
          ((hcond4_0 t).mpr h0) (fun h => h1 ((hcond4_1 t).mp h)) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc4_step V c t h0]
      rw [Phi4_castSucc V c t, Phi4_pos V c _ _ hz]
      iintro ⟨⟨⟨HS, HR⟩, Hg⟩, Ho, ⟨%d0, H0⟩, ⟨%d1, H1⟩, ⟨%d2, H2⟩, ⟨%d3, H3⟩⟩
      iapply (run4_mid c Set.univ (grid4.coords t) _ _ _ _ _ _ _ _ _ _ (iblk4 V c 0 t) (iblk4 V c 1 t) (iblk4 V c 2 t) _
        (fun h => h0 ((hcond4_0 t).mp h)) (fun h => h1 ((hcond4_1 t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

/-- What the launch hands over is the invariant before the first point, -/
theorem hin4 (c : Dev nD) : Pipeline.ΦA spec4 c ⊢ (dat4 V c).Φ 0 := by
  rw [show (dat4 V c).Φ 0 = Phi4 V c 0 (Nat.zero_le _) from rfl, Phi4_zero V c 0 _ rfl]

/-- and after the last point the invariant gives it back, the accumulator's contents forgotten. -/
theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), PhiA4_eq]
  iintro ⟨⟨HS, HR⟩, Hg⟩
  isplitl [HS HR]
  · isplitl [HS]; · iexists _; iexact HS
    iexact HR
  iexact Hg

end Cert.KernelIdeal.Hand

end
-- ==== Proof.Ideal.R5.lean ====
/-
  The last launch: the output product, tiled like a layer's but with 8 row blocks of 1024 rows: point t is
  (t / 8, t / 4 % 2, t % 4), 64 points. A 1024 by 2048 accumulator lives in a scratch buffer between points. At a step-0
  point the body zeroes it; at every point it adds to it the product of half the sum of the point's 1024 by 1024 blocks
  of the last layer's value and of the interaction term with the transpose of the point's 2048 by 1024 block of the output
  weights; at a step-3 point it adds the bias block along the rows and stores that into the output block, which is written
  back there and nowhere else. Stated at the buffer contents `V` the launch finds.
-/
import proofs.«171023_j75617194213445_1_alg».proof.Proof.Gen.KernelIdeal.Launch
import proofs.«171023_j75617194213445_1_alg».proof.Proof.Gen.KernelIdeal.Skeleton
import proofs.«171023_j75617194213445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's staging buffer holds the input's block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The two conditions of the body, over the grid -/

/-- "This is step 0 of the contracted axis", as the body computes it from the point's coordinates. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)
/-- "This is step 3, the last". -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-- The inputs are live at every point; the output is live exactly at the last step, and elsewhere neither stored into
    nor written back. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

/-! ## The memrefs the body is called with -/

abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x1024 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x2048 .f32 := win5_4.stage (cfg5.slots t 4)
abbrev hs5_4 (t : Fin cfg5.N) : (ms5_4 t).IsWhole := hstage5_4 ((cfg5.slots t 4).cast nbuf5_4)
/-- The accumulator: a whole scratch buffer of the kernel's own. -/
abbrev scM5 : Memref sig .tc .vmem S1024x2048 .f32 := Memref.whole cc5_scratch0

/-- What the launch hands the body besides the windows: the accumulator at some contents, every other scoped buffer
    unopened, the generator register at some state. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; rfl

theorem hz1_r5 : (![0] : Fin 1 → Nat) = fun _ => 0 := funext fun a => by fin_cases a; rfl
theorem hz2_r5 : (![0, 0] : Fin 2 → Nat) = fun _ => 0 := funext fun a => by fin_cases a <;> rfl

/-! ## The body, case by case -/

set_option maxHeartbeats 1000000 in
/-- A step-0 point: the accumulator, at anything, ends at the product added to zero; the output's buffer is untouched. -/
theorem run5_first (c : Dev nD) (E : Set ℕ) (i : grid5.Coords)
    (arg3 : Memref sig .tc .vmem S1024x1024 .bf16) (harg3 : arg3.IsWhole) (arg4 : Memref sig .tc .vmem S1024x1024 .f32) (harg4 : arg4.IsWhole)
    (arg5 : Memref sig .tc .vmem S2048x1024 .bf16) (harg5 : arg5.IsWhole) (arg6 : Memref sig .tc .vmem S2048 .f32) (harg6 : arg6.IsWhole)
    (arg7 : Memref sig .tc .vmem S1024x2048 .f32) (harg7 : arg7.IsWhole) (arg8 : Memref sig .tc .vmem S1024x2048 .f32) (harg8 : arg8.IsWhole)
    (h : Vec F S1024x1024 .bf16) (u : Vec F S1024x1024 .f32) (w : Vec F S2048x1024 .bf16) (b : Vec F S2048 .f32) (K : PUnit → sProp 𝕄)
    (hc0 : cond5_0 i) (hc1 : ¬cond5_1 i) (o : Vec F S1024x2048 .f32) :
    iprop(owns (c : Thread nD τ) arg3 fullShare h ∗ owns (c : Thread nD τ) arg4 fullShare u ∗ owns (c : Thread nD τ) arg5 fullShare w ∗ owns (c : Thread nD τ) arg6 fullShare b
        ∗ owns (c : Thread nD τ) arg7 fullShare o ∗ (∃ a, owns (c : Thread nD τ) arg8 fullShare a)
        ∗ (iprop(owns (c : Thread nD τ) arg3 fullShare h ∗ owns (c : Thread nD τ) arg4 fullShare u ∗ owns (c : Thread nD τ) arg5 fullShare w ∗ owns (c : Thread nD τ) arg6 fullShare b
            ∗ owns (c : Thread nD τ) arg7 fullShare o ∗ owns (c : Thread nD τ) arg8 fullShare (k5_pay2 h u (k5_pay1 (F := F)) w)) -∗ K ⟨⟩))
      ⊢ wp frame (wpE (defs₀ (F := F)) Variants.none c none) E (cc5__combine_kernel i arg3 harg3 arg4 harg4 arg5 harg5 arg6 harg6 arg7 harg7 arg8 harg8) K := by
  simp only [cc5__combine_kernel_eq_skeleton]; unfold cc5__combine_kernel_skel
  unfold owns
  iintro ⟨⟨%f3, %hf3, H3⟩, ⟨%f4, %hf4, H4⟩, ⟨%f5, %hf5, H5⟩, ⟨%f6, %hf6, H6⟩, ⟨%f7, %hf7, H7⟩, ⟨%a, %f8, -, H8⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, by
    show y ∈ (Rect.unit (s := S1024x2048) ![0, 0] S1024x2048.size inb_S1024x2048_S1024x2048_0_0).set
    rw [show (Rect.unit (s := S1024x2048) ![0, 0] S1024x2048.size inb_S1024x2048_S1024x2048_0_0) = Rect.whole S1024x2048 from by
      simp only [hz2_r5]; rfl, Rect.set_whole]; exact Finset.mem_univ y⟩), View.canon_cons_unit_zero hz2_r5]
  simp only [View.readAt_eq_ld, View.ld_unit_zero (S := S1024x2048) hz2_r5, View.ld_unit_zero (S := S1024x1024) hz2_r5, View.ld_unit_zero (S := S2048x1024) hz2_r5, View.ld_unit_zero (S := S2048) hz1_r5, View.readCov_unit_zero (S := S1024x2048) _ hz2_r5]

set_option maxHeartbeats 1000000 in
/-- A middle point: the accumulator gains the product; the output's buffer is untouched. -/
theorem run5_mid (c : Dev nD) (E : Set ℕ) (i : grid5.Coords)
    (arg3 : Memref sig .tc .vmem S1024x1024 .bf16) (harg3 : arg3.IsWhole) (arg4 : Memref sig .tc .vmem S1024x1024 .f32) (harg4 : arg4.IsWhole)
    (arg5 : Memref sig .tc .vmem S2048x1024 .bf16) (harg5 : arg5.IsWhole) (arg6 : Memref sig .tc .vmem S2048 .f32) (harg6 : arg6.IsWhole)
    (arg7 : Memref sig .tc .vmem S1024x2048 .f32) (harg7 : arg7.IsWhole) (arg8 : Memref sig .tc .vmem S1024x2048 .f32) (harg8 : arg8.IsWhole)
    (h : Vec F S1024x1024 .bf16) (u : Vec F S1024x1024 .f32) (w : Vec F S2048x1024 .bf16) (b : Vec F S2048 .f32) (K : PUnit → sProp 𝕄)
    (hc0 : ¬cond5_0 i) (hc1 : ¬cond5_1 i) (o : Vec F S1024x2048 .f32) (a : Vec F S1024x2048 .f32) :
    iprop(owns (c : Thread nD τ) arg3 fullShare h ∗ owns (c : Thread nD τ) arg4 fullShare u ∗ owns (c : Thread nD τ) arg5 fullShare w ∗ owns (c : Thread nD τ) arg6 fullShare b
        ∗ owns (c : Thread nD τ) arg7 fullShare o ∗ owns (c : Thread nD τ) arg8 fullShare a
        ∗ (iprop(owns (c : Thread nD τ) arg3 fullShare h ∗ owns (c : Thread nD τ) arg4 fullShare u ∗ owns (c : Thread nD τ) arg5 fullShare w ∗ owns (c : Thread nD τ) arg6 fullShare b
            ∗ owns (c : Thread nD τ) arg7 fullShare o ∗ owns (c : Thread nD τ) arg8 fullShare (k5_pay2 h u a w)) -∗ K ⟨⟩))
      ⊢ wp frame (wpE (defs₀ (F := F)) Variants.none c none) E (cc5__combine_kernel i arg3 harg3 arg4 harg4 arg5 harg5 arg6 harg6 arg7 harg7 arg8 harg8) K := by
  simp only [cc5__combine_kernel_eq_skeleton]; unfold cc5__combine_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, by
    show y ∈ (Rect.unit (s := S1024x2048) ![0, 0] S1024x2048.size inb_S1024x2048_S1024x2048_0_0).set
    rw [show (Rect.unit (s := S1024x2048) ![0, 0] S1024x2048.size inb_S1024x2048_S1024x2048_0_0) = Rect.whole S1024x2048 from by
      simp only [hz2_r5]; rfl, Rect.set_whole]; exact Finset.mem_univ y⟩), View.canon_cons_unit_zero hz2_r5]
  simp only [View.readAt_eq_ld, View.ld_unit_zero (S := S1024x2048) hz2_r5, View.ld_unit_zero (S := S1024x1024) hz2_r5, View.ld_unit_zero (S := S2048x1024) hz2_r5, View.ld_unit_zero (S := S2048) hz1_r5, View.readCov_unit_zero (S := S1024x2048) _ hz2_r5]

set_option maxHeartbeats 1000000 in
/-- A step-3 point: the accumulator gains the product, and the output's buffer, at anything, ends at the accumulator plus the
    bias along the rows. -/
theorem run5_last (c : Dev nD) (E : Set ℕ) (i : grid5.Coords)
    (arg3 : Memref sig .tc .vmem S1024x1024 .bf16) (harg3 : arg3.IsWhole) (arg4 : Memref sig .tc .vmem S1024x1024 .f32) (harg4 : arg4.IsWhole)
    (arg5 : Memref sig .tc .vmem S2048x1024 .bf16) (harg5 : arg5.IsWhole) (arg6 : Memref sig .tc .vmem S2048 .f32) (harg6 : arg6.IsWhole)
    (arg7 : Memref sig .tc .vmem S1024x2048 .f32) (harg7 : arg7.IsWhole) (arg8 : Memref sig .tc .vmem S1024x2048 .f32) (harg8 : arg8.IsWhole)
    (h : Vec F S1024x1024 .bf16) (u : Vec F S1024x1024 .f32) (w : Vec F S2048x1024 .bf16) (b : Vec F S2048 .f32) (K : PUnit → sProp 𝕄)
    (hc0 : ¬cond5_0 i) (hc1 : cond5_1 i) (a : Vec F S1024x2048 .f32) :
    iprop(owns (c : Thread nD τ) arg3 fullShare h ∗ owns (c : Thread nD τ) arg4 fullShare u ∗ owns (c : Thread nD τ) arg5 fullShare w ∗ owns (c : Thread nD τ) arg6 fullShare b
        ∗ (∃ o, owns (c : Thread nD τ) arg7 fullShare o) ∗ owns (c : Thread nD τ) arg8 fullShare a
        ∗ (iprop(owns (c : Thread nD τ) arg3 fullShare h ∗ owns (c : Thread nD τ) arg4 fullShare u ∗ owns (c : Thread nD τ) arg5 fullShare w ∗ owns (c : Thread nD τ) arg6 fullShare b
            ∗ owns (c : Thread nD τ) arg7 fullShare (k5_pay3 (k5_pay2 h u a w) b) ∗ owns (c : Thread nD τ) arg8 fullShare (k5_pay2 h u a w)) -∗ K ⟨⟩))
      ⊢ wp frame (wpE (defs₀ (F := F)) Variants.none c none) E (cc5__combine_kernel i arg3 harg3 arg4 harg4 arg5 harg5 arg6 harg6 arg7 harg7 arg8 harg8) K := by
  simp only [cc5__combine_kernel_eq_skeleton]; unfold cc5__combine_kernel_skel
  unfold owns
  iintro ⟨⟨%f3, %hf3, H3⟩, ⟨%f4, %hf4, H4⟩, ⟨%f5, %hf5, H5⟩, ⟨%f6, %hf6, H6⟩, ⟨%o, %f7, -, H7⟩, ⟨%f8, %hf8, H8⟩, Hk⟩
  subst hf3; subst hf4; subst hf5; subst hf6; subst hf8
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, by
      show y ∈ (Rect.unit (s := S1024x2048) ![0, 0] S1024x2048.size inb_S1024x2048_S1024x2048_0_0).set
      rw [show (Rect.unit (s := S1024x2048) ![0, 0] S1024x2048.size inb_S1024x2048_S1024x2048_0_0) = Rect.whole S1024x2048 from by
        simp only [hz2_r5]; rfl, Rect.set_whole]; exact Finset.mem_univ y⟩), View.canon_cons_unit_zero hz2_r5]
    simp only [View.readAt_eq_ld, View.ld_unit_zero (S := S1024x2048) hz2_r5, View.ld_unit_zero (S := S1024x1024) hz2_r5, View.ld_unit_zero (S := S2048x1024) hz2_r5, View.ld_unit_zero (S := S2048) hz1_r5, View.readCov_unit_zero (S := S1024x2048) _ hz2_r5]
  iexists _; isplitr
  swap; · iexact H8
  ipureintro
  sl_unfold_words
  rw [View.read_writes_eq_canon _ _ _ (fun y => ⟨_, List.mem_cons_self, by
    show y ∈ (Rect.unit (s := S1024x2048) ![0, 0] S1024x2048.size inb_S1024x2048_S1024x2048_0_0).set
    rw [show (Rect.unit (s := S1024x2048) ![0, 0] S1024x2048.size inb_S1024x2048_S1024x2048_0_0) = Rect.whole S1024x2048 from by
      simp only [hz2_r5]; rfl, Rect.set_whole]; exact Finset.mem_univ y⟩), View.canon_cons_unit_zero hz2_r5]
  simp only [View.readAt_eq_ld, View.ld_unit_zero (S := S1024x2048) hz2_r5, View.ld_unit_zero (S := S1024x1024) hz2_r5, View.ld_unit_zero (S := S2048x1024) hz2_r5, View.ld_unit_zero (S := S2048) hz1_r5, View.readCov_unit_zero (S := S1024x2048) _ hz2_r5]

/-! ## The accumulator after each point -/

/-- What the accumulator holds after the body at point `n`: at a step-0 point the point's product added to zero,
    elsewhere the point's product added to what the point before left. -/
def acc5 (c : Dev nD) : (n : ℕ) → n < cfg5.N → Vec F S1024x2048 .f32
  | 0, hn => k5_pay2 (iblk5 V c 0 ⟨0, hn⟩) (iblk5 V c 1 ⟨0, hn⟩) (k5_pay1 (F := F)) (iblk5 V c 2 ⟨0, hn⟩)
  | n + 1, hn =>
    if (n + 1) % 4 = 0 then k5_pay2 (iblk5 V c 0 ⟨n + 1, hn⟩) (iblk5 V c 1 ⟨n + 1, hn⟩) (k5_pay1 (F := F)) (iblk5 V c 2 ⟨n + 1, hn⟩)
    else k5_pay2 (iblk5 V c 0 ⟨n + 1, hn⟩) (iblk5 V c 1 ⟨n + 1, hn⟩) (acc5 c n (Nat.lt_of_succ_lt hn)) (iblk5 V c 2 ⟨n + 1, hn⟩)

theorem acc5_first (c : Dev nD) (t : Fin cfg5.N) (h0 : t.val % 4 = 0) :
    acc5 V c t.val t.isLt = k5_pay2 (iblk5 V c 0 t) (iblk5 V c 1 t) (k5_pay1 (F := F)) (iblk5 V c 2 t) := by
  obtain ⟨n, hn⟩ := t
  cases n with
  | zero => rfl
  | succ n => exact if_pos h0

theorem acc5_step (c : Dev nD) (t : Fin cfg5.N) (h0 : ¬t.val % 4 = 0) :
    acc5 V c t.val t.isLt = k5_pay2 (iblk5 V c 0 t) (iblk5 V c 1 t) (acc5 V c (t.val - 1) (Nat.lt_of_le_of_lt (Nat.sub_le _ _) t.isLt)) (iblk5 V c 2 t) := by
  obtain ⟨n, hn⟩ := t
  cases n with
  | zero => exact absurd (Nat.zero_mod _) h0
  | succ n => exact if_neg h0

/-- The launch's invariant before position `n`: before the first point what the launch hands over; afterwards the
    accumulator at what the point before left, every other scoped buffer unopened, the generator register at some state. -/
def Phi5 (c : Dev nD) : (n : ℕ) → n ≤ cfg5.N → sProp 𝕄
  | 0, _ => Pipeline.ΦA spec5 c
  | n + 1, hn => iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r))

theorem Phi5_zero (c : Dev nD) (n : ℕ) (h : n ≤ cfg5.N) (hz : n = 0) : Phi5 V c n h = Pipeline.ΦA spec5 c := by
  subst hz; rfl
theorem Phi5_succ (c : Dev nD) (n : ℕ) (hn : n < cfg5.N) :
    Phi5 V c (n + 1) hn = iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r)) := rfl
theorem Phi5_pos (c : Dev nD) (n : ℕ) (h : n ≤ cfg5.N) (hz : n ≠ 0) :
    Phi5 V c n h = iprop(iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The launch's proof data at the contents `V`: the inputs' buffers keep their blocks; the output's buffer after a
    step-3 point holds the accumulator plus the bias (at the other points it is not consulted). -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (acc5 V c t.val t.isLt) (iblk5 V c 3 t)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem Phi5_castSucc (c : Dev nD) (t : Fin cfg5.N) :
    (dat5 V c).Φ t.castSucc = Phi5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = k5_pay3 (acc5 V c t.val t.isLt) (iblk5 V c 3 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: which of the three cases the point is in is read off its position; the invariant hands the
    accumulator over at what the point before left (at anything at the very first point) and takes it back at this point's. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Phi5 V c (t.val + 1) t.isLt from rfl, Phi5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  have hN : t.val < 64 := lt_of_lt_of_eq t.isLt (show cfg5.N = 64 from N_5)
  by_cases h1 : t.val % 4 = 3
  · have h0 : ¬t.val % 4 = 0 := by omega
    have hz : t.val ≠ 0 := by omega
    rw [show (dat5 V c).leavesExact 4 t = owns (c : Thread nD τ) (ms5_4 t) fullShare ((dat5 V c).after 4 t) from by
      unfold Dat.leavesExact; rw [liveAt5_4 t ((hcond5_1 t).mpr h1)], after5_4]
    rw [acc5_step V c t h0]
    rw [Phi5_castSucc V c t, Phi5_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (run5_last c Set.univ (grid5.coords t) _ _ _ _ _ _ _ _ _ _ _ _ (iblk5 V c 0 t) (iblk5 V c 1 t) (iblk5 V c 2 t) (iblk5 V c 3 t) _
      (fun h => h0 ((hcond5_0 t).mp h)) ((hcond5_1 t).mpr h1) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat5 V c) 4 t (idleAt5_4 t (fun h => h1 ((hcond5_1 t).mp h))) (noFlush5_4 t (fun h => h1 ((hcond5_1 t).mp h)))]
    by_cases h0 : t.val % 4 = 0
    · rw [acc5_first V c t h0]
      by_cases hz : t.val = 0
      · rw [Phi5_castSucc V c t, Phi5_zero V c _ _ hz, PhiA5_eq]
        iintro ⟨⟨⟨HS, HR⟩, Hg⟩, Ho, ⟨%d0, H0⟩, ⟨%d1, H1⟩, ⟨%d2, H2⟩, ⟨%d3, H3⟩, ⟨%d4, H4⟩⟩
        iapply (run5_first c Set.univ (grid5.coords t) _ _ _ _ _ _ _ _ _ _ _ _ (iblk5 V c 0 t) (iblk5 V c 1 t) (iblk5 V c 2 t) (iblk5 V c 3 t) _
          ((hcond5_0 t).mpr h0) (fun h => h1 ((hcond5_1 t).mp h)) _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists _; iexact H4
      · rw [Phi5_castSucc V c t, Phi5_pos V c _ _ hz]
        iintro ⟨⟨⟨HS, HR⟩, Hg⟩, Ho, ⟨%d0, H0⟩, ⟨%d1, H1⟩, ⟨%d2, H2⟩, ⟨%d3, H3⟩, ⟨%d4, H4⟩⟩
        iapply (run5_first c Set.univ (grid5.coords t) _ _ _ _ _ _ _ _ _ _ _ _ (iblk5 V c 0 t) (iblk5 V c 1 t) (iblk5 V c 2 t) (iblk5 V c 3 t) _
          ((hcond5_0 t).mpr h0) (fun h => h1 ((hcond5_1 t).mp h)) _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [acc5_step V c t h0]
      rw [Phi5_castSucc V c t, Phi5_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run5_mid c Set.univ (grid5.coords t) _ _ _ _ _ _ _ _ _ _ _ _ (iblk5 V c 0 t) (iblk5 V c 1 t) (iblk5 V c 2 t) (iblk5 V c 3 t) _
        (fun h => h0 ((hcond5_0 t).mp h)) (fun h => h1 ((hcond5_1 t).mp h)) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

theorem body_obligation5 (c : Dev nD) : BodyObligation (dat5 (F := F) V c) (defs₀ (F := F)) Variants.none () Set.univ := fun t => by
  rw [bigSep_W5, bigSep_W5]
  exact sound_body5 V c t

/-- What the launch hands over is the invariant before the first point, -/
theorem hin5 (c : Dev nD) : Pipeline.ΦA spec5 c ⊢ (dat5 V c).Φ 0 := by
  rw [show (dat5 V c).Φ 0 = Phi5 V c 0 (Nat.zero_le _) from rfl, Phi5_zero V c 0 _ rfl]

/-- and after the last point the invariant gives it back, the accumulator's contents forgotten. -/
theorem hout5 (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl,
    Phi5_pos V c _ _ (by rw [Fin.val_last]; have : cfg5.N = 64 := N_5; omega), PhiA5_eq]
  iintro ⟨⟨HS, HR⟩, Hg⟩
  isplitl [HS HR]
  · isplitl [HS]; · iexists _; iexact HS
    iexact HR
  iexact Hg

end Cert.KernelIdeal.Hand

end
-- ==== Proof.Ideal.Run.lean ====
/-
  The whole program: six launches and four stretches of host operations between them. The contents of the unscoped
  buffers are followed from the start through every item: a host stretch applies its operations; a launch replaces
  its output array by what its write-backs leave and keeps every other buffer. Every weakly fair execution ends, and at
  the end every unscoped buffer holds what this fold says; in particular each argument array holds what it held at the
  start, since no host operation writes one and no launch has one as its output.
-/
import proofs.«171023_j75617194213445_1_alg».proof.Proof.Gen.KernelIdeal.Launch
import proofs.«171023_j75617194213445_1_alg».proof.Proof.Gen.KernelIdeal.Skeleton
import proofs.«171023_j75617194213445_1_alg».proof.Proof.Gen.KernelIdeal.Points
import proofs.«171023_j75617194213445_1_alg».proof.Proof.Gen.KernelIdeal.Regions
import proofs.«171023_j75617194213445_1_alg».proof.Proof.Ideal.R0
import proofs.«171023_j75617194213445_1_alg».proof.Proof.Ideal.R1
import proofs.«171023_j75617194213445_1_alg».proof.Proof.Ideal.R2
import proofs.«171023_j75617194213445_1_alg».proof.Proof.Ideal.R3
import proofs.«171023_j75617194213445_1_alg».proof.Proof.Ideal.R4
import proofs.«171023_j75617194213445_1_alg».proof.Proof.Ideal.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At the start. -/
abbrev WW0 : Dev nD → Valuation τ sig (Elt F) := fun c b => m ((c : Dev nD), b)
/-- Launch 0's entry contents read at the TensorCore's references. -/
abbrev Ve0 : (c : Dev nD) → (b : Ref sig .tc) → Buf (Elt F) ((c : Thread nD τ).loc b) := fun c b => WW0 m c b
/-- After launch 0: its arrays at what its write-backs leave, every other buffer as entered. -/
def WW1 (c : Dev nD) : Valuation τ sig (Elt F) :=
  Pipeline.withArrays spec0 c (WW0 m c) fun w => (dat0 (Ve0 m) c).arrAt w cfg0.N
theorem WW1_arr (c : Dev nD) (w : Fin cfg0.W) :
    WW1 m c (Proc.devRef .tc (Pipeline.arrRef spec0 w)) = (dat0 (Ve0 m) c).arrAt w cfg0.N := by
  unfold WW1; exact Pipeline.withArrays_arr spec0 launch0.win.arr_inj c _ _ w
theorem WW1_of_ne (c : Dev nD) (b : Ref sig .tc) (hb : ∀ w, Pipeline.arrRef spec0 w ≠ b) :
    WW1 m c (Proc.devRef .tc b) = WW0 m c (Proc.devRef .tc b) := by
  unfold WW1; exact Pipeline.withArrays_of_ne spec0 c _ _ b hb
abbrev Ve0x : (c : Dev nD) → (b : Ref sig .tc) → Buf (Elt F) ((c : Thread nD τ).loc b) := fun c b => WW1 m c b
theorem hF0 (c : Dev nD) (w : Fin cfg0.W) : (dat0 (Ve0 m) c).arrAt w cfg0.N = Ve0x m c (Pipeline.arrRef spec0 w) :=
  (WW1_arr m c w).symm
theorem hrest0 (c : Dev nD) : ∀ b, b ∉ Finset.univ.image (Pipeline.arrRef spec0) → Ve0x m c b = Ve0 m c b :=
  fun b hb => WW1_of_ne m c b fun w e => hb (Finset.mem_image.mpr ⟨w, Finset.mem_univ _, e⟩)

/-- After the host stretch `hostOps1`. -/
abbrev WW2 : Dev nD → Valuation τ sig (Elt F) := fun c => StableHlo.after hostOps1 (WW1 m c)
theorem WW2_of (c : Dev nD) (r : Ref sig .tc) (h : r ∉ hostOps1_W) : WW2 m c (Proc.devRef .tc r) = WW1 m c (Proc.devRef .tc r) :=
  StableHlo.after_of_writes_sub hostOps1 _ hostOps1_writes h

/-- Launch 1's entry contents read at the TensorCore's references. -/
abbrev Ve1 : (c : Dev nD) → (b : Ref sig .tc) → Buf (Elt F) ((c : Thread nD τ).loc b) := fun c b => WW2 m c b
/-- After launch 1: its arrays at what its write-backs leave, every other buffer as entered. -/
def WW3 (c : Dev nD) : Valuation τ sig (Elt F) :=
  Pipeline.withArrays spec1 c (WW2 m c) fun w => (dat1 (Ve1 m) c).arrAt w cfg1.N
theorem WW3_arr (c : Dev nD) (w : Fin cfg1.W) :
    WW3 m c (Proc.devRef .tc (Pipeline.arrRef spec1 w)) = (dat1 (Ve1 m) c).arrAt w cfg1.N := by
  unfold WW3; exact Pipeline.withArrays_arr spec1 launch1.win.arr_inj c _ _ w
theorem WW3_of_ne (c : Dev nD) (b : Ref sig .tc) (hb : ∀ w, Pipeline.arrRef spec1 w ≠ b) :
    WW3 m c (Proc.devRef .tc b) = WW2 m c (Proc.devRef .tc b) := by
  unfold WW3; exact Pipeline.withArrays_of_ne spec1 c _ _ b hb
abbrev Ve1x : (c : Dev nD) → (b : Ref sig .tc) → Buf (Elt F) ((c : Thread nD τ).loc b) := fun c b => WW3 m c b
theorem hF1 (c : Dev nD) (w : Fin cfg1.W) : (dat1 (Ve1 m) c).arrAt w cfg1.N = Ve1x m c (Pipeline.arrRef spec1 w) :=
  (WW3_arr m c w).symm
theorem hrest1 (c : Dev nD) : ∀ b, b ∉ Finset.univ.image (Pipeline.arrRef spec1) → Ve1x m c b = Ve1 m c b :=
  fun b hb => WW3_of_ne m c b fun w e => hb (Finset.mem_image.mpr ⟨w, Finset.mem_univ _, e⟩)

/-- After the host stretch `hostOps2`. -/
abbrev WW4 : Dev nD → Valuation τ sig (Elt F) := fun c => StableHlo.after hostOps2 (WW3 m c)
theorem WW4_of (c : Dev nD) (r : Ref sig .tc) (h : r ∉ hostOps2_W) : WW4 m c (Proc.devRef .tc r) = WW3 m c (Proc.devRef .tc r) :=
  StableHlo.after_of_writes_sub hostOps2 _ hostOps2_writes h

/-- Launch 2's entry contents read at the TensorCore's references. -/
abbrev Ve2 : (c : Dev nD) → (b : Ref sig .tc) → Buf (Elt F) ((c : Thread nD τ).loc b) := fun c b => WW4 m c b
/-- After launch 2: its arrays at what its write-backs leave, every other buffer as entered. -/
def WW5 (c : Dev nD) : Valuation τ sig (Elt F) :=
  Pipeline.withArrays spec2 c (WW4 m c) fun w => (dat2 (Ve2 m) c).arrAt w cfg2.N
theorem WW5_arr (c : Dev nD) (w : Fin cfg2.W) :
    WW5 m c (Proc.devRef .tc (Pipeline.arrRef spec2 w)) = (dat2 (Ve2 m) c).arrAt w cfg2.N := by
  unfold WW5; exact Pipeline.withArrays_arr spec2 launch2.win.arr_inj c _ _ w
theorem WW5_of_ne (c : Dev nD) (b : Ref sig .tc) (hb : ∀ w, Pipeline.arrRef spec2 w ≠ b) :
    WW5 m c (Proc.devRef .tc b) = WW4 m c (Proc.devRef .tc b) := by
  unfold WW5; exact Pipeline.withArrays_of_ne spec2 c _ _ b hb
abbrev Ve2x : (c : Dev nD) → (b : Ref sig .tc) → Buf (Elt F) ((c : Thread nD τ).loc b) := fun c b => WW5 m c b
theorem hF2 (c : Dev nD) (w : Fin cfg2.W) : (dat2 (Ve2 m) c).arrAt w cfg2.N = Ve2x m c (Pipeline.arrRef spec2 w) :=
  (WW5_arr m c w).symm
theorem hrest2 (c : Dev nD) : ∀ b, b ∉ Finset.univ.image (Pipeline.arrRef spec2) → Ve2x m c b = Ve2 m c b :=
  fun b hb => WW5_of_ne m c b fun w e => hb (Finset.mem_image.mpr ⟨w, Finset.mem_univ _, e⟩)

/-- After the host stretch `hostOps3`. -/
abbrev WW6 : Dev nD → Valuation τ sig (Elt F) := fun c => StableHlo.after hostOps3 (WW5 m c)
theorem WW6_of (c : Dev nD) (r : Ref sig .tc) (h : r ∉ hostOps3_W) : WW6 m c (Proc.devRef .tc r) = WW5 m c (Proc.devRef .tc r) :=
  StableHlo.after_of_writes_sub hostOps3 _ hostOps3_writes h

/-- Launch 3's entry contents read at the TensorCore's references. -/
abbrev Ve3 : (c : Dev nD) → (b : Ref sig .tc) → Buf (Elt F) ((c : Thread nD τ).loc b) := fun c b => WW6 m c b
/-- After launch 3: its arrays at what its write-backs leave, every other buffer as entered. -/
def WW7 (c : Dev nD) : Valuation τ sig (Elt F) :=
  Pipeline.withArrays spec3 c (WW6 m c) fun w => (dat3 (Ve3 m) c).arrAt w cfg3.N
theorem WW7_arr (c : Dev nD) (w : Fin cfg3.W) :
    WW7 m c (Proc.devRef .tc (Pipeline.arrRef spec3 w)) = (dat3 (Ve3 m) c).arrAt w cfg3.N := by
  unfold WW7; exact Pipeline.withArrays_arr spec3 launch3.win.arr_inj c _ _ w
theorem WW7_of_ne (c : Dev nD) (b : Ref sig .tc) (hb : ∀ w, Pipeline.arrRef spec3 w ≠ b) :
    WW7 m c (Proc.devRef .tc b) = WW6 m c (Proc.devRef .tc b) := by
  unfold WW7; exact Pipeline.withArrays_of_ne spec3 c _ _ b hb
abbrev Ve3x : (c : Dev nD) → (b : Ref sig .tc) → Buf (Elt F) ((c : Thread nD τ).loc b) := fun c b => WW7 m c b
theorem hF3 (c : Dev nD) (w : Fin cfg3.W) : (dat3 (Ve3 m) c).arrAt w cfg3.N = Ve3x m c (Pipeline.arrRef spec3 w) :=
  (WW7_arr m c w).symm
theorem hrest3 (c : Dev nD) : ∀ b, b ∉ Finset.univ.image (Pipeline.arrRef spec3) → Ve3x m c b = Ve3 m c b :=
  fun b hb => WW7_of_ne m c b fun w e => hb (Finset.mem_image.mpr ⟨w, Finset.mem_univ _, e⟩)

/-- After the host stretch `hostOps4`. -/
abbrev WW8 : Dev nD → Valuation τ sig (Elt F) := fun c => StableHlo.after hostOps4 (WW7 m c)
theorem WW8_of (c : Dev nD) (r : Ref sig .tc) (h : r ∉ hostOps4_W) : WW8 m c (Proc.devRef .tc r) = WW7 m c (Proc.devRef .tc r) :=
  StableHlo.after_of_writes_sub hostOps4 _ hostOps4_writes h

/-- Launch 4's entry contents read at the TensorCore's references. -/
abbrev Ve4 : (c : Dev nD) → (b : Ref sig .tc) → Buf (Elt F) ((c : Thread nD τ).loc b) := fun c b => WW8 m c b
/-- After launch 4: its arrays at what its write-backs leave, every other buffer as entered. -/
def WW9 (c : Dev nD) : Valuation τ sig (Elt F) :=
  Pipeline.withArrays spec4 c (WW8 m c) fun w => (dat4 (Ve4 m) c).arrAt w cfg4.N
theorem WW9_arr (c : Dev nD) (w : Fin cfg4.W) :
    WW9 m c (Proc.devRef .tc (Pipeline.arrRef spec4 w)) = (dat4 (Ve4 m) c).arrAt w cfg4.N := by
  unfold WW9; exact Pipeline.withArrays_arr spec4 launch4.win.arr_inj c _ _ w
theorem WW9_of_ne (c : Dev nD) (b : Ref sig .tc) (hb : ∀ w, Pipeline.arrRef spec4 w ≠ b) :
    WW9 m c (Proc.devRef .tc b) = WW8 m c (Proc.devRef .tc b) := by
  unfold WW9; exact Pipeline.withArrays_of_ne spec4 c _ _ b hb
abbrev Ve4x : (c : Dev nD) → (b : Ref sig .tc) → Buf (Elt F) ((c : Thread nD τ).loc b) := fun c b => WW9 m c b
theorem hF4 (c : Dev nD) (w : Fin cfg4.W) : (dat4 (Ve4 m) c).arrAt w cfg4.N = Ve4x m c (Pipeline.arrRef spec4 w) :=
  (WW9_arr m c w).symm
theorem hrest4 (c : Dev nD) : ∀ b, b ∉ Finset.univ.image (Pipeline.arrRef spec4) → Ve4x m c b = Ve4 m c b :=
  fun b hb => WW9_of_ne m c b fun w e => hb (Finset.mem_image.mpr ⟨w, Finset.mem_univ _, e⟩)

/-- Launch 5's entry contents read at the TensorCore's references. -/
abbrev Ve5 : (c : Dev nD) → (b : Ref sig .tc) → Buf (Elt F) ((c : Thread nD τ).loc b) := fun c b => WW9 m c b
/-- After launch 5: its arrays at what its write-backs leave, every other buffer as entered. -/
def WW10 (c : Dev nD) : Valuation τ sig (Elt F) :=
  Pipeline.withArrays spec5 c (WW9 m c) fun w => (dat5 (Ve5 m) c).arrAt w cfg5.N
theorem WW10_arr (c : Dev nD) (w : Fin cfg5.W) :
    WW10 m c (Proc.devRef .tc (Pipeline.arrRef spec5 w)) = (dat5 (Ve5 m) c).arrAt w cfg5.N := by
  unfold WW10; exact Pipeline.withArrays_arr spec5 launch5.win.arr_inj c _ _ w
theorem WW10_of_ne (c : Dev nD) (b : Ref sig .tc) (hb : ∀ w, Pipeline.arrRef spec5 w ≠ b) :
    WW10 m c (Proc.devRef .tc b) = WW9 m c (Proc.devRef .tc b) := by
  unfold WW10; exact Pipeline.withArrays_of_ne spec5 c _ _ b hb
abbrev Ve5x : (c : Dev nD) → (b : Ref sig .tc) → Buf (Elt F) ((c : Thread nD τ).loc b) := fun c b => WW10 m c b
theorem hF5 (c : Dev nD) (w : Fin cfg5.W) : (dat5 (Ve5 m) c).arrAt w cfg5.N = Ve5x m c (Pipeline.arrRef spec5 w) :=
  (WW10_arr m c w).symm
theorem hrest5 (c : Dev nD) : ∀ b, b ∉ Finset.univ.image (Pipeline.arrRef spec5) → Ve5x m c b = Ve5 m c b :=
  fun b hb => WW10_of_ne m c b fun w e => hb (Finset.mem_image.mpr ⟨w, Finset.mem_univ _, e⟩)

/-! ## The arguments end as they started -/

theorem WW10_main_arg0 (c : Dev nD) : WW10 m c (Proc.devRef .tc main_arg0) = m ((c : Thread nD τ).loc main_arg0) :=
  calc WW10 m c (Proc.devRef .tc main_arg0)
    _ = WW9 m c (Proc.devRef .tc main_arg0) := WW10_of_ne m c main_arg0 (by decide)
    _ = WW8 m c (Proc.devRef .tc main_arg0) := WW9_of_ne m c main_arg0 (by decide)
    _ = WW7 m c (Proc.devRef .tc main_arg0) := WW8_of m c main_arg0 (by decide)
    _ = WW6 m c (Proc.devRef .tc main_arg0) := WW7_of_ne m c main_arg0 (by decide)
    _ = WW5 m c (Proc.devRef .tc main_arg0) := WW6_of m c main_arg0 (by decide)
    _ = WW4 m c (Proc.devRef .tc main_arg0) := WW5_of_ne m c main_arg0 (by decide)
    _ = WW3 m c (Proc.devRef .tc main_arg0) := WW4_of m c main_arg0 (by decide)
    _ = WW2 m c (Proc.devRef .tc main_arg0) := WW3_of_ne m c main_arg0 (by decide)
    _ = WW1 m c (Proc.devRef .tc main_arg0) := WW2_of m c main_arg0 (by decide)
    _ = WW0 m c (Proc.devRef .tc main_arg0) := (WW1_arr m c 0).trans (((dat0 (Ve0 m) c).arrAt_in 0 rfl _).trans (A_eq0 (Ve0 m) c 0))
    _ = m ((c : Thread nD τ).loc main_arg0) := rfl

theorem WW10_main_arg1 (c : Dev nD) : WW10 m c (Proc.devRef .tc main_arg1) = m ((c : Thread nD τ).loc main_arg1) :=
  calc WW10 m c (Proc.devRef .tc main_arg1)
    _ = WW9 m c (Proc.devRef .tc main_arg1) := WW10_of_ne m c main_arg1 (by decide)
    _ = WW8 m c (Proc.devRef .tc main_arg1) := WW9_of_ne m c main_arg1 (by decide)
    _ = WW7 m c (Proc.devRef .tc main_arg1) := WW8_of m c main_arg1 (by decide)
    _ = WW6 m c (Proc.devRef .tc main_arg1) := WW7_of_ne m c main_arg1 (by decide)
    _ = WW5 m c (Proc.devRef .tc main_arg1) := WW6_of m c main_arg1 (by decide)
    _ = WW4 m c (Proc.devRef .tc main_arg1) := WW5_of_ne m c main_arg1 (by decide)
    _ = WW3 m c (Proc.devRef .tc main_arg1) := WW4_of m c main_arg1 (by decide)
    _ = WW2 m c (Proc.devRef .tc main_arg1) := WW3_of_ne m c main_arg1 (by decide)
    _ = WW1 m c (Proc.devRef .tc main_arg1) := WW2_of m c main_arg1 (by decide)
    _ = WW0 m c (Proc.devRef .tc main_arg1) := WW1_of_ne m c main_arg1 (by decide)
    _ = m ((c : Thread nD τ).loc main_arg1) := rfl

theorem WW10_main_arg2 (c : Dev nD) : WW10 m c (Proc.devRef .tc main_arg2) = m ((c : Thread nD τ).loc main_arg2) :=
  calc WW10 m c (Proc.devRef .tc main_arg2)
    _ = WW9 m c (Proc.devRef .tc main_arg2) := WW10_of_ne m c main_arg2 (by decide)
    _ = WW8 m c (Proc.devRef .tc main_arg2) := WW9_of_ne m c main_arg2 (by decide)
    _ = WW7 m c (Proc.devRef .tc main_arg2) := WW8_of m c main_arg2 (by decide)
    _ = WW6 m c (Proc.devRef .tc main_arg2) := WW7_of_ne m c main_arg2 (by decide)
    _ = WW5 m c (Proc.devRef .tc main_arg2) := WW6_of m c main_arg2 (by decide)
    _ = WW4 m c (Proc.devRef .tc main_arg2) := WW5_of_ne m c main_arg2 (by decide)
    _ = WW3 m c (Proc.devRef .tc main_arg2) := WW4_of m c main_arg2 (by decide)
    _ = WW2 m c (Proc.devRef .tc main_arg2) := WW3_of_ne m c main_arg2 (by decide)
    _ = WW1 m c (Proc.devRef .tc main_arg2) := WW2_of m c main_arg2 (by decide)
    _ = WW0 m c (Proc.devRef .tc main_arg2) := WW1_of_ne m c main_arg2 (by decide)
    _ = m ((c : Thread nD τ).loc main_arg2) := rfl

theorem WW10_main_arg3 (c : Dev nD) : WW10 m c (Proc.devRef .tc main_arg3) = m ((c : Thread nD τ).loc main_arg3) :=
  calc WW10 m c (Proc.devRef .tc main_arg3)
    _ = WW9 m c (Proc.devRef .tc main_arg3) := WW10_of_ne m c main_arg3 (by decide)
    _ = WW8 m c (Proc.devRef .tc main_arg3) := WW9_of_ne m c main_arg3 (by decide)
    _ = WW7 m c (Proc.devRef .tc main_arg3) := WW8_of m c main_arg3 (by decide)
    _ = WW6 m c (Proc.devRef .tc main_arg3) := WW7_of_ne m c main_arg3 (by decide)
    _ = WW5 m c (Proc.devRef .tc main_arg3) := WW6_of m c main_arg3 (by decide)
    _ = WW4 m c (Proc.devRef .tc main_arg3) := WW5_of_ne m c main_arg3 (by decide)
    _ = WW3 m c (Proc.devRef .tc main_arg3) := WW4_of m c main_arg3 (by decide)
    _ = WW2 m c (Proc.devRef .tc main_arg3) := WW3_of_ne m c main_arg3 (by decide)
    _ = WW1 m c (Proc.devRef .tc main_arg3) := WW2_of m c main_arg3 (by decide)
    _ = WW0 m c (Proc.devRef .tc main_arg3) := WW1_of_ne m c main_arg3 (by decide)
    _ = m ((c : Thread nD τ).loc main_arg3) := rfl

theorem WW10_main_arg4 (c : Dev nD) : WW10 m c (Proc.devRef .tc main_arg4) = m ((c : Thread nD τ).loc main_arg4) :=
  calc WW10 m c (Proc.devRef .tc main_arg4)
    _ = WW9 m c (Proc.devRef .tc main_arg4) := (WW10_arr m c 3).trans (((dat5 (Ve5 m) c).arrAt_in 3 rfl _).trans (A_eq5 (Ve5 m) c 3))
    _ = WW8 m c (Proc.devRef .tc main_arg4) := WW9_of_ne m c main_arg4 (by decide)
    _ = WW7 m c (Proc.devRef .tc main_arg4) := WW8_of m c main_arg4 (by decide)
    _ = WW6 m c (Proc.devRef .tc main_arg4) := WW7_of_ne m c main_arg4 (by decide)
    _ = WW5 m c (Proc.devRef .tc main_arg4) := WW6_of m c main_arg4 (by decide)
    _ = WW4 m c (Proc.devRef .tc main_arg4) := WW5_of_ne m c main_arg4 (by decide)
    _ = WW3 m c (Proc.devRef .tc main_arg4) := WW4_of m c main_arg4 (by decide)
    _ = WW2 m c (Proc.devRef .tc main_arg4) := WW3_of_ne m c main_arg4 (by decide)
    _ = WW1 m c (Proc.devRef .tc main_arg4) := WW2_of m c main_arg4 (by decide)
    _ = WW0 m c (Proc.devRef .tc main_arg4) := WW1_of_ne m c main_arg4 (by decide)
    _ = m ((c : Thread nD τ).loc main_arg4) := rfl

/-! ## The launches' proof data, and what rides along -/

/-- No launch has a prefetched table. -/
abbrev admH : (p : Fin 6) → (pcfgs (F := F) p).Adm := fun p => (cfgs p).toPCfg_adm
/-- Every launch's proof data, each at the contents its launch finds. -/
def pdatsH : (p : Fin 6) → (c : Dev nD) → Dat τ (Elt F) Unit ℕ (UR sig nD τ) ℕ (Pipeline.pin (pcfgs (F := F)) admH p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
abbrev 𝒱H : Variants := Variants.none
/-- No core owes another anything. -/
abbrev LH : GSem nD τ sig → Finset Unit := fun _ => ∅
abbrev lvH : GSem nD τ sig → Unit → ℕ := fun _ _ => 0
/-- Beside the buffers every item carries the generator register at some state and the core owing nothing. -/
abbrev Rst (c : Dev nD) : sProp 𝕄 := iprop((∃ r, prngReg c r) ∗ ∃ W, owes (c : Thread nD τ) (0 : CellTallies nD τ sig Unit) W)
/-- A host stretch as a segment over the unscoped references. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tend (c : Dev nD) : sProp 𝕄 := iprop(StableHlo.held (c : Thread nD τ) (Pipeline.ucRefs τ sig) (WW10 m c) ∗ ∃ r, prngReg c r)

/-! ## The launches as segments -/

set_option backward.isDefEq.respectTransparency.types false in
/-- Launch 0 as a segment: entered with every unscoped buffer at `WW0`, left with them at `WW1`; its arrays are split
    out of the unscoped buffers at entry and put back at exit; the generator register goes into the launch's invariant and
    comes back; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ LH lvH 0 fun _ _ => rfl
  pre c := iprop(StableHlo.held (c : Thread nD τ) (Pipeline.ucRefs τ sig) (WW0 m c) ∗ Rst c)
  post c := iprop(StableHlo.held (c : Thread nD τ) (Pipeline.ucRefs τ sig) (WW1 m c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (Ve0 m c) (Ve0x m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `WW2`, left with them at `WW3`; its arrays are split
    out of the unscoped buffers at entry and put back at exit; the generator register goes into the launch's invariant and
    comes back; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ LH lvH 1 fun _ _ => rfl
  pre c := iprop(StableHlo.held (c : Thread nD τ) (Pipeline.ucRefs τ sig) (WW2 m c) ∗ Rst c)
  post c := iprop(StableHlo.held (c : Thread nD τ) (Pipeline.ucRefs τ sig) (WW3 m c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec1 c from by
      unfold Pipeline.ΦA
      iintro ⟨Hp, -, Hr⟩
      isplitl [Hr]; · iexact Hr
      iexact Hp).trans (hin1 (Ve1 m) c)
  hout c := by
    rw [Pipeline.ownSems0_none]
    exact (hout1 (Ve1 m) c).trans (show Pipeline.ΦA spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (Ve1 m c) (Ve1x m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `WW4`, left with them at `WW5`; its arrays are split
    out of the unscoped buffers at entry and put back at exit; the generator register goes into the launch's invariant and
    comes back; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ LH lvH 2 fun _ _ => rfl
  pre c := iprop(StableHlo.held (c : Thread nD τ) (Pipeline.ucRefs τ sig) (WW4 m c) ∗ Rst c)
  post c := iprop(StableHlo.held (c : Thread nD τ) (Pipeline.ucRefs τ sig) (WW5 m c) ∗ Rst c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec2 c from by
      unfold Pipeline.ΦA
      iintro ⟨Hp, -, Hr⟩
      isplitl [Hr]; · iexact Hr
      iexact Hp).trans (hin2 (Ve2 m) c)
  hout c := by
    rw [Pipeline.ownSems0_none]
    exact (hout2 (Ve2 m) c).trans (show Pipeline.ΦA spec2 c ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (Ve2 m c) (Ve2x m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: entered with every unscoped buffer at `WW6`, left with them at `WW7`; its arrays are split
    out of the unscoped buffers at entry and put back at exit; the generator register goes into the launch's invariant and
    comes back; nothing is owed; the kernel has no semaphore of its own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ LH lvH 3 fun _ _ => rfl
  pre c := iprop(StableHlo.held (c : Thread nD τ) (Pipeline.ucRefs τ sig) (WW6 m c) ∗ Rst c)
  post c := iprop(StableHlo.held (c : Thread nD τ) (Pipeline.ucRefs τ sig) (WW7 m c) ∗ Rst c)
  X c := iprop(∃ r, prngReg c r)
  Y c := iprop(∃ r, prngReg c r)
  Z c := Pipeline.unscopedRest (Ix := Unit) (Name := ℕ) (U := UR sig nD τ) (Lvl := ℕ) spec3 c (Ve3 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec3 c from by
      unfold Pipeline.ΦA
      iintro ⟨Hp, -, Hr⟩
      isplitl [Hr]; · iexact Hr
      iexact Hp).trans (hin3 (Ve3 m) c)
  hout c := by
    rw [Pipeline.ownSems0_none]
    exact (hout3 (Ve3 m) c).trans (show Pipeline.ΦA spec3 c ⊢ _ from by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (Ve3 m c) (Ve3x m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 as a segment: entered with every unscoped buffer at `WW8`, left with them at `WW9`; its arrays are split
    out of the unscoped buffers at entry and put back at exit; the generator register goes into the launch's invariant and
    comes back; nothing is owed; the kernel has no semaphore of its own. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Ve4 m) c).loose
  hwaits := Pipeline.hwaits_of_owed_zero _ _ _ _ LH lvH 4 fun _ _ => rfl
  pre c := iprop(StableHlo.held (c : Thread nD τ) (Pipeline.ucRefs τ sig) (WW8 m c) ∗ Rst c)
  post c := iprop(StableHlo.held (c : Thread nD τ) (Pipeline.ucRefs τ sig) (WW9 m c) ∗ Rst c)
  X c := iprop(∃ r, prngReg c r)
  Y c := iprop(∃ r, prngReg c r)
  Z c := Pipeline.unscopedRest (Ix := Unit) (Name := ℕ) (U := UR sig nD τ) (Lvl := ℕ) spec4 c (Ve4 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (Ve4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec4 c from by
      unfold Pipeline.ΦA
      iintro ⟨Hp, -, Hr⟩
      isplitl [Hr]; · iexact Hr
      iexact Hp).trans (hin4 (Ve4 m) c)
  hout c := by
    rw [Pipeline.ownSems0_none]
    exact (hout4 (Ve4 m) c).trans (show Pipeline.ΦA spec4 c ⊢ _ from by
      unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (Ve4 m c) (Ve4x m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5 as a segment: entered with every unscoped buffer at `WW9`, left with them at `WW10`; its arrays are split
    out of the unscoped buffers at entry and put back at exit; the generator register goes into the launch's invariant and
    comes back; nothing is owed; the kernel has no semaphore of its own. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (Ve5 m) c).loose
  hwaits := Pipeline.hwaits_of_owed_zero _ _ _ _ LH lvH 5 fun _ _ => rfl
  pre c := iprop(StableHlo.held (c : Thread nD τ) (Pipeline.ucRefs τ sig) (WW9 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Ve5 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (Ve5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec5 c from by
      unfold Pipeline.ΦA
      iintro ⟨Hp, -, Hr⟩
      isplitl [Hr]; · iexact Hr
      iexact Hp).trans (hin5 (Ve5 m) c)
  hout c := by
    rw [Pipeline.ownSems0_none]
    exact (hout5 (Ve5 m) c).trans (show Pipeline.ΦA spec5 c ⊢ _ from by
      unfold Pipeline.ΦA
      iintro ⟨Hr, Hp⟩
      isplitl [Hp]; · iexact Hp
      isplitr; · iempintro
      iexact Hr)
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (Ve5 m c) (Ve5x m c) ((pdatsH m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segsH : List (Pipeline.Seg (pcfgs (F := F)) admH (pdatsH m) () defs₀ 𝒱H LH lvH) :=
  [ .region (reg0 m),
    .host (hsegH hostOps1 hostOps1_sub hostOps1_fresh (WW1 m)),
    .region (reg1 m),
    .host (hsegH hostOps2 hostOps2_sub hostOps2_fresh (WW3 m)),
    .region (reg2 m),
    .host (hsegH hostOps3 hostOps3_sub hostOps3_fresh (WW5 m)),
    .region (reg3 m),
    .host (hsegH hostOps4 hostOps4_sub hostOps4_fresh (WW7 m)),
    .region (reg4 m),
    .region (reg5 m) ]
theorem main_runH (c : Dev nD) : main (F := F) c = Pipeline.Seg.run (segsH m) := (main_chain c).trans (by chain_rfl)

set_option backward.isDefEq.respectTransparency.types false in
/-- From any memory with zero counters every weakly fair execution of the program terminates, nothing faulting, and at
    the end every unscoped buffer holds what the fold says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WW10 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WW0 m c) ∗ Rst c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (WW0 m c)
        from Pipeline.unscopedBufs_held c (WW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WW10 m c b)
    (hfin := fun c s' => by
      iintro ⟨⟨Hh, -⟩, HSI⟩
      unfold StableHlo.held
      imodintro
      iapply (pointsTo_read_all (Pipeline.ucRefs τ sig) (fun b => (((c : Thread nD τ)).1, b)) (WW10 m c) s')
      isplitl [Hh] <;> iassumption)
    (hQ := fun s h c => h c)

/-- The frame: the arguments end as they started. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_arg0 (by decide))).trans (WW10_main_arg0 m c),
     (h c _ (mem_ucH main_arg1 (by decide))).trans (WW10_main_arg1 m c),
     (h c _ (mem_ucH main_arg2 (by decide))).trans (WW10_main_arg2 m c),
     (h c _ (mem_ucH main_arg3 (by decide))).trans (WW10_main_arg3 m c),
     (h c _ (mem_ucH main_arg4 (by decide))).trans (WW10_main_arg4 m c)⟩) (run_all m ρ)

end Cert.KernelIdeal.Hand

end
-- ==== Proof.LibDotTransposedRhs.lean ====
/-
  The product of an M×K array with the transpose of an N×K array — both operands contracted on their LAST axis, no batch
  axis —, read at an output index (r, c), is the sum over the one contracted coordinate k of the left operand at (r, k)
  times the right operand at (c, k). Stated once for those dimension numbers (`DotDims.transposedRhs`), for a product
  into a zero accumulator inside a kernel body and for the host's product, both over the extended reals. A program's own
  dimension-number record of this form is equal to that one by unfolding.
-/
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

/-- The left operand's index at output index `j` and contraction index `q`: the row of `j`, … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
/-- … and the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's index: the COLUMN of `j` (the right operand's rows are the output's columns), … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
/-- … and the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum at the output index (r, c), re-indexed by the one contracted coordinate. -/
theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- A kernel's product into the zero accumulator, at (r, c). -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

/-- The host's product, at (r, c). -/
theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Spec.lean ====
/-
  The function both programs compute, over the extended reals, index by index.

  `x` is an 8192 by 4096 array. `inter x` multiplies every entry by the sum of its row and keeps the positive
  part. A layer takes `h` (8192 by 4096), a 4096 by 4096 weight `W` and a bias `b`: entry (r, c) is the positive part of
  the sum over k of h (r, k) · W (c, k), plus b c — the weight enters transposed. Four layers are stacked, the l-th using
  slice l of the stacked weights and biases. The result adds `inter x` to the last layer's value, halves it, and applies
  one more transposed product with a bias and no positive part.
-/
import Idealize.ShloMosaic.PureOps.Ideal.Laws
import Idealize.ShloMosaic.Lib.ValueIdx

noncomputable section

open scoped BigOperators

namespace DeepFM

open Idealize.ShloMosaic Idealize.ShloMosaic.ValueIdx

abbrev SX : Shape := ⟨2, ![8192, 4096]⟩
abbrev SW : Shape := ⟨2, ![4096, 4096]⟩
abbrev SB : Shape := ⟨1, ![4096]⟩
abbrev SW4 : Shape := ⟨3, ![4, 4096, 4096]⟩
abbrev SB4 : Shape := ⟨2, ![4, 4096]⟩

/-- The literal one half both programs multiply by. -/
def half : EReal := Ideal.ofBits .f32 0x3F000000#32

/-- Entry (r, c) of the interaction term: x (r, c) times the sum of row r, positive part. -/
def interC (x : SX.Idx → EReal) (r : Fin 8192) (c : Fin 4096) : EReal :=
  max (x (ix2 r c) * ∑ k : Fin 4096, x (ix2 r k)) 0
def inter (x : SX.Idx → EReal) : SX.Idx → EReal := fun i => interC x (i 0) (i 1)

/-- Entry (r, c) of one layer: the positive part of (∑ k, h (r, k) · W (c, k)) + b c. -/
def layerC (h : SX.Idx → EReal) (W : SW.Idx → EReal) (b : SB.Idx → EReal) (r : Fin 8192) (c : Fin 4096) : EReal :=
  max ((∑ k : Fin 4096, h (ix2 r k) * W (ix2 c k)) + b (ix1 c)) 0
def layer (h : SX.Idx → EReal) (W : SW.Idx → EReal) (b : SB.Idx → EReal) : SX.Idx → EReal :=
  fun i => layerC h W b (i 0) (i 1)

/-- Slice `l` of the stacked weights, and of the stacked biases. -/
def wsl (W : SW4.Idx → EReal) (l : Fin 4) : SW.Idx → EReal := fun i => W (ix3 l (i 0) (i 1))
def bsl (b : SB4.Idx → EReal) (l : Fin 4) : SB.Idx → EReal := fun i => b (ix2 l (i 0))

/-- Entry (r, c) of the last product: ∑ k, ((h (r, k) + t (r, k)) · ½) · W (c, k), plus b c. -/
def outC (h t : SX.Idx → EReal) (W : SW.Idx → EReal) (b : SB.Idx → EReal) (r : Fin 8192) (c : Fin 4096) : EReal :=
  (∑ k : Fin 4096, ((h (ix2 r k) + t (ix2 r k)) * half) * W (ix2 c k)) + b (ix1 c)
def out (h t : SX.Idx → EReal) (W : SW.Idx → EReal) (b : SB.Idx → EReal) : SX.Idx → EReal :=
  fun i => outC h t W b (i 0) (i 1)

/-- The four stacked layers. -/
def tower (x : SX.Idx → EReal) (W4 : SW4.Idx → EReal) (b4 : SB4.Idx → EReal) : SX.Idx → EReal :=
  layer (layer (layer (layer x (wsl W4 0) (bsl b4 0)) (wsl W4 1) (bsl b4 1)) (wsl W4 2) (bsl b4 2)) (wsl W4 3) (bsl b4 3)

/-- The whole function. -/
def G (x : SX.Idx → EReal) (W4 : SW4.Idx → EReal) (b4 : SB4.Idx → EReal) (Wo : SW.Idx → EReal) (bo : SB.Idx → EReal) :
    SX.Idx → EReal :=
  out (tower x W4 b4) (inter x) Wo bo

theorem inter_apply (x : SX.Idx → EReal) (r : Fin 8192) (c : Fin 4096) : inter x (ix2 r c) = interC x r c := rfl
theorem layer_apply (h : SX.Idx → EReal) (W : SW.Idx → EReal) (b : SB.Idx → EReal) (r : Fin 8192) (c : Fin 4096) :
    layer h W b (ix2 r c) = layerC h W b r c := rfl
theorem out_apply (h t : SX.Idx → EReal) (W : SW.Idx → EReal) (b : SB.Idx → EReal) (r : Fin 8192) (c : Fin 4096) :
    out h t W b (ix2 r c) = outC h t W b r c := rfl
theorem wsl_apply (W : SW4.Idx → EReal) (l : Fin 4) (a b : Fin 4096) : wsl W l (ix2 a b) = W (ix3 l a b) := rfl
theorem bsl_apply (b : SB4.Idx → EReal) (l : Fin 4) (a : Fin 4096) : bsl b l (ix1 a) = b (ix2 l a) := rfl

end DeepFM

end
-- ==== Proof.Ideal.Payloads.lean ====
/-
  The bodies' arithmetic read at an index, over the extended reals.

  The first launch's body stores, at (p, q) of its 512 by 4096 block, the entry times the sum of its row, positive
  part. A layer's body stores into a 2048 by 2048 accumulator: first zero; then, slab by slab, the accumulator plus
  the sum over the slab's 1024 coordinates k of x (p, k) · w (q, k) — the weight enters transposed —; and at the end the
  accumulator plus the bias at column q, positive part. The four layers' bodies are the same three values. The last
  launch's body does the same over a 1024 by 2048 accumulator, its left operand being the halved sum
  (h (p, k) + t (p, k)) · ½, and it adds the bias with no positive part. A change of float format is the identity here,
  an identity cast reads its operand, a row of biases spread over the rows reads the bias at the column, and the zero
  literal is 0.
-/
import proofs.«171023_j75617194213445_1_alg».proof.Proof.Gen.KernelIdeal.Skeleton
import proofs.«171023_j75617194213445_1_alg».proof.Proof.LibDotTransposedRhs
import proofs.«171023_j75617194213445_1_alg».proof.Proof.LibKeepdims
import proofs.«171023_j75617194213445_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The literal one half a body multiplies by is the specification's. -/
theorem half_eq : Scalar.ofBits (F := Ideal) .f32 0x3F000000#32 = DeepFM.half := rfl

/-! ## The first launch: every entry times its row's sum, positive part -/

theorem k0_pay1_apply (x : Vec Ideal S512x4096 .f32) (p : Fin 512) (q : Fin 4096) :
    k0_pay1 (F := Ideal) x (ix2 p q) = max (x (ix2 p q) * ∑ k : Fin 4096, x (ix2 p k)) 0 := by
  unfold k0_pay1
  refine (maximumf_apply _ _ _).trans ?_
  refine congrArg₂ max ?_ Ideal.ofBits_zero_f32
  refine (mulf_apply _ _ _).trans ?_
  refine congrArg (x (ix2 p q) * ·) ?_
  refine (Keepdims.broadcastTo_a1_ab_apply _ _ p q).trans ?_
  refine (Keepdims.shapeCast_a_a1_apply _ _ p 0).trans ?_
  exact Keepdims.laneSum_apply x _ _ _ _ p

/-! ## The first layer's three stored values: the zero start, one more slab of the product, the bias and the positive part -/

theorem k1_pay1_apply (p q : Fin 2048) : k1_pay1 (F := Ideal) (ix2 p q) = 0 := by
  unfold k1_pay1
  refine (congrFun (shapeCast_self _ _) (ix2 p q)).trans ?_
  exact Ideal.ofBits_zero_f32

theorem k1_pay2_apply (acc : Vec Ideal S2048x2048 .f32) (x w : Vec Ideal S2048x1024 .bf16) (p q : Fin 2048) :
    k1_pay2 (F := Ideal) acc x w (ix2 p q) = acc (ix2 p q) + ∑ k : Fin 1024, x (ix2 p k) * w (ix2 q k) := by
  unfold k1_pay2
  refine (congrFun (shapeCast_self _ _) (ix2 p q)).trans ?_
  refine (addf_apply _ _ _).trans ?_
  refine congrArg (acc (ix2 p q) + ·) ?_
  rw [shapeCast_self x, shapeCast_self w]
  exact TransposedRhsDot.matmul_zero_apply 2048 1024 2048 x w p q

theorem k1_pay3_apply (acc : Vec Ideal S2048x2048 .f32) (b : Vec Ideal S2048 .f32) (p q : Fin 2048) :
    k1_pay3 (F := Ideal) acc b (ix2 p q) = max (acc (ix2 p q) + b (ix1 q)) 0 := by
  unfold k1_pay3
  refine Eq.trans (truncf_apply (φ := .f32) (ψ := .bf16) _ bitsLt_bf16_f32 (ix2 p q)) ?_
  refine (maximumf_apply _ _ _).trans ?_
  refine congrArg₂ max ?_ Ideal.ofBits_zero_f32
  refine (addf_apply _ _ _).trans ?_
  refine congrArg (acc (ix2 p q) + ·) ?_
  refine (broadcastTo_1b_ab_apply _ _ p q).trans ?_
  refine (shapeCast_a_1a_apply _ _ 0 q).trans ?_
  exact congrFun (shapeCast_self b _) (ix1 q)

/-! ## The second layer's: the same three values -/

theorem k2_pay1_apply (p q : Fin 2048) : k2_pay1 (F := Ideal) (ix2 p q) = 0 := by
  unfold k2_pay1
  refine (congrFun (shapeCast_self _ _) (ix2 p q)).trans ?_
  exact Ideal.ofBits_zero_f32

theorem k2_pay2_apply (acc : Vec Ideal S2048x2048 .f32) (x w : Vec Ideal S2048x1024 .bf16) (p q : Fin 2048) :
    k2_pay2 (F := Ideal) acc x w (ix2 p q) = acc (ix2 p q) + ∑ k : Fin 1024, x (ix2 p k) * w (ix2 q k) := by
  unfold k2_pay2
  refine (congrFun (shapeCast_self _ _) (ix2 p q)).trans ?_
  refine (addf_apply _ _ _).trans ?_
  refine congrArg (acc (ix2 p q) + ·) ?_
  rw [shapeCast_self x, shapeCast_self w]
  exact TransposedRhsDot.matmul_zero_apply 2048 1024 2048 x w p q

theorem k2_pay3_apply (acc : Vec Ideal S2048x2048 .f32) (b : Vec Ideal S2048 .f32) (p q : Fin 2048) :
    k2_pay3 (F := Ideal) acc b (ix2 p q) = max (acc (ix2 p q) + b (ix1 q)) 0 := by
  unfold k2_pay3
  refine Eq.trans (truncf_apply (φ := .f32) (ψ := .bf16) _ bitsLt_bf16_f32 (ix2 p q)) ?_
  refine (maximumf_apply _ _ _).trans ?_
  refine congrArg₂ max ?_ Ideal.ofBits_zero_f32
  refine (addf_apply _ _ _).trans ?_
  refine congrArg (acc (ix2 p q) + ·) ?_
  refine (broadcastTo_1b_ab_apply _ _ p q).trans ?_
  refine (shapeCast_a_1a_apply _ _ 0 q).trans ?_
  exact congrFun (shapeCast_self b _) (ix1 q)

/-! ## The third layer's: the same three values -/

theorem k3_pay1_apply (p q : Fin 2048) : k3_pay1 (F := Ideal) (ix2 p q) = 0 := by
  unfold k3_pay1
  refine (congrFun (shapeCast_self _ _) (ix2 p q)).trans ?_
  exact Ideal.ofBits_zero_f32

theorem k3_pay2_apply (acc : Vec Ideal S2048x2048 .f32) (x w : Vec Ideal S2048x1024 .bf16) (p q : Fin 2048) :
    k3_pay2 (F := Ideal) acc x w (ix2 p q) = acc (ix2 p q) + ∑ k : Fin 1024, x (ix2 p k) * w (ix2 q k) := by
  unfold k3_pay2
  refine (congrFun (shapeCast_self _ _) (ix2 p q)).trans ?_
  refine (addf_apply _ _ _).trans ?_
  refine congrArg (acc (ix2 p q) + ·) ?_
  rw [shapeCast_self x, shapeCast_self w]
  exact TransposedRhsDot.matmul_zero_apply 2048 1024 2048 x w p q

theorem k3_pay3_apply (acc : Vec Ideal S2048x2048 .f32) (b : Vec Ideal S2048 .f32) (p q : Fin 2048) :
    k3_pay3 (F := Ideal) acc b (ix2 p q) = max (acc (ix2 p q) + b (ix1 q)) 0 := by
  unfold k3_pay3
  refine Eq.trans (truncf_apply (φ := .f32) (ψ := .bf16) _ bitsLt_bf16_f32 (ix2 p q)) ?_
  refine (maximumf_apply _ _ _).trans ?_
  refine congrArg₂ max ?_ Ideal.ofBits_zero_f32
  refine (addf_apply _ _ _).trans ?_
  refine congrArg (acc (ix2 p q) + ·) ?_
  refine (broadcastTo_1b_ab_apply _ _ p q).trans ?_
  refine (shapeCast_a_1a_apply _ _ 0 q).trans ?_
  exact congrFun (shapeCast_self b _) (ix1 q)

/-! ## The fourth layer's: the same three values -/

theorem k4_pay1_apply (p q : Fin 2048) : k4_pay1 (F := Ideal) (ix2 p q) = 0 := by
  unfold k4_pay1
  refine (congrFun (shapeCast_self _ _) (ix2 p q)).trans ?_
  exact Ideal.ofBits_zero_f32

theorem k4_pay2_apply (acc : Vec Ideal S2048x2048 .f32) (x w : Vec Ideal S2048x1024 .bf16) (p q : Fin 2048) :
    k4_pay2 (F := Ideal) acc x w (ix2 p q) = acc (ix2 p q) + ∑ k : Fin 1024, x (ix2 p k) * w (ix2 q k) := by
  unfold k4_pay2
  refine (congrFun (shapeCast_self _ _) (ix2 p q)).trans ?_
  refine (addf_apply _ _ _).trans ?_
  refine congrArg (acc (ix2 p q) + ·) ?_
  rw [shapeCast_self x, shapeCast_self w]
  exact TransposedRhsDot.matmul_zero_apply 2048 1024 2048 x w p q

theorem k4_pay3_apply (acc : Vec Ideal S2048x2048 .f32) (b : Vec Ideal S2048 .f32) (p q : Fin 2048) :
    k4_pay3 (F := Ideal) acc b (ix2 p q) = max (acc (ix2 p q) + b (ix1 q)) 0 := by
  unfold k4_pay3
  refine Eq.trans (truncf_apply (φ := .f32) (ψ := .bf16) _ bitsLt_bf16_f32 (ix2 p q)) ?_
  refine (maximumf_apply _ _ _).trans ?_
  refine congrArg₂ max ?_ Ideal.ofBits_zero_f32
  refine (addf_apply _ _ _).trans ?_
  refine congrArg (acc (ix2 p q) + ·) ?_
  refine (broadcastTo_1b_ab_apply _ _ p q).trans ?_
  refine (shapeCast_a_1a_apply _ _ 0 q).trans ?_
  exact congrFun (shapeCast_self b _) (ix1 q)

/-! ## The last launch: the zero start, one more slab of the product of the halved sum, the bias -/

theorem k5_pay1_apply (p : Fin 1024) (q : Fin 2048) : k5_pay1 (F := Ideal) (ix2 p q) = 0 := by
  unfold k5_pay1
  refine (congrFun (shapeCast_self _ _) (ix2 p q)).trans ?_
  exact Ideal.ofBits_zero_f32

theorem k5_pay2_apply (h : Vec Ideal S1024x1024 .bf16) (t : Vec Ideal S1024x1024 .f32) (acc : Vec Ideal S1024x2048 .f32)
    (w : Vec Ideal S2048x1024 .bf16) (p : Fin 1024) (q : Fin 2048) :
    k5_pay2 (F := Ideal) h t acc w (ix2 p q)
      = acc (ix2 p q) + ∑ k : Fin 1024, ((h (ix2 p k) + t (ix2 p k)) * DeepFM.half) * w (ix2 q k) := by
  unfold k5_pay2
  refine (congrFun (shapeCast_self _ _) (ix2 p q)).trans ?_
  refine (addf_apply _ _ _).trans ?_
  refine congrArg (acc (ix2 p q) + ·) ?_
  rw [shapeCast_self h, shapeCast_self t, shapeCast_self w, half_eq]
  refine (TransposedRhsDot.matmul_zero_apply (φ₁ := .bf16) (φ₂ := .bf16) 1024 1024 2048 _ w p q).trans ?_
  exact Finset.sum_congr rfl fun k _ => rfl

theorem k5_pay3_apply (acc : Vec Ideal S1024x2048 .f32) (b : Vec Ideal S2048 .f32) (p : Fin 1024) (q : Fin 2048) :
    k5_pay3 (F := Ideal) acc b (ix2 p q) = acc (ix2 p q) + b (ix1 q) := by
  unfold k5_pay3
  refine (addf_apply _ _ _).trans ?_
  refine congrArg (acc (ix2 p q) + ·) ?_
  refine (broadcastTo_1b_ab_apply _ _ p q).trans ?_
  exact shapeCast_a_1a_apply b _ 0 q

end Cert.KernelIdeal.PayValue

end
-- ==== Proof.Ideal.Val0.lean ====
/-
  What the first launch leaves in its output array, as one function of the input array.

  The grid has sixteen points; point t holds rows 512·t … 512·t + 511 of the 8192 by 4096 arrays, all 4096 columns, for
  the input and for the output alike. The body leaves, at (p, q) of its block, the entry times the sum of its row,
  positive part; row p of point t's block is row 512·t + p of the array and holds that row whole, so the sum over the
  block's row is the sum over the array's row, and what point t writes back is block t of the interaction term of the
  input array. Row r lies in the block of point r / 512, so the blocks cover the array, and the output array ends
  holding the interaction term.
-/
import proofs.«171023_j75617194213445_1_alg».proof.Proof.Ideal.R0
import proofs.«171023_j75617194213445_1_alg».proof.Proof.Ideal.Payloads
import proofs.«171023_j75617194213445_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, however spelt. -/
theorem hz0 : (![0, 0] : Fin 2 → Nat) = fun _ => 0 := funext fun a => by fin_cases a <;> rfl

/-- What the body leaves at (p, q) of its block: the entry times the sum of its row, positive part. -/
theorem out0_1_apply (x0 : Vec Ideal S512x4096 .f32) (p : Fin 512) (q : Fin 4096) :
    out0_1 x0 (ix2 p q) = max (x0 (ix2 p q) * ∑ k : Fin 4096, x0 (ix2 p k)) 0 := by
  unfold out0_1
  rw [View.canon_unit_zero hz0, View.ld_unit_zero (S := S512x4096) hz0]
  exact PayValue.k0_pay1_apply x0 p q

/-- A block whose row `p` is row `r` of an array, all 4096 columns: what the body leaves in row `p` is the array's
    interaction term in row `r`. -/
theorem out0_1_row (X : DeepFM.SX.Idx → EReal) (x0 : Vec Ideal S512x4096 .f32) (p : Fin 512) (r : Fin 8192)
    (hx : ∀ k : Fin 4096, x0 (ix2 p k) = X (ix2 r k)) (q : Fin 4096) :
    out0_1 x0 (ix2 p q) = DeepFM.inter X (ix2 r q) := by
  rw [out0_1_apply, DeepFM.inter_apply]
  unfold DeepFM.interC
  rw [hx q]
  exact congrArg (fun s => max (X (ix2 r q) * s) 0) (Finset.sum_congr rfl fun k _ => hx k)

/-- The index maps over the grid: at point `t` both windows sit at block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the interaction term of the input array as the launch finds it. -/
theorem flushed0_1_eq (c : Dev nD) (t : Fin cfg0.N) :
    (dat0 (F := Ideal) V c).flushed 1 t
      = ((cfg0.win 1).blk t).view.read (Elt Ideal) (DeepFM.inter (V c (Pipeline.arrRef spec0 0))) := by
  show (cfg0.win 1).cut (grid0.coords t) ((dat0 V c).after 1 t) = _
  rw [after0_1]
  obtain ⟨e00, e01, e10, e11⟩ := idx_facts0 t
  have ht : t.val < 16 := lt_of_lt_of_eq t.isLt (show cfg0.N = 16 from N_0)
  funext j
  obtain ⟨p, q, rfl⟩ : ∃ (p : Fin 512) (q : Fin 4096), j = ix2 p q := ⟨j 0, j 1, eq_ix2 j⟩
  obtain ⟨r, hr⟩ : ∃ r : Fin 8192, r.val = t.val * 512 + p.val := ⟨⟨_, by have := p.isLt; omega⟩, rfl⟩
  have e1 : ((cfg0.win 1).blk t).view.emb (ix2 p q) = ix2 r q := by
    funext a; apply Fin.ext
    match a with
    | ⟨0, _⟩ => show win0_1.index t (0 : Fin 2) * 512 + 1 * p.val = r.val; omega
    | ⟨1, _⟩ => show win0_1.index t (1 : Fin 2) * 4096 + 1 * q.val = q.val; omega
  have e0 : ∀ k : Fin 4096, ((cfg0.win 0).blk t).view.emb (ix2 p k) = ix2 r k := fun k => by
    funext a; apply Fin.ext
    match a with
    | ⟨0, _⟩ => show win0_0.index t (0 : Fin 2) * 512 + 1 * p.val = r.val; omega
    | ⟨1, _⟩ => show win0_0.index t (1 : Fin 2) * 4096 + 1 * k.val = k.val; omega
  show out0_1 (iblk0 V c 0 t) (ix2 p q)
    = DeepFM.inter (V c (Pipeline.arrRef spec0 0)) (((cfg0.win 1).blk t).view.emb (ix2 p q))
  rw [e1]
  refine out0_1_row _ _ p r (fun k => ?_) q
  show V c (Pipeline.arrRef spec0 0) (((cfg0.win 0).blk t).view.emb (ix2 p k)) = _
  rw [e0 k]

/-- An index of the array is in point `t`'s block iff each coordinate is in the block's range on its axis. -/
theorem mem_blk0_1 (t : Fin cfg0.N) (i : S8192x4096.Idx) :
    i ∈ ((cfg0.win 1).blk t).view.set
      ↔ ∀ a : Fin 2, win0_1.index t a * S512x4096.size a ≤ (i a).val
          ∧ (i a).val < win0_1.index t a * S512x4096.size a + S512x4096.size a := by
  show i ∈ ((View.whole main_v0).slice (win0_1.rect t)).set ↔ _
  rw [View.set_slice_whole, Rect.mem_set_unit]
  exact Iff.rfl

/-- Every row is in some point's block: row `r` in that of point `r / 512`. -/
theorem rows_covered (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, e10, e11⟩ := idx_facts0 t
  refine ⟨t, flush0_1 t, ?_⟩
  rw [mem_blk0_1]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 4096 ≤ (i 1).val ∧ (i 1).val < win0_1.index t (1 : Fin 2) * 4096 + 4096
    omega

/-- The output array after the first launch: the interaction term of the input array as the launch finds it. -/
theorem final0 (c : Dev nD) :
    (dat0 (F := Ideal) V c).arrAt 1 cfg0.N = DeepFM.inter (V c (Pipeline.arrRef spec0 0)) :=
  (dat0 V c).arrAt_eq_of_cover 1 (DeepFM.inter (V c (Pipeline.arrRef spec0 0))) (fun t _ => flushed0_1_eq V c t)
    rows_covered

end Cert.KernelIdeal.Hand

end
-- ==== Proof.LibSumSplit.lean ====
/-
  A sum over 4096 coordinates is the sum of four sums over 1024 coordinates: coordinate K is 1024 s + kk, the
  coordinate kk of slab s.
-/
import Mathlib.Algebra.BigOperators.Fin
import Mathlib.Data.Fintype.BigOperators
import Mathlib.Logic.Equiv.Fin.Basic

open scoped BigOperators

namespace SumSplit

/-- Coordinate `kk` of slab `s`: the coordinate `1024 s + kk` of the whole axis. -/
def col (s : Fin 4) (kk : Fin 1024) : Fin 4096 :=
  ⟨s.val * 1024 + kk.val, by have hs := s.isLt; have hk := kk.isLt; omega⟩

theorem col_val (s : Fin 4) (kk : Fin 1024) : (col s kk).val = s.val * 1024 + kk.val := rfl

/-- A sum over the whole axis is the sum over the slabs of the sums inside each slab. -/
theorem sum_slabs {M : Type*} [AddCommMonoid M] (f : Fin 4096 → M) :
    ∑ K : Fin 4096, f K = ∑ s : Fin 4, ∑ kk : Fin 1024, f (col s kk) := by
  have e := Equiv.sum_comp (finProdFinEquiv : Fin 4 × Fin 1024 ≃ Fin (4 * 1024)) f
  rw [← e, Fintype.sum_prod_type]
  refine Finset.sum_congr rfl fun s _ => Finset.sum_congr rfl fun kk _ => congrArg f (Fin.ext ?_)
  show kk.val + 1024 * s.val = s.val * 1024 + kk.val
  omega

/-- The same with the four slabs written out. -/
theorem sum_four_slabs {M : Type*} [AddCommMonoid M] (f : Fin 4096 → M) :
    ∑ K : Fin 4096, f K
      = (∑ kk : Fin 1024, f (col 0 kk)) + (∑ kk : Fin 1024, f (col 1 kk)) + (∑ kk : Fin 1024, f (col 2 kk))
        + (∑ kk : Fin 1024, f (col 3 kk)) := by
  rw [sum_slabs, Fin.sum_univ_four]

end SumSplit
-- ==== Proof.Ideal.Val1.lean ====
/-
  What the second launch leaves in its output array: one layer of the specification.

  The grid point t is (i, j, k) = (t / 8, t / 4 % 2, t % 4). The activations' block at t is rows 2048 i .. and columns
  1024 k .. of h; the weights' block is rows 2048 j .. and columns 1024 k .. of W; the bias block is entries 2048 j ..
  of b; the output block is rows 2048 i .. and columns 2048 j .. . At a point with k = 3 the accumulator at (p, q) is
  zero plus, for k = 0, 1, 2, 3 in turn, the sum over the 1024 columns of slab k of h (2048 i + p, ·) · W (2048 j + q, ·):
  the four slabs split the 4096 contracted columns, so it is the whole sum. The body then adds b (2048 j + q) and keeps
  the positive part, which is the layer's entry (2048 i + p, 2048 j + q). Those points write the output back, and their
  blocks fill the array.
-/
import proofs.«171023_j75617194213445_1_alg».proof.Proof.Ideal.R1
import proofs.«171023_j75617194213445_1_alg».proof.Proof.Ideal.Payloads
import proofs.«171023_j75617194213445_1_alg».proof.Proof.Spec
import Idealize.ShloMosaic.Lib.Pipeline.Value
import Idealize.ShloMosaic.Lib.ValueIdx
import proofs.«171023_j75617194213445_1_alg».proof.Proof.LibSumSplit

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayValue Idealize.ShloMosaic.ValueIdx

variable (V : (c : Dev nD) → (b : Ref sig .tc) → Buf (Elt Ideal) ((c : Thread nD τ).loc b))

/-- The three input arrays as the launch finds them, at their literal types. -/
abbrev harr_r1 (c : Dev nD) : Vec Ideal S8192x4096 .bf16 := V c (Pipeline.arrRef spec1 0)
abbrev warr_r1 (c : Dev nD) : Vec Ideal S4096x4096 .bf16 := V c (Pipeline.arrRef spec1 1)
abbrev barr_r1 (c : Dev nD) : Vec Ideal S4096 .f32 := V c (Pipeline.arrRef spec1 2)

/-- The index maps over the grid: point t is (t / 8, t / 4 % 2, t % 4). -/
theorem idx_facts_r1 : ∀ t : Fin cfg1.N, win1_0.index t (0 : Fin 2) = t.val / 8 ∧ win1_0.index t (1 : Fin 2) = t.val % 4
    ∧ win1_1.index t (0 : Fin 2) = t.val / 4 % 2 ∧ win1_1.index t (1 : Fin 2) = t.val % 4
    ∧ win1_2.index t (0 : Fin 1) = t.val / 4 % 2
    ∧ win1_3.index t (0 : Fin 2) = t.val / 8 ∧ win1_3.index t (1 : Fin 2) = t.val / 4 % 2 :=
  (by decide +kernel : ∀ t : Fin grid1.N, _)

/-- The activations' block at point t holds rows 2048 (t / 8) .. and columns 1024 (t % 4) .. of the activations. -/
theorem hblk_apply_r1 (c : Dev nD) (t : Fin cfg1.N) (p : Fin 2048) (kk : Fin 1024) (r : Fin 8192) (K : Fin 4096)
    (hr : r.val = t.val / 8 * 2048 + p.val) (hK : K.val = t.val % 4 * 1024 + kk.val) :
    (iblk1 V c 0 t : Vec Ideal S2048x1024 .bf16) (ix2 p kk) = harr_r1 V c (ix2 r K) := by
  obtain ⟨ea, eb, -⟩ := idx_facts_r1 t
  show harr_r1 V c (((cfg1.win 0).blk t).view.emb (ix2 p kk)) = harr_r1 V c (ix2 r K)
  refine congrArg (harr_r1 V c) (funext fun a => Fin.ext ?_)
  match a with
  | ⟨0, _⟩ => show win1_0.index t (0 : Fin 2) * 2048 + 1 * p.val = r.val; rw [ea, hr]; omega
  | ⟨1, _⟩ => show win1_0.index t (1 : Fin 2) * 1024 + 1 * kk.val = K.val; rw [eb, hK]; omega

/-- The weights' block at point t holds rows 2048 (t / 4 % 2) .. and columns 1024 (t % 4) .. of the weights. -/
theorem wblk_apply_r1 (c : Dev nD) (t : Fin cfg1.N) (q : Fin 2048) (kk : Fin 1024) (cc : Fin 4096) (K : Fin 4096)
    (hc : cc.val = t.val / 4 % 2 * 2048 + q.val) (hK : K.val = t.val % 4 * 1024 + kk.val) :
    (iblk1 V c 1 t : Vec Ideal S2048x1024 .bf16) (ix2 q kk) = warr_r1 V c (ix2 cc K) := by
  obtain ⟨-, -, ea, eb, -⟩ := idx_facts_r1 t
  show warr_r1 V c (((cfg1.win 1).blk t).view.emb (ix2 q kk)) = warr_r1 V c (ix2 cc K)
  refine congrArg (warr_r1 V c) (funext fun a => Fin.ext ?_)
  match a with
  | ⟨0, _⟩ => show win1_1.index t (0 : Fin 2) * 2048 + 1 * q.val = cc.val; rw [ea, hc]; omega
  | ⟨1, _⟩ => show win1_1.index t (1 : Fin 2) * 1024 + 1 * kk.val = K.val; rw [eb, hK]; omega

/-- The bias block at point t holds entries 2048 (t / 4 % 2) .. of the bias. -/
theorem bblk_apply_r1 (c : Dev nD) (t : Fin cfg1.N) (q : Fin 2048) (cc : Fin 4096)
    (hc : cc.val = t.val / 4 % 2 * 2048 + q.val) :
    (iblk1 V c 2 t : Vec Ideal S2048 .f32) (ix1 q) = barr_r1 V c (ix1 cc) := by
  obtain ⟨-, -, -, -, ea, -⟩ := idx_facts_r1 t
  show barr_r1 V c (((cfg1.win 2).blk t).view.emb (ix1 q)) = barr_r1 V c (ix1 cc)
  refine congrArg (barr_r1 V c) (funext fun a => Fin.ext ?_)
  match a with
  | ⟨0, _⟩ => show win1_2.index t (0 : Fin 1) * 2048 + 1 * q.val = cc.val; rw [ea, hc]; omega

/-- One step of the accumulation at an entry: the accumulator gains slab s = t % 4 of the product's sum. -/
theorem step_apply_r1 (c : Dev nD) (t : Fin cfg1.N) (a : Vec Ideal S2048x2048 .f32) (p q : Fin 2048) (r : Fin 8192)
    (cc : Fin 4096) (s : Fin 4) (hr : r.val = t.val / 8 * 2048 + p.val) (hc : cc.val = t.val / 4 % 2 * 2048 + q.val)
    (hs : s.val = t.val % 4) :
    k1_pay2 (F := Ideal) a (iblk1 V c 0 t) (iblk1 V c 1 t) (ix2 p q)
      = a (ix2 p q) + ∑ kk : Fin 1024, harr_r1 V c (ix2 r (SumSplit.col s kk)) * warr_r1 V c (ix2 cc (SumSplit.col s kk)) := by
  refine (k1_pay2_apply a (iblk1 V c 0 t) (iblk1 V c 1 t) p q).trans ?_
  refine congrArg (a (ix2 p q) + ·) (Finset.sum_congr rfl fun kk _ => ?_)
  exact congrArg₂ (· * ·)
    (hblk_apply_r1 V c t p kk r (SumSplit.col s kk) hr (by rw [SumSplit.col_val, hs]))
    (wblk_apply_r1 V c t q kk cc (SumSplit.col s kk) hc (by rw [SumSplit.col_val, hs]))

/-- At a point that ends a run of four steps the accumulator's entry is the whole sum over the 4096 contracted columns. -/
theorem acc_apply_r1 (c : Dev nD) (t : Fin cfg1.N) (hlast : t.val % 4 = 3) (p q : Fin 2048) (r : Fin 8192) (cc : Fin 4096)
    (hr : r.val = t.val / 8 * 2048 + p.val) (hc : cc.val = t.val / 4 % 2 * 2048 + q.val) :
    acc1 (F := Ideal) V c t.val t.isLt (ix2 p q) = ∑ K : Fin 4096, harr_r1 V c (ix2 r K) * warr_r1 V c (ix2 cc K) := by
  have hN : t.val < 32 := lt_of_lt_of_eq t.isLt (show cfg1.N = 32 from N_1)
  have lta : t.val - 1 < cfg1.N := Nat.lt_of_le_of_lt (Nat.sub_le _ _) t.isLt
  have ltb : t.val - 1 - 1 < cfg1.N := Nat.lt_of_le_of_lt (Nat.sub_le _ _) lta
  have ltc : t.val - 1 - 1 - 1 < cfg1.N := Nat.lt_of_le_of_lt (Nat.sub_le _ _) ltb
  have sd := (congrFun (acc1_step V c t (by omega)) (ix2 p q)).trans
    (step_apply_r1 V c t (acc1 V c (t.val - 1) lta) p q r cc 3 hr hc hlast.symm)
  have sc := (congrFun (acc1_step V c ⟨t.val - 1, lta⟩ (by show ¬(t.val - 1) % 4 = 0; omega)) (ix2 p q)).trans
    (step_apply_r1 V c ⟨t.val - 1, lta⟩ (acc1 V c (t.val - 1 - 1) ltb) p q r cc 2
      (by show r.val = (t.val - 1) / 8 * 2048 + p.val; omega) (by show cc.val = (t.val - 1) / 4 % 2 * 2048 + q.val; omega)
      (by show 2 = (t.val - 1) % 4; omega))
  have sb := (congrFun (acc1_step V c ⟨t.val - 1 - 1, ltb⟩ (by show ¬(t.val - 1 - 1) % 4 = 0; omega)) (ix2 p q)).trans
    (step_apply_r1 V c ⟨t.val - 1 - 1, ltb⟩ (acc1 V c (t.val - 1 - 1 - 1) ltc) p q r cc 1
      (by show r.val = (t.val - 1 - 1) / 8 * 2048 + p.val; omega) (by show cc.val = (t.val - 1 - 1) / 4 % 2 * 2048 + q.val; omega)
      (by show 1 = (t.val - 1 - 1) % 4; omega))
  have sa := (congrFun (acc1_first V c ⟨t.val - 1 - 1 - 1, ltc⟩ (by show (t.val - 1 - 1 - 1) % 4 = 0; omega)) (ix2 p q)).trans
    (step_apply_r1 V c ⟨t.val - 1 - 1 - 1, ltc⟩ (k1_pay1 (F := Ideal)) p q r cc 0
      (by show r.val = (t.val - 1 - 1 - 1) / 8 * 2048 + p.val; omega) (by show cc.val = (t.val - 1 - 1 - 1) / 4 % 2 * 2048 + q.val; omega)
      (by show 0 = (t.val - 1 - 1 - 1) % 4; omega))
  rw [sd, sc, sb, sa, k1_pay1_apply, zero_add, SumSplit.sum_four_slabs]

/-- What a point that ends a run stores into the output block, at an entry: the layer's entry. -/
theorem flushed_at_r1 (c : Dev nD) (t : Fin cfg1.N) (hlast : t.val % 4 = 3) (p q : Fin 2048) (r : Fin 8192) (cc : Fin 4096)
    (hr : r.val = t.val / 8 * 2048 + p.val) (hc : cc.val = t.val / 4 % 2 * 2048 + q.val) :
    k1_pay3 (F := Ideal) (acc1 V c t.val t.isLt) (iblk1 V c 2 t) (ix2 p q)
      = DeepFM.layer (harr_r1 V c) (warr_r1 V c) (barr_r1 V c) (ix2 r cc) := by
  refine (k1_pay3_apply (acc1 V c t.val t.isLt) (iblk1 V c 2 t) p q).trans ?_
  rw [acc_apply_r1 V c t hlast p q r cc hr hc, bblk_apply_r1 V c t q cc hc, DeepFM.layer_apply]
  rfl

/-- What a point writes back is its block of the layer. -/
theorem flushed_eq_r1 (c : Dev nD) (t : Fin cfg1.N) (hf : (cfg1.win 3).flush t = true) :
    (dat1 (F := Ideal) V c).flushed 3 t
      = ((cfg1.win 3).blk t).view.read (Elt Ideal) (DeepFM.layer (harr_r1 V c) (warr_r1 V c) (barr_r1 V c)) := by
  have hlast : t.val % 4 = 3 := (flush1_3 t).mp hf
  have hN : t.val < 32 := lt_of_lt_of_eq t.isLt (show cfg1.N = 32 from N_1)
  obtain ⟨-, -, -, -, -, ef, eg⟩ := idx_facts_r1 t
  show (cfg1.win 3).cut (grid1.coords t) ((dat1 (F := Ideal) V c).after 3 t) = _
  rw [after1_3]
  funext j
  have hp : (j 0).val < 2048 := (j 0).isLt
  have hq : (j 1).val < 2048 := (j 1).isLt
  have hj : (cfg1.win 3).xinj (grid1.coords t) j = ix2 (⟨(j 0).val, hp⟩ : Fin 2048) (⟨(j 1).val, hq⟩ : Fin 2048) :=
    funext fun a => by match a with | ⟨0, _⟩ => rfl | ⟨1, _⟩ => rfl
  show k1_pay3 (F := Ideal) (acc1 V c t.val t.isLt) (iblk1 V c 2 t) ((cfg1.win 3).xinj (grid1.coords t) j)
    = DeepFM.layer (harr_r1 V c) (warr_r1 V c) (barr_r1 V c) (((cfg1.win 3).blk t).view.emb j)
  refine (congrArg (k1_pay3 (F := Ideal) (acc1 V c t.val t.isLt) (iblk1 V c 2 t)) hj).trans ?_
  refine (flushed_at_r1 V c t hlast ⟨(j 0).val, hp⟩ ⟨(j 1).val, hq⟩ ⟨t.val / 8 * 2048 + (j 0).val, by omega⟩
    ⟨t.val / 4 % 2 * 2048 + (j 1).val, by omega⟩ rfl rfl).trans ?_
  refine congrArg (DeepFM.layer (harr_r1 V c) (warr_r1 V c) (barr_r1 V c)) (funext fun a => Fin.ext ?_)
  match a with
  | ⟨0, _⟩ => show t.val / 8 * 2048 + (j 0).val = win1_3.index t (0 : Fin 2) * 2048 + 1 * (j 0).val; rw [ef]; omega
  | ⟨1, _⟩ => show t.val / 4 % 2 * 2048 + (j 1).val = win1_3.index t (1 : Fin 2) * 2048 + 1 * (j 1).val; rw [eg]; omega

/-- An index of the array is in point t's output block iff each coordinate is in the block's range on its axis. -/
theorem mem_blk_r1 (t : Fin cfg1.N) (i : S8192x4096.Idx) :
    i ∈ ((cfg1.win 3).blk t).view.set ↔ ∀ a : Fin 2, win1_3.index t a * S2048x2048.size a ≤ (i a).val
      ∧ (i a).val < win1_3.index t a * S2048x2048.size a + S2048x2048.size a := by
  show i ∈ ((View.whole (Pipeline.arrRef spec1 3)).slice (win1_3.rect t)).set ↔ _
  rw [View.set_slice_whole, Rect.mem_set_unit]
  exact Iff.rfl

/-- Every index of the array is in the output block of the point that ends the run of its row block and column block. -/
theorem covered_r1 (i : S8192x4096.Idx) :
    ∃ t : Fin cfg1.N, (cfg1.win 3).flush t = true ∧ i ∈ ((cfg1.win 3).blk t).view.set := by
  have hrow : (i 0).val < 8192 := (i 0).isLt
  have hcol : (i 1).val < 4096 := (i 1).isLt
  have hN : cfg1.N = 32 := N_1
  obtain ⟨t, ht⟩ : ∃ t : Fin cfg1.N, t.val = 8 * ((i 0).val / 2048) + 4 * ((i 1).val / 2048) + 3 :=
    ⟨⟨8 * ((i 0).val / 2048) + 4 * ((i 1).val / 2048) + 3, by rw [hN]; omega⟩, rfl⟩
  obtain ⟨-, -, -, -, -, ef, eg⟩ := idx_facts_r1 t
  refine ⟨t, (flush1_3 t).mpr (by omega), ?_⟩
  rw [mem_blk_r1]
  intro a
  match a with
  | ⟨0, _⟩ =>
    show win1_3.index t (0 : Fin 2) * 2048 ≤ (i 0).val ∧ (i 0).val < win1_3.index t (0 : Fin 2) * 2048 + 2048
    rw [ef]; omega
  | ⟨1, _⟩ =>
    show win1_3.index t (1 : Fin 2) * 2048 ≤ (i 1).val ∧ (i 1).val < win1_3.index t (1 : Fin 2) * 2048 + 2048
    rw [eg]; omega

/-- The output array after the launch is the layer of the three input arrays as the launch finds them. -/
theorem final1 (c : Dev nD) : (dat1 (F := Ideal) V c).arrAt 3 cfg1.N = DeepFM.layer (V c (Pipeline.arrRef spec1 0)) (V c (Pipeline.arrRef spec1 1)) (V c (Pipeline.arrRef spec1 2)) :=
  (dat1 (F := Ideal) V c).arrAt_eq_of_cover 3 (DeepFM.layer (harr_r1 V c) (warr_r1 V c) (barr_r1 V c))
    (fun t hf => flushed_eq_r1 V c t hf) covered_r1

end Cert.KernelIdeal.Hand

end
-- ==== Proof.Ideal.Val2.lean ====
/-
  What the second launch leaves in its output array: one layer of the specification.

  The grid point t is (i, j, k) = (t / 8, t / 4 % 2, t % 4). The activations' block at t is rows 2048 i .. and columns
  1024 k .. of h; the weights' block is rows 2048 j .. and columns 1024 k .. of W; the bias block is entries 2048 j ..
  of b; the output block is rows 2048 i .. and columns 2048 j .. . At a point with k = 3 the accumulator at (p, q) is
  zero plus, for k = 0, 1, 2, 3 in turn, the sum over the 1024 columns of slab k of h (2048 i + p, ·) · W (2048 j + q, ·):
  the four slabs split the 4096 contracted columns, so it is the whole sum. The body then adds b (2048 j + q) and keeps
  the positive part, which is the layer's entry (2048 i + p, 2048 j + q). Those points write the output back, and their
  blocks fill the array.
-/
import proofs.«171023_j75617194213445_1_alg».proof.Proof.Ideal.R2
import proofs.«171023_j75617194213445_1_alg».proof.Proof.Ideal.Payloads
import proofs.«171023_j75617194213445_1_alg».proof.Proof.Spec
import Idealize.ShloMosaic.Lib.Pipeline.Value
import Idealize.ShloMosaic.Lib.ValueIdx
import proofs.«171023_j75617194213445_1_alg».proof.Proof.LibSumSplit

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayValue Idealize.ShloMosaic.ValueIdx

variable (V : (c : Dev nD) → (b : Ref sig .tc) → Buf (Elt Ideal) ((c : Thread nD τ).loc b))

/-- The three input arrays as the launch finds them, at their literal types. -/
abbrev harr_r2 (c : Dev nD) : Vec Ideal S8192x4096 .bf16 := V c (Pipeline.arrRef spec2 0)
abbrev warr_r2 (c : Dev nD) : Vec Ideal S4096x4096 .bf16 := V c (Pipeline.arrRef spec2 1)
abbrev barr_r2 (c : Dev nD) : Vec Ideal S4096 .f32 := V c (Pipeline.arrRef spec2 2)

/-- The index maps over the grid: point t is (t / 8, t / 4 % 2, t % 4). -/
theorem idx_facts_r2 : ∀ t : Fin cfg2.N, win2_0.index t (0 : Fin 2) = t.val / 8 ∧ win2_0.index t (1 : Fin 2) = t.val % 4
    ∧ win2_1.index t (0 : Fin 2) = t.val / 4 % 2 ∧ win2_1.index t (1 : Fin 2) = t.val % 4
    ∧ win2_2.index t (0 : Fin 1) = t.val / 4 % 2
    ∧ win2_3.index t (0 : Fin 2) = t.val / 8 ∧ win2_3.index t (1 : Fin 2) = t.val / 4 % 2 :=
  (by decide +kernel : ∀ t : Fin grid2.N, _)

/-- The activations' block at point t holds rows 2048 (t / 8) .. and columns 1024 (t % 4) .. of the activations. -/
theorem hblk_apply_r2 (c : Dev nD) (t : Fin cfg2.N) (p : Fin 2048) (kk : Fin 1024) (r : Fin 8192) (K : Fin 4096)
    (hr : r.val = t.val / 8 * 2048 + p.val) (hK : K.val = t.val % 4 * 1024 + kk.val) :
    (iblk2 V c 0 t : Vec Ideal S2048x1024 .bf16) (ix2 p kk) = harr_r2 V c (ix2 r K) := by
  obtain ⟨ea, eb, -⟩ := idx_facts_r2 t
  show harr_r2 V c (((cfg2.win 0).blk t).view.emb (ix2 p kk)) = harr_r2 V c (ix2 r K)
  refine congrArg (harr_r2 V c) (funext fun a => Fin.ext ?_)
  match a with
  | ⟨0, _⟩ => show win2_0.index t (0 : Fin 2) * 2048 + 1 * p.val = r.val; rw [ea, hr]; omega
  | ⟨1, _⟩ => show win2_0.index t (1 : Fin 2) * 1024 + 1 * kk.val = K.val; rw [eb, hK]; omega

/-- The weights' block at point t holds rows 2048 (t / 4 % 2) .. and columns 1024 (t % 4) .. of the weights. -/
theorem wblk_apply_r2 (c : Dev nD) (t : Fin cfg2.N) (q : Fin 2048) (kk : Fin 1024) (cc : Fin 4096) (K : Fin 4096)
    (hc : cc.val = t.val / 4 % 2 * 2048 + q.val) (hK : K.val = t.val % 4 * 1024 + kk.val) :
    (iblk2 V c 1 t : Vec Ideal S2048x1024 .bf16) (ix2 q kk) = warr_r2 V c (ix2 cc K) := by
  obtain ⟨-, -, ea, eb, -⟩ := idx_facts_r2 t
  show warr_r2 V c (((cfg2.win 1).blk t).view.emb (ix2 q kk)) = warr_r2 V c (ix2 cc K)
  refine congrArg (warr_r2 V c) (funext fun a => Fin.ext ?_)
  match a with
  | ⟨0, _⟩ => show win2_1.index t (0 : Fin 2) * 2048 + 1 * q.val = cc.val; rw [ea, hc]; omega
  | ⟨1, _⟩ => show win2_1.index t (1 : Fin 2) * 1024 + 1 * kk.val = K.val; rw [eb, hK]; omega

/-- The bias block at point t holds entries 2048 (t / 4 % 2) .. of the bias. -/
theorem bblk_apply_r2 (c : Dev nD) (t : Fin cfg2.N) (q : Fin 2048) (cc : Fin 4096)
    (hc : cc.val = t.val / 4 % 2 * 2048 + q.val) :
    (iblk2 V c 2 t : Vec Ideal S2048 .f32) (ix1 q) = barr_r2 V c (ix1 cc) := by
  obtain ⟨-, -, -, -, ea, -⟩ := idx_facts_r2 t
  show barr_r2 V c (((cfg2.win 2).blk t).view.emb (ix1 q)) = barr_r2 V c (ix1 cc)
  refine congrArg (barr_r2 V c) (funext fun a => Fin.ext ?_)
  match a with
  | ⟨0, _⟩ => show win2_2.index t (0 : Fin 1) * 2048 + 1 * q.val = cc.val; rw [ea, hc]; omega

/-- One step of the accumulation at an entry: the accumulator gains slab s = t % 4 of the product's sum. -/
theorem step_apply_r2 (c : Dev nD) (t : Fin cfg2.N) (a : Vec Ideal S2048x2048 .f32) (p q : Fin 2048) (r : Fin 8192)
    (cc : Fin 4096) (s : Fin 4) (hr : r.val = t.val / 8 * 2048 + p.val) (hc : cc.val = t.val / 4 % 2 * 2048 + q.val)
    (hs : s.val = t.val % 4) :
    k2_pay2 (F := Ideal) a (iblk2 V c 0 t) (iblk2 V c 1 t) (ix2 p q)
      = a (ix2 p q) + ∑ kk : Fin 1024, harr_r2 V c (ix2 r (SumSplit.col s kk)) * warr_r2 V c (ix2 cc (SumSplit.col s kk)) := by
  refine (k2_pay2_apply a (iblk2 V c 0 t) (iblk2 V c 1 t) p q).trans ?_
  refine congrArg (a (ix2 p q) + ·) (Finset.sum_congr rfl fun kk _ => ?_)
  exact congrArg₂ (· * ·)
    (hblk_apply_r2 V c t p kk r (SumSplit.col s kk) hr (by rw [SumSplit.col_val, hs]))
    (wblk_apply_r2 V c t q kk cc (SumSplit.col s kk) hc (by rw [SumSplit.col_val, hs]))

/-- At a point that ends a run of four steps the accumulator's entry is the whole sum over the 4096 contracted columns. -/
theorem acc_apply_r2 (c : Dev nD) (t : Fin cfg2.N) (hlast : t.val % 4 = 3) (p q : Fin 2048) (r : Fin 8192) (cc : Fin 4096)
    (hr : r.val = t.val / 8 * 2048 + p.val) (hc : cc.val = t.val / 4 % 2 * 2048 + q.val) :
    acc2 (F := Ideal) V c t.val t.isLt (ix2 p q) = ∑ K : Fin 4096, harr_r2 V c (ix2 r K) * warr_r2 V c (ix2 cc K) := by
  have hN : t.val < 32 := lt_of_lt_of_eq t.isLt (show cfg2.N = 32 from N_2)
  have lta : t.val - 1 < cfg2.N := Nat.lt_of_le_of_lt (Nat.sub_le _ _) t.isLt
  have ltb : t.val - 1 - 1 < cfg2.N := Nat.lt_of_le_of_lt (Nat.sub_le _ _) lta
  have ltc : t.val - 1 - 1 - 1 < cfg2.N := Nat.lt_of_le_of_lt (Nat.sub_le _ _) ltb
  have sd := (congrFun (acc2_step V c t (by omega)) (ix2 p q)).trans
    (step_apply_r2 V c t (acc2 V c (t.val - 1) lta) p q r cc 3 hr hc hlast.symm)
  have sc := (congrFun (acc2_step V c ⟨t.val - 1, lta⟩ (by show ¬(t.val - 1) % 4 = 0; omega)) (ix2 p q)).trans
    (step_apply_r2 V c ⟨t.val - 1, lta⟩ (acc2 V c (t.val - 1 - 1) ltb) p q r cc 2
      (by show r.val = (t.val - 1) / 8 * 2048 + p.val; omega) (by show cc.val = (t.val - 1) / 4 % 2 * 2048 + q.val; omega)
      (by show 2 = (t.val - 1) % 4; omega))
  have sb := (congrFun (acc2_step V c ⟨t.val - 1 - 1, ltb⟩ (by show ¬(t.val - 1 - 1) % 4 = 0; omega)) (ix2 p q)).trans
    (step_apply_r2 V c ⟨t.val - 1 - 1, ltb⟩ (acc2 V c (t.val - 1 - 1 - 1) ltc) p q r cc 1
      (by show r.val = (t.val - 1 - 1) / 8 * 2048 + p.val; omega) (by show cc.val = (t.val - 1 - 1) / 4 % 2 * 2048 + q.val; omega)
      (by show 1 = (t.val - 1 - 1) % 4; omega))
  have sa := (congrFun (acc2_first V c ⟨t.val - 1 - 1 - 1, ltc⟩ (by show (t.val - 1 - 1 - 1) % 4 = 0; omega)) (ix2 p q)).trans
    (step_apply_r2 V c ⟨t.val - 1 - 1 - 1, ltc⟩ (k2_pay1 (F := Ideal)) p q r cc 0
      (by show r.val = (t.val - 1 - 1 - 1) / 8 * 2048 + p.val; omega) (by show cc.val = (t.val - 1 - 1 - 1) / 4 % 2 * 2048 + q.val; omega)
      (by show 0 = (t.val - 1 - 1 - 1) % 4; omega))
  rw [sd, sc, sb, sa, k2_pay1_apply, zero_add, SumSplit.sum_four_slabs]

/-- What a point that ends a run stores into the output block, at an entry: the layer's entry. -/
theorem flushed_at_r2 (c : Dev nD) (t : Fin cfg2.N) (hlast : t.val % 4 = 3) (p q : Fin 2048) (r : Fin 8192) (cc : Fin 4096)
    (hr : r.val = t.val / 8 * 2048 + p.val) (hc : cc.val = t.val / 4 % 2 * 2048 + q.val) :
    k2_pay3 (F := Ideal) (acc2 V c t.val t.isLt) (iblk2 V c 2 t) (ix2 p q)
      = DeepFM.layer (harr_r2 V c) (warr_r2 V c) (barr_r2 V c) (ix2 r cc) := by
  refine (k2_pay3_apply (acc2 V c t.val t.isLt) (iblk2 V c 2 t) p q).trans ?_
  rw [acc_apply_r2 V c t hlast p q r cc hr hc, bblk_apply_r2 V c t q cc hc, DeepFM.layer_apply]
  rfl

/-- What a point writes back is its block of the layer. -/
theorem flushed_eq_r2 (c : Dev nD) (t : Fin cfg2.N) (hf : (cfg2.win 3).flush t = true) :
    (dat2 (F := Ideal) V c).flushed 3 t
      = ((cfg2.win 3).blk t).view.read (Elt Ideal) (DeepFM.layer (harr_r2 V c) (warr_r2 V c) (barr_r2 V c)) := by
  have hlast : t.val % 4 = 3 := (flush2_3 t).mp hf
  have hN : t.val < 32 := lt_of_lt_of_eq t.isLt (show cfg2.N = 32 from N_2)
  obtain ⟨-, -, -, -, -, ef, eg⟩ := idx_facts_r2 t
  show (cfg2.win 3).cut (grid2.coords t) ((dat2 (F := Ideal) V c).after 3 t) = _
  rw [after2_3]
  funext j
  have hp : (j 0).val < 2048 := (j 0).isLt
  have hq : (j 1).val < 2048 := (j 1).isLt
  have hj : (cfg2.win 3).xinj (grid2.coords t) j = ix2 (⟨(j 0).val, hp⟩ : Fin 2048) (⟨(j 1).val, hq⟩ : Fin 2048) :=
    funext fun a => by match a with | ⟨0, _⟩ => rfl | ⟨1, _⟩ => rfl
  show k2_pay3 (F := Ideal) (acc2 V c t.val t.isLt) (iblk2 V c 2 t) ((cfg2.win 3).xinj (grid2.coords t) j)
    = DeepFM.layer (harr_r2 V c) (warr_r2 V c) (barr_r2 V c) (((cfg2.win 3).blk t).view.emb j)
  refine (congrArg (k2_pay3 (F := Ideal) (acc2 V c t.val t.isLt) (iblk2 V c 2 t)) hj).trans ?_
  refine (flushed_at_r2 V c t hlast ⟨(j 0).val, hp⟩ ⟨(j 1).val, hq⟩ ⟨t.val / 8 * 2048 + (j 0).val, by omega⟩
    ⟨t.val / 4 % 2 * 2048 + (j 1).val, by omega⟩ rfl rfl).trans ?_
  refine congrArg (DeepFM.layer (harr_r2 V c) (warr_r2 V c) (barr_r2 V c)) (funext fun a => Fin.ext ?_)
  match a with
  | ⟨0, _⟩ => show t.val / 8 * 2048 + (j 0).val = win2_3.index t (0 : Fin 2) * 2048 + 1 * (j 0).val; rw [ef]; omega
  | ⟨1, _⟩ => show t.val / 4 % 2 * 2048 + (j 1).val = win2_3.index t (1 : Fin 2) * 2048 + 1 * (j 1).val; rw [eg]; omega

/-- An index of the array is in point t's output block iff each coordinate is in the block's range on its axis. -/
theorem mem_blk_r2 (t : Fin cfg2.N) (i : S8192x4096.Idx) :
    i ∈ ((cfg2.win 3).blk t).view.set ↔ ∀ a : Fin 2, win2_3.index t a * S2048x2048.size a ≤ (i a).val
      ∧ (i a).val < win2_3.index t a * S2048x2048.size a + S2048x2048.size a := by
  show i ∈ ((View.whole (Pipeline.arrRef spec2 3)).slice (win2_3.rect t)).set ↔ _
  rw [View.set_slice_whole, Rect.mem_set_unit]
  exact Iff.rfl

/-- Every index of the array is in the output block of the point that ends the run of its row block and column block. -/
theorem covered_r2 (i : S8192x4096.Idx) :
    ∃ t : Fin cfg2.N, (cfg2.win 3).flush t = true ∧ i ∈ ((cfg2.win 3).blk t).view.set := by
  have hrow : (i 0).val < 8192 := (i 0).isLt
  have hcol : (i 1).val < 4096 := (i 1).isLt
  have hN : cfg2.N = 32 := N_2
  obtain ⟨t, ht⟩ : ∃ t : Fin cfg2.N, t.val = 8 * ((i 0).val / 2048) + 4 * ((i 1).val / 2048) + 3 :=
    ⟨⟨8 * ((i 0).val / 2048) + 4 * ((i 1).val / 2048) + 3, by rw [hN]; omega⟩, rfl⟩
  obtain ⟨-, -, -, -, -, ef, eg⟩ := idx_facts_r2 t
  refine ⟨t, (flush2_3 t).mpr (by omega), ?_⟩
  rw [mem_blk_r2]
  intro a
  match a with
  | ⟨0, _⟩ =>
    show win2_3.index t (0 : Fin 2) * 2048 ≤ (i 0).val ∧ (i 0).val < win2_3.index t (0 : Fin 2) * 2048 + 2048
    rw [ef]; omega
  | ⟨1, _⟩ =>
    show win2_3.index t (1 : Fin 2) * 2048 ≤ (i 1).val ∧ (i 1).val < win2_3.index t (1 : Fin 2) * 2048 + 2048
    rw [eg]; omega

/-- The output array after the launch is the layer of the three input arrays as the launch finds them. -/
theorem final2 (c : Dev nD) : (dat2 (F := Ideal) V c).arrAt 3 cfg2.N = DeepFM.layer (V c (Pipeline.arrRef spec2 0)) (V c (Pipeline.arrRef spec2 1)) (V c (Pipeline.arrRef spec2 2)) :=
  (dat2 (F := Ideal) V c).arrAt_eq_of_cover 3 (DeepFM.layer (harr_r2 V c) (warr_r2 V c) (barr_r2 V c))
    (fun t hf => flushed_eq_r2 V c t hf) covered_r2

end Cert.KernelIdeal.Hand

end
-- ==== Proof.Ideal.Val3.lean ====
/-
  What the second launch leaves in its output array: one layer of the specification.

  The grid point t is (i, j, k) = (t / 8, t / 4 % 2, t % 4). The activations' block at t is rows 2048 i .. and columns
  1024 k .. of h; the weights' block is rows 2048 j .. and columns 1024 k .. of W; the bias block is entries 2048 j ..
  of b; the output block is rows 2048 i .. and columns 2048 j .. . At a point with k = 3 the accumulator at (p, q) is
  zero plus, for k = 0, 1, 2, 3 in turn, the sum over the 1024 columns of slab k of h (2048 i + p, ·) · W (2048 j + q, ·):
  the four slabs split the 4096 contracted columns, so it is the whole sum. The body then adds b (2048 j + q) and keeps
  the positive part, which is the layer's entry (2048 i + p, 2048 j + q). Those points write the output back, and their
  blocks fill the array.
-/
import proofs.«171023_j75617194213445_1_alg».proof.Proof.Ideal.R3
import proofs.«171023_j75617194213445_1_alg».proof.Proof.Ideal.Payloads
import proofs.«171023_j75617194213445_1_alg».proof.Proof.Spec
import Idealize.ShloMosaic.Lib.Pipeline.Value
import Idealize.ShloMosaic.Lib.ValueIdx
import proofs.«171023_j75617194213445_1_alg».proof.Proof.LibSumSplit

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayValue Idealize.ShloMosaic.ValueIdx

variable (V : (c : Dev nD) → (b : Ref sig .tc) → Buf (Elt Ideal) ((c : Thread nD τ).loc b))

/-- The three input arrays as the launch finds them, at their literal types. -/
abbrev harr_r3 (c : Dev nD) : Vec Ideal S8192x4096 .bf16 := V c (Pipeline.arrRef spec3 0)
abbrev warr_r3 (c : Dev nD) : Vec Ideal S4096x4096 .bf16 := V c (Pipeline.arrRef spec3 1)
abbrev barr_r3 (c : Dev nD) : Vec Ideal S4096 .f32 := V c (Pipeline.arrRef spec3 2)

/-- The index maps over the grid: point t is (t / 8, t / 4 % 2, t % 4). -/
theorem idx_facts_r3 : ∀ t : Fin cfg3.N, win3_0.index t (0 : Fin 2) = t.val / 8 ∧ win3_0.index t (1 : Fin 2) = t.val % 4
    ∧ win3_1.index t (0 : Fin 2) = t.val / 4 % 2 ∧ win3_1.index t (1 : Fin 2) = t.val % 4
    ∧ win3_2.index t (0 : Fin 1) = t.val / 4 % 2
    ∧ win3_3.index t (0 : Fin 2) = t.val / 8 ∧ win3_3.index t (1 : Fin 2) = t.val / 4 % 2 :=
  (by decide +kernel : ∀ t : Fin grid3.N, _)

/-- The activations' block at point t holds rows 2048 (t / 8) .. and columns 1024 (t % 4) .. of the activations. -/
theorem hblk_apply_r3 (c : Dev nD) (t : Fin cfg3.N) (p : Fin 2048) (kk : Fin 1024) (r : Fin 8192) (K : Fin 4096)
    (hr : r.val = t.val / 8 * 2048 + p.val) (hK : K.val = t.val % 4 * 1024 + kk.val) :
    (iblk3 V c 0 t : Vec Ideal S2048x1024 .bf16) (ix2 p kk) = harr_r3 V c (ix2 r K) := by
  obtain ⟨ea, eb, -⟩ := idx_facts_r3 t
  show harr_r3 V c (((cfg3.win 0).blk t).view.emb (ix2 p kk)) = harr_r3 V c (ix2 r K)
  refine congrArg (harr_r3 V c) (funext fun a => Fin.ext ?_)
  match a with
  | ⟨0, _⟩ => show win3_0.index t (0 : Fin 2) * 2048 + 1 * p.val = r.val; rw [ea, hr]; omega
  | ⟨1, _⟩ => show win3_0.index t (1 : Fin 2) * 1024 + 1 * kk.val = K.val; rw [eb, hK]; omega

/-- The weights' block at point t holds rows 2048 (t / 4 % 2) .. and columns 1024 (t % 4) .. of the weights. -/
theorem wblk_apply_r3 (c : Dev nD) (t : Fin cfg3.N) (q : Fin 2048) (kk : Fin 1024) (cc : Fin 4096) (K : Fin 4096)
    (hc : cc.val = t.val / 4 % 2 * 2048 + q.val) (hK : K.val = t.val % 4 * 1024 + kk.val) :
    (iblk3 V c 1 t : Vec Ideal S2048x1024 .bf16) (ix2 q kk) = warr_r3 V c (ix2 cc K) := by
  obtain ⟨-, -, ea, eb, -⟩ := idx_facts_r3 t
  show warr_r3 V c (((cfg3.win 1).blk t).view.emb (ix2 q kk)) = warr_r3 V c (ix2 cc K)
  refine congrArg (warr_r3 V c) (funext fun a => Fin.ext ?_)
  match a with
  | ⟨0, _⟩ => show win3_1.index t (0 : Fin 2) * 2048 + 1 * q.val = cc.val; rw [ea, hc]; omega
  | ⟨1, _⟩ => show win3_1.index t (1 : Fin 2) * 1024 + 1 * kk.val = K.val; rw [eb, hK]; omega

/-- The bias block at point t holds entries 2048 (t / 4 % 2) .. of the bias. -/
theorem bblk_apply_r3 (c : Dev nD) (t : Fin cfg3.N) (q : Fin 2048) (cc : Fin 4096)
    (hc : cc.val = t.val / 4 % 2 * 2048 + q.val) :
    (iblk3 V c 2 t : Vec Ideal S2048 .f32) (ix1 q) = barr_r3 V c (ix1 cc) := by
  obtain ⟨-, -, -, -, ea, -⟩ := idx_facts_r3 t
  show barr_r3 V c (((cfg3.win 2).blk t).view.emb (ix1 q)) = barr_r3 V c (ix1 cc)
  refine congrArg (barr_r3 V c) (funext fun a => Fin.ext ?_)
  match a with
  | ⟨0, _⟩ => show win3_2.index t (0 : Fin 1) * 2048 + 1 * q.val = cc.val; rw [ea, hc]; omega

/-- One step of the accumulation at an entry: the accumulator gains slab s = t % 4 of the product's sum. -/
theorem step_apply_r3 (c : Dev nD) (t : Fin cfg3.N) (a : Vec Ideal S2048x2048 .f32) (p q : Fin 2048) (r : Fin 8192)
    (cc : Fin 4096) (s : Fin 4) (hr : r.val = t.val / 8 * 2048 + p.val) (hc : cc.val = t.val / 4 % 2 * 2048 + q.val)
    (hs : s.val = t.val % 4) :
    k3_pay2 (F := Ideal) a (iblk3 V c 0 t) (iblk3 V c 1 t) (ix2 p q)
      = a (ix2 p q) + ∑ kk : Fin 1024, harr_r3 V c (ix2 r (SumSplit.col s kk)) * warr_r3 V c (ix2 cc (SumSplit.col s kk)) := by
  refine (k3_pay2_apply a (iblk3 V c 0 t) (iblk3 V c 1 t) p q).trans ?_
  refine congrArg (a (ix2 p q) + ·) (Finset.sum_congr rfl fun kk _ => ?_)
  exact congrArg₂ (· * ·)
    (hblk_apply_r3 V c t p kk r (SumSplit.col s kk) hr (by rw [SumSplit.col_val, hs]))
    (wblk_apply_r3 V c t q kk cc (SumSplit.col s kk) hc (by rw [SumSplit.col_val, hs]))

/-- At a point that ends a run of four steps the accumulator's entry is the whole sum over the 4096 contracted columns. -/
theorem acc_apply_r3 (c : Dev nD) (t : Fin cfg3.N) (hlast : t.val % 4 = 3) (p q : Fin 2048) (r : Fin 8192) (cc : Fin 4096)
    (hr : r.val = t.val / 8 * 2048 + p.val) (hc : cc.val = t.val / 4 % 2 * 2048 + q.val) :
    acc3 (F := Ideal) V c t.val t.isLt (ix2 p q) = ∑ K : Fin 4096, harr_r3 V c (ix2 r K) * warr_r3 V c (ix2 cc K) := by
  have hN : t.val < 32 := lt_of_lt_of_eq t.isLt (show cfg3.N = 32 from N_3)
  have lta : t.val - 1 < cfg3.N := Nat.lt_of_le_of_lt (Nat.sub_le _ _) t.isLt
  have ltb : t.val - 1 - 1 < cfg3.N := Nat.lt_of_le_of_lt (Nat.sub_le _ _) lta
  have ltc : t.val - 1 - 1 - 1 < cfg3.N := Nat.lt_of_le_of_lt (Nat.sub_le _ _) ltb
  have sd := (congrFun (acc3_step V c t (by omega)) (ix2 p q)).trans
    (step_apply_r3 V c t (acc3 V c (t.val - 1) lta) p q r cc 3 hr hc hlast.symm)
  have sc := (congrFun (acc3_step V c ⟨t.val - 1, lta⟩ (by show ¬(t.val - 1) % 4 = 0; omega)) (ix2 p q)).trans
    (step_apply_r3 V c ⟨t.val - 1, lta⟩ (acc3 V c (t.val - 1 - 1) ltb) p q r cc 2
      (by show r.val = (t.val - 1) / 8 * 2048 + p.val; omega) (by show cc.val = (t.val - 1) / 4 % 2 * 2048 + q.val; omega)
      (by show 2 = (t.val - 1) % 4; omega))
  have sb := (congrFun (acc3_step V c ⟨t.val - 1 - 1, ltb⟩ (by show ¬(t.val - 1 - 1) % 4 = 0; omega)) (ix2 p q)).trans
    (step_apply_r3 V c ⟨t.val - 1 - 1, ltb⟩ (acc3 V c (t.val - 1 - 1 - 1) ltc) p q r cc 1
      (by show r.val = (t.val - 1 - 1) / 8 * 2048 + p.val; omega) (by show cc.val = (t.val - 1 - 1) / 4 % 2 * 2048 + q.val; omega)
      (by show 1 = (t.val - 1 - 1) % 4; omega))
  have sa := (congrFun (acc3_first V c ⟨t.val - 1 - 1 - 1, ltc⟩ (by show (t.val - 1 - 1 - 1) % 4 = 0; omega)) (ix2 p q)).trans
    (step_apply_r3 V c ⟨t.val - 1 - 1 - 1, ltc⟩ (k3_pay1 (F := Ideal)) p q r cc 0
      (by show r.val = (t.val - 1 - 1 - 1) / 8 * 2048 + p.val; omega) (by show cc.val = (t.val - 1 - 1 - 1) / 4 % 2 * 2048 + q.val; omega)
      (by show 0 = (t.val - 1 - 1 - 1) % 4; omega))
  rw [sd, sc, sb, sa, k3_pay1_apply, zero_add, SumSplit.sum_four_slabs]

/-- What a point that ends a run stores into the output block, at an entry: the layer's entry. -/
theorem flushed_at_r3 (c : Dev nD) (t : Fin cfg3.N) (hlast : t.val % 4 = 3) (p q : Fin 2048) (r : Fin 8192) (cc : Fin 4096)
    (hr : r.val = t.val / 8 * 2048 + p.val) (hc : cc.val = t.val / 4 % 2 * 2048 + q.val) :
    k3_pay3 (F := Ideal) (acc3 V c t.val t.isLt) (iblk3 V c 2 t) (ix2 p q)
      = DeepFM.layer (harr_r3 V c) (warr_r3 V c) (barr_r3 V c) (ix2 r cc) := by
  refine (k3_pay3_apply (acc3 V c t.val t.isLt) (iblk3 V c 2 t) p q).trans ?_
  rw [acc_apply_r3 V c t hlast p q r cc hr hc, bblk_apply_r3 V c t q cc hc, DeepFM.layer_apply]
  rfl

/-- What a point writes back is its block of the layer. -/
theorem flushed_eq_r3 (c : Dev nD) (t : Fin cfg3.N) (hf : (cfg3.win 3).flush t = true) :
    (dat3 (F := Ideal) V c).flushed 3 t
      = ((cfg3.win 3).blk t).view.read (Elt Ideal) (DeepFM.layer (harr_r3 V c) (warr_r3 V c) (barr_r3 V c)) := by
  have hlast : t.val % 4 = 3 := (flush3_3 t).mp hf
  have hN : t.val < 32 := lt_of_lt_of_eq t.isLt (show cfg3.N = 32 from N_3)
  obtain ⟨-, -, -, -, -, ef, eg⟩ := idx_facts_r3 t
  show (cfg3.win 3).cut (grid3.coords t) ((dat3 (F := Ideal) V c).after 3 t) = _
  rw [after3_3]
  funext j
  have hp : (j 0).val < 2048 := (j 0).isLt
  have hq : (j 1).val < 2048 := (j 1).isLt
  have hj : (cfg3.win 3).xinj (grid3.coords t) j = ix2 (⟨(j 0).val, hp⟩ : Fin 2048) (⟨(j 1).val, hq⟩ : Fin 2048) :=
    funext fun a => by match a with | ⟨0, _⟩ => rfl | ⟨1, _⟩ => rfl
  show k3_pay3 (F := Ideal) (acc3 V c t.val t.isLt) (iblk3 V c 2 t) ((cfg3.win 3).xinj (grid3.coords t) j)
    = DeepFM.layer (harr_r3 V c) (warr_r3 V c) (barr_r3 V c) (((cfg3.win 3).blk t).view.emb j)
  refine (congrArg (k3_pay3 (F := Ideal) (acc3 V c t.val t.isLt) (iblk3 V c 2 t)) hj).trans ?_
  refine (flushed_at_r3 V c t hlast ⟨(j 0).val, hp⟩ ⟨(j 1).val, hq⟩ ⟨t.val / 8 * 2048 + (j 0).val, by omega⟩
    ⟨t.val / 4 % 2 * 2048 + (j 1).val, by omega⟩ rfl rfl).trans ?_
  refine congrArg (DeepFM.layer (harr_r3 V c) (warr_r3 V c) (barr_r3 V c)) (funext fun a => Fin.ext ?_)
  match a with
  | ⟨0, _⟩ => show t.val / 8 * 2048 + (j 0).val = win3_3.index t (0 : Fin 2) * 2048 + 1 * (j 0).val; rw [ef]; omega
  | ⟨1, _⟩ => show t.val / 4 % 2 * 2048 + (j 1).val = win3_3.index t (1 : Fin 2) * 2048 + 1 * (j 1).val; rw [eg]; omega

/-- An index of the array is in point t's output block iff each coordinate is in the block's range on its axis. -/
theorem mem_blk_r3 (t : Fin cfg3.N) (i : S8192x4096.Idx) :
    i ∈ ((cfg3.win 3).blk t).view.set ↔ ∀ a : Fin 2, win3_3.index t a * S2048x2048.size a ≤ (i a).val
      ∧ (i a).val < win3_3.index t a * S2048x2048.size a + S2048x2048.size a := by
  show i ∈ ((View.whole (Pipeline.arrRef spec3 3)).slice (win3_3.rect t)).set ↔ _
  rw [View.set_slice_whole, Rect.mem_set_unit]
  exact Iff.rfl

/-- Every index of the array is in the output block of the point that ends the run of its row block and column block. -/
theorem covered_r3 (i : S8192x4096.Idx) :
    ∃ t : Fin cfg3.N, (cfg3.win 3).flush t = true ∧ i ∈ ((cfg3.win 3).blk t).view.set := by
  have hrow : (i 0).val < 8192 := (i 0).isLt
  have hcol : (i 1).val < 4096 := (i 1).isLt
  have hN : cfg3.N = 32 := N_3
  obtain ⟨t, ht⟩ : ∃ t : Fin cfg3.N, t.val = 8 * ((i 0).val / 2048) + 4 * ((i 1).val / 2048) + 3 :=
    ⟨⟨8 * ((i 0).val / 2048) + 4 * ((i 1).val / 2048) + 3, by rw [hN]; omega⟩, rfl⟩
  obtain ⟨-, -, -, -, -, ef, eg⟩ := idx_facts_r3 t
  refine ⟨t, (flush3_3 t).mpr (by omega), ?_⟩
  rw [mem_blk_r3]
  intro a
  match a with
  | ⟨0, _⟩ =>
    show win3_3.index t (0 : Fin 2) * 2048 ≤ (i 0).val ∧ (i 0).val < win3_3.index t (0 : Fin 2) * 2048 + 2048
    rw [ef]; omega
  | ⟨1, _⟩ =>
    show win3_3.index t (1 : Fin 2) * 2048 ≤ (i 1).val ∧ (i 1).val < win3_3.index t (1 : Fin 2) * 2048 + 2048
    rw [eg]; omega

/-- The output array after the launch is the layer of the three input arrays as the launch finds them. -/
theorem final3 (c : Dev nD) : (dat3 (F := Ideal) V c).arrAt 3 cfg3.N = DeepFM.layer (V c (Pipeline.arrRef spec3 0)) (V c (Pipeline.arrRef spec3 1)) (V c (Pipeline.arrRef spec3 2)) :=
  (dat3 (F := Ideal) V c).arrAt_eq_of_cover 3 (DeepFM.layer (harr_r3 V c) (warr_r3 V c) (barr_r3 V c))
    (fun t hf => flushed_eq_r3 V c t hf) covered_r3

end Cert.KernelIdeal.Hand

end
-- ==== Proof.Ideal.Val4.lean ====
/-
  What the second launch leaves in its output array: one layer of the specification.

  The grid point t is (i, j, k) = (t / 8, t / 4 % 2, t % 4). The activations' block at t is rows 2048 i .. and columns
  1024 k .. of h; the weights' block is rows 2048 j .. and columns 1024 k .. of W; the bias block is entries 2048 j ..
  of b; the output block is rows 2048 i .. and columns 2048 j .. . At a point with k = 3 the accumulator at (p, q) is
  zero plus, for k = 0, 1, 2, 3 in turn, the sum over the 1024 columns of slab k of h (2048 i + p, ·) · W (2048 j + q, ·):
  the four slabs split the 4096 contracted columns, so it is the whole sum. The body then adds b (2048 j + q) and keeps
  the positive part, which is the layer's entry (2048 i + p, 2048 j + q). Those points write the output back, and their
  blocks fill the array.
-/
import proofs.«171023_j75617194213445_1_alg».proof.Proof.Ideal.R4
import proofs.«171023_j75617194213445_1_alg».proof.Proof.Ideal.Payloads
import proofs.«171023_j75617194213445_1_alg».proof.Proof.Spec
import Idealize.ShloMosaic.Lib.Pipeline.Value
import Idealize.ShloMosaic.Lib.ValueIdx
import proofs.«171023_j75617194213445_1_alg».proof.Proof.LibSumSplit

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayValue Idealize.ShloMosaic.ValueIdx

variable (V : (c : Dev nD) → (b : Ref sig .tc) → Buf (Elt Ideal) ((c : Thread nD τ).loc b))

/-- The three input arrays as the launch finds them, at their literal types. -/
abbrev harr_r4 (c : Dev nD) : Vec Ideal S8192x4096 .bf16 := V c (Pipeline.arrRef spec4 0)
abbrev warr_r4 (c : Dev nD) : Vec Ideal S4096x4096 .bf16 := V c (Pipeline.arrRef spec4 1)
abbrev barr_r4 (c : Dev nD) : Vec Ideal S4096 .f32 := V c (Pipeline.arrRef spec4 2)

/-- The index maps over the grid: point t is (t / 8, t / 4 % 2, t % 4). -/
theorem idx_facts_r4 : ∀ t : Fin cfg4.N, win4_0.index t (0 : Fin 2) = t.val / 8 ∧ win4_0.index t (1 : Fin 2) = t.val % 4
    ∧ win4_1.index t (0 : Fin 2) = t.val / 4 % 2 ∧ win4_1.index t (1 : Fin 2) = t.val % 4
    ∧ win4_2.index t (0 : Fin 1) = t.val / 4 % 2
    ∧ win4_3.index t (0 : Fin 2) = t.val / 8 ∧ win4_3.index t (1 : Fin 2) = t.val / 4 % 2 :=
  (by decide +kernel : ∀ t : Fin grid4.N, _)

/-- The activations' block at point t holds rows 2048 (t / 8) .. and columns 1024 (t % 4) .. of the activations. -/
theorem hblk_apply_r4 (c : Dev nD) (t : Fin cfg4.N) (p : Fin 2048) (kk : Fin 1024) (r : Fin 8192) (K : Fin 4096)
    (hr : r.val = t.val / 8 * 2048 + p.val) (hK : K.val = t.val % 4 * 1024 + kk.val) :
    (iblk4 V c 0 t : Vec Ideal S2048x1024 .bf16) (ix2 p kk) = harr_r4 V c (ix2 r K) := by
  obtain ⟨ea, eb, -⟩ := idx_facts_r4 t
  show harr_r4 V c (((cfg4.win 0).blk t).view.emb (ix2 p kk)) = harr_r4 V c (ix2 r K)
  refine congrArg (harr_r4 V c) (funext fun a => Fin.ext ?_)
  match a with
  | ⟨0, _⟩ => show win4_0.index t (0 : Fin 2) * 2048 + 1 * p.val = r.val; rw [ea, hr]; omega
  | ⟨1, _⟩ => show win4_0.index t (1 : Fin 2) * 1024 + 1 * kk.val = K.val; rw [eb, hK]; omega

/-- The weights' block at point t holds rows 2048 (t / 4 % 2) .. and columns 1024 (t % 4) .. of the weights. -/
theorem wblk_apply_r4 (c : Dev nD) (t : Fin cfg4.N) (q : Fin 2048) (kk : Fin 1024) (cc : Fin 4096) (K : Fin 4096)
    (hc : cc.val = t.val / 4 % 2 * 2048 + q.val) (hK : K.val = t.val % 4 * 1024 + kk.val) :
    (iblk4 V c 1 t : Vec Ideal S2048x1024 .bf16) (ix2 q kk) = warr_r4 V c (ix2 cc K) := by
  obtain ⟨-, -, ea, eb, -⟩ := idx_facts_r4 t
  show warr_r4 V c (((cfg4.win 1).blk t).view.emb (ix2 q kk)) = warr_r4 V c (ix2 cc K)
  refine congrArg (warr_r4 V c) (funext fun a => Fin.ext ?_)
  match a with
  | ⟨0, _⟩ => show win4_1.index t (0 : Fin 2) * 2048 + 1 * q.val = cc.val; rw [ea, hc]; omega
  | ⟨1, _⟩ => show win4_1.index t (1 : Fin 2) * 1024 + 1 * kk.val = K.val; rw [eb, hK]; omega

/-- The bias block at point t holds entries 2048 (t / 4 % 2) .. of the bias. -/
theorem bblk_apply_r4 (c : Dev nD) (t : Fin cfg4.N) (q : Fin 2048) (cc : Fin 4096)
    (hc : cc.val = t.val / 4 % 2 * 2048 + q.val) :
    (iblk4 V c 2 t : Vec Ideal S2048 .f32) (ix1 q) = barr_r4 V c (ix1 cc) := by
  obtain ⟨-, -, -, -, ea, -⟩ := idx_facts_r4 t
  show barr_r4 V c (((cfg4.win 2).blk t).view.emb (ix1 q)) = barr_r4 V c (ix1 cc)
  refine congrArg (barr_r4 V c) (funext fun a => Fin.ext ?_)
  match a with
  | ⟨0, _⟩ => show win4_2.index t (0 : Fin 1) * 2048 + 1 * q.val = cc.val; rw [ea, hc]; omega

/-- One step of the accumulation at an entry: the accumulator gains slab s = t % 4 of the product's sum. -/
theorem step_apply_r4 (c : Dev nD) (t : Fin cfg4.N) (a : Vec Ideal S2048x2048 .f32) (p q : Fin 2048) (r : Fin 8192)
    (cc : Fin 4096) (s : Fin 4) (hr : r.val = t.val / 8 * 2048 + p.val) (hc : cc.val = t.val / 4 % 2 * 2048 + q.val)
    (hs : s.val = t.val % 4) :
    k4_pay2 (F := Ideal) a (iblk4 V c 0 t) (iblk4 V c 1 t) (ix2 p q)
      = a (ix2 p q) + ∑ kk : Fin 1024, harr_r4 V c (ix2 r (SumSplit.col s kk)) * warr_r4 V c (ix2 cc (SumSplit.col s kk)) := by
  refine (k4_pay2_apply a (iblk4 V c 0 t) (iblk4 V c 1 t) p q).trans ?_
  refine congrArg (a (ix2 p q) + ·) (Finset.sum_congr rfl fun kk _ => ?_)
  exact congrArg₂ (· * ·)
    (hblk_apply_r4 V c t p kk r (SumSplit.col s kk) hr (by rw [SumSplit.col_val, hs]))
    (wblk_apply_r4 V c t q kk cc (SumSplit.col s kk) hc (by rw [SumSplit.col_val, hs]))

/-- At a point that ends a run of four steps the accumulator's entry is the whole sum over the 4096 contracted columns. -/
theorem acc_apply_r4 (c : Dev nD) (t : Fin cfg4.N) (hlast : t.val % 4 = 3) (p q : Fin 2048) (r : Fin 8192) (cc : Fin 4096)
    (hr : r.val = t.val / 8 * 2048 + p.val) (hc : cc.val = t.val / 4 % 2 * 2048 + q.val) :
    acc4 (F := Ideal) V c t.val t.isLt (ix2 p q) = ∑ K : Fin 4096, harr_r4 V c (ix2 r K) * warr_r4 V c (ix2 cc K) := by
  have hN : t.val < 32 := lt_of_lt_of_eq t.isLt (show cfg4.N = 32 from N_4)
  have lta : t.val - 1 < cfg4.N := Nat.lt_of_le_of_lt (Nat.sub_le _ _) t.isLt
  have ltb : t.val - 1 - 1 < cfg4.N := Nat.lt_of_le_of_lt (Nat.sub_le _ _) lta
  have ltc : t.val - 1 - 1 - 1 < cfg4.N := Nat.lt_of_le_of_lt (Nat.sub_le _ _) ltb
  have sd := (congrFun (acc4_step V c t (by omega)) (ix2 p q)).trans
    (step_apply_r4 V c t (acc4 V c (t.val - 1) lta) p q r cc 3 hr hc hlast.symm)
  have sc := (congrFun (acc4_step V c ⟨t.val - 1, lta⟩ (by show ¬(t.val - 1) % 4 = 0; omega)) (ix2 p q)).trans
    (step_apply_r4 V c ⟨t.val - 1, lta⟩ (acc4 V c (t.val - 1 - 1) ltb) p q r cc 2
      (by show r.val = (t.val - 1) / 8 * 2048 + p.val; omega) (by show cc.val = (t.val - 1) / 4 % 2 * 2048 + q.val; omega)
      (by show 2 = (t.val - 1) % 4; omega))
  have sb := (congrFun (acc4_step V c ⟨t.val - 1 - 1, ltb⟩ (by show ¬(t.val - 1 - 1) % 4 = 0; omega)) (ix2 p q)).trans
    (step_apply_r4 V c ⟨t.val - 1 - 1, ltb⟩ (acc4 V c (t.val - 1 - 1 - 1) ltc) p q r cc 1
      (by show r.val = (t.val - 1 - 1) / 8 * 2048 + p.val; omega) (by show cc.val = (t.val - 1 - 1) / 4 % 2 * 2048 + q.val; omega)
      (by show 1 = (t.val - 1 - 1) % 4; omega))
  have sa := (congrFun (acc4_first V c ⟨t.val - 1 - 1 - 1, ltc⟩ (by show (t.val - 1 - 1 - 1) % 4 = 0; omega)) (ix2 p q)).trans
    (step_apply_r4 V c ⟨t.val - 1 - 1 - 1, ltc⟩ (k4_pay1 (F := Ideal)) p q r cc 0
      (by show r.val = (t.val - 1 - 1 - 1) / 8 * 2048 + p.val; omega) (by show cc.val = (t.val - 1 - 1 - 1) / 4 % 2 * 2048 + q.val; omega)
      (by show 0 = (t.val - 1 - 1 - 1) % 4; omega))
  rw [sd, sc, sb, sa, k4_pay1_apply, zero_add, SumSplit.sum_four_slabs]

/-- What a point that ends a run stores into the output block, at an entry: the layer's entry. -/
theorem flushed_at_r4 (c : Dev nD) (t : Fin cfg4.N) (hlast : t.val % 4 = 3) (p q : Fin 2048) (r : Fin 8192) (cc : Fin 4096)
    (hr : r.val = t.val / 8 * 2048 + p.val) (hc : cc.val = t.val / 4 % 2 * 2048 + q.val) :
    k4_pay3 (F := Ideal) (acc4 V c t.val t.isLt) (iblk4 V c 2 t) (ix2 p q)
      = DeepFM.layer (harr_r4 V c) (warr_r4 V c) (barr_r4 V c) (ix2 r cc) := by
  refine (k4_pay3_apply (acc4 V c t.val t.isLt) (iblk4 V c 2 t) p q).trans ?_
  rw [acc_apply_r4 V c t hlast p q r cc hr hc, bblk_apply_r4 V c t q cc hc, DeepFM.layer_apply]
  rfl

/-- What a point writes back is its block of the layer. -/
theorem flushed_eq_r4 (c : Dev nD) (t : Fin cfg4.N) (hf : (cfg4.win 3).flush t = true) :
    (dat4 (F := Ideal) V c).flushed 3 t
      = ((cfg4.win 3).blk t).view.read (Elt Ideal) (DeepFM.layer (harr_r4 V c) (warr_r4 V c) (barr_r4 V c)) := by
  have hlast : t.val % 4 = 3 := (flush4_3 t).mp hf
  have hN : t.val < 32 := lt_of_lt_of_eq t.isLt (show cfg4.N = 32 from N_4)
  obtain ⟨-, -, -, -, -, ef, eg⟩ := idx_facts_r4 t
  show (cfg4.win 3).cut (grid4.coords t) ((dat4 (F := Ideal) V c).after 3 t) = _
  rw [after4_3]
  funext j
  have hp : (j 0).val < 2048 := (j 0).isLt
  have hq : (j 1).val < 2048 := (j 1).isLt
  have hj : (cfg4.win 3).xinj (grid4.coords t) j = ix2 (⟨(j 0).val, hp⟩ : Fin 2048) (⟨(j 1).val, hq⟩ : Fin 2048) :=
    funext fun a => by match a with | ⟨0, _⟩ => rfl | ⟨1, _⟩ => rfl
  show k4_pay3 (F := Ideal) (acc4 V c t.val t.isLt) (iblk4 V c 2 t) ((cfg4.win 3).xinj (grid4.coords t) j)
    = DeepFM.layer (harr_r4 V c) (warr_r4 V c) (barr_r4 V c) (((cfg4.win 3).blk t).view.emb j)
  refine (congrArg (k4_pay3 (F := Ideal) (acc4 V c t.val t.isLt) (iblk4 V c 2 t)) hj).trans ?_
  refine (flushed_at_r4 V c t hlast ⟨(j 0).val, hp⟩ ⟨(j 1).val, hq⟩ ⟨t.val / 8 * 2048 + (j 0).val, by omega⟩
    ⟨t.val / 4 % 2 * 2048 + (j 1).val, by omega⟩ rfl rfl).trans ?_
  refine congrArg (DeepFM.layer (harr_r4 V c) (warr_r4 V c) (barr_r4 V c)) (funext fun a => Fin.ext ?_)
  match a with
  | ⟨0, _⟩ => show t.val / 8 * 2048 + (j 0).val = win4_3.index t (0 : Fin 2) * 2048 + 1 * (j 0).val; rw [ef]; omega
  | ⟨1, _⟩ => show t.val / 4 % 2 * 2048 + (j 1).val = win4_3.index t (1 : Fin 2) * 2048 + 1 * (j 1).val; rw [eg]; omega

/-- An index of the array is in point t's output block iff each coordinate is in the block's range on its axis. -/
theorem mem_blk_r4 (t : Fin cfg4.N) (i : S8192x4096.Idx) :
    i ∈ ((cfg4.win 3).blk t).view.set ↔ ∀ a : Fin 2, win4_3.index t a * S2048x2048.size a ≤ (i a).val
      ∧ (i a).val < win4_3.index t a * S2048x2048.size a + S2048x2048.size a := by
  show i ∈ ((View.whole (Pipeline.arrRef spec4 3)).slice (win4_3.rect t)).set ↔ _
  rw [View.set_slice_whole, Rect.mem_set_unit]
  exact Iff.rfl

/-- Every index of the array is in the output block of the point that ends the run of its row block and column block. -/
theorem covered_r4 (i : S8192x4096.Idx) :
    ∃ t : Fin cfg4.N, (cfg4.win 3).flush t = true ∧ i ∈ ((cfg4.win 3).blk t).view.set := by
  have hrow : (i 0).val < 8192 := (i 0).isLt
  have hcol : (i 1).val < 4096 := (i 1).isLt
  have hN : cfg4.N = 32 := N_4
  obtain ⟨t, ht⟩ : ∃ t : Fin cfg4.N, t.val = 8 * ((i 0).val / 2048) + 4 * ((i 1).val / 2048) + 3 :=
    ⟨⟨8 * ((i 0).val / 2048) + 4 * ((i 1).val / 2048) + 3, by rw [hN]; omega⟩, rfl⟩
  obtain ⟨-, -, -, -, -, ef, eg⟩ := idx_facts_r4 t
  refine ⟨t, (flush4_3 t).mpr (by omega), ?_⟩
  rw [mem_blk_r4]
  intro a
  match a with
  | ⟨0, _⟩ =>
    show win4_3.index t (0 : Fin 2) * 2048 ≤ (i 0).val ∧ (i 0).val < win4_3.index t (0 : Fin 2) * 2048 + 2048
    rw [ef]; omega
  | ⟨1, _⟩ =>
    show win4_3.index t (1 : Fin 2) * 2048 ≤ (i 1).val ∧ (i 1).val < win4_3.index t (1 : Fin 2) * 2048 + 2048
    rw [eg]; omega

/-- The output array after the launch is the layer of the three input arrays as the launch finds them. -/
theorem final4 (c : Dev nD) : (dat4 (F := Ideal) V c).arrAt 3 cfg4.N = DeepFM.layer (V c (Pipeline.arrRef spec4 0)) (V c (Pipeline.arrRef spec4 1)) (V c (Pipeline.arrRef spec4 2)) :=
  (dat4 (F := Ideal) V c).arrAt_eq_of_cover 3 (DeepFM.layer (harr_r4 V c) (warr_r4 V c) (barr_r4 V c))
    (fun t hf => flushed_eq_r4 V c t hf) covered_r4

end Cert.KernelIdeal.Hand

end
-- ==== Proof.Ideal.Val5.lean ====
/-
  What the last launch leaves in its output array, as one function of the arrays it reads.

  The grid has 64 points, point t being (t / 8, t / 4 % 2, t % 4): row block i = t / 8 of 1024 rows, column block
  j = t / 4 % 2 of 2048 columns, step k = t % 4 of the contracted axis, 1024 coordinates a step. The output block (i, j) is
  written back at the step-3 points only. There the accumulator holds zero plus the four slabs of the points
  t - 3, t - 2, t - 1, t, which share i and j and are at steps 0, 1, 2, 3: slab k at (p, q) is the sum over kk < 1024 of
  ((h (1024 i + p, 1024 k + kk) + t (1024 i + p, 1024 k + kk)) · ½) · W (2048 j + q, 1024 k + kk). A sum over 4096
  coordinates is the sum of its four slabs, so the accumulator at (p, q) is the whole product at (1024 i + p, 2048 j + q);
  the stored value adds the bias at 2048 j + q. Index (r, cc) lies in the block of point (r / 1024, cc / 2048, 3), so the
  blocks of the step-3 points cover the array, and the output array ends holding the output product.
-/
import proofs.«171023_j75617194213445_1_alg».proof.Proof.Ideal.R5
import proofs.«171023_j75617194213445_1_alg».proof.Proof.Ideal.Payloads
import proofs.«171023_j75617194213445_1_alg».proof.Proof.LibSumSplit
import proofs.«171023_j75617194213445_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayValue Idealize.ShloMosaic.ValueIdx

variable (V : (c : Dev nD) → (b : Ref sig .tc) → Buf (Elt Ideal) ((c : Thread nD τ).loc b))

/-! ## The product's terms, a point's slab of them, and the body's values over four points -/

/-- The term of the output product at row `r`, column `cc` and contracted coordinate `K`:
    ((h (r, K) + t (r, K)) · ½) · W (cc, K). -/
def term5 (H T : DeepFM.SX.Idx → EReal) (W : DeepFM.SW.Idx → EReal) (r : Fin 8192) (cc K : Fin 4096) : EReal :=
  ((H (ix2 r K) + T (ix2 r K)) * DeepFM.half) * W (ix2 cc K)

/-- One point's slab of the product at (p, q) of its blocks: the sum over the slab's 1024 coordinates. -/
def slab5 (h : Vec Ideal S1024x1024 .bf16) (u : Vec Ideal S1024x1024 .f32) (w : Vec Ideal S2048x1024 .bf16)
    (p : Fin 1024) (q : Fin 2048) : EReal :=
  ∑ kk : Fin 1024, ((h (ix2 p kk) + u (ix2 p kk)) * DeepFM.half) * w (ix2 q kk)

/-- What a step-3 point stores, at (p, q), after the four points of its row and column block: zero plus the four
    slabs in the grid's order, plus the bias at column q. -/
theorem pay_four5 (h0 h1 h2 h3 : Vec Ideal S1024x1024 .bf16) (u0 u1 u2 u3 : Vec Ideal S1024x1024 .f32)
    (w0 w1 w2 w3 : Vec Ideal S2048x1024 .bf16) (b : Vec Ideal S2048 .f32) (p : Fin 1024) (q : Fin 2048) :
    k5_pay3 (k5_pay2 h3 u3 (k5_pay2 h2 u2 (k5_pay2 h1 u1 (k5_pay2 h0 u0 (k5_pay1 (F := Ideal)) w0) w1) w2) w3) b (ix2 p q)
      = ((((0 + slab5 h0 u0 w0 p q) + slab5 h1 u1 w1 p q) + slab5 h2 u2 w2 p q) + slab5 h3 u3 w3 p q) + b (ix1 q) := by
  rw [k5_pay3_apply, k5_pay2_apply, k5_pay2_apply, k5_pay2_apply, k5_pay2_apply, k5_pay1_apply]
  rfl

/-- A slab whose blocks are, row p of the first two, row `r` of the arrays at the columns of slab `m`, and row q of the third,
    row `cc` of the weights at those columns: the product's terms over slab `m`. -/
theorem slab5_of (h : Vec Ideal S1024x1024 .bf16) (u : Vec Ideal S1024x1024 .f32) (w : Vec Ideal S2048x1024 .bf16)
    (H T : DeepFM.SX.Idx → EReal) (W : DeepFM.SW.Idx → EReal) (m : Fin 4) (p : Fin 1024) (q : Fin 2048)
    (r : Fin 8192) (cc : Fin 4096)
    (hh : ∀ kk : Fin 1024, h (ix2 p kk) = H (ix2 r (SumSplit.col m kk)))
    (hu : ∀ kk : Fin 1024, u (ix2 p kk) = T (ix2 r (SumSplit.col m kk)))
    (hw : ∀ kk : Fin 1024, w (ix2 q kk) = W (ix2 cc (SumSplit.col m kk))) :
    slab5 h u w p q = ∑ kk : Fin 1024, term5 H T W r cc (SumSplit.col m kk) := by
  unfold slab5 term5
  exact Finset.sum_congr rfl fun kk _ => by rw [hh kk, hu kk, hw kk]

/-! ## The index maps over the grid, and each window's block in its array -/

/-- Point t is (t / 8, t / 4 % 2, t % 4): the two left operands sit at block (t / 8, t % 4), the weights at
    (t / 4 % 2, t % 4), the bias at t / 4 % 2, the output at (t / 8, t / 4 % 2). -/
theorem idx_facts5 : ∀ t : Fin cfg5.N,
    win5_0.index t (0 : Fin 2) = t.val / 8 ∧ win5_0.index t (1 : Fin 2) = t.val % 4
    ∧ win5_1.index t (0 : Fin 2) = t.val / 8 ∧ win5_1.index t (1 : Fin 2) = t.val % 4
    ∧ win5_2.index t (0 : Fin 2) = t.val / 4 % 2 ∧ win5_2.index t (1 : Fin 2) = t.val % 4
    ∧ win5_3.index t (0 : Fin 1) = t.val / 4 % 2
    ∧ win5_4.index t (0 : Fin 2) = t.val / 8 ∧ win5_4.index t (1 : Fin 2) = t.val / 4 % 2 :=
  (by decide +kernel : ∀ t : Fin grid5.N, _)

theorem emb5_0 (s : Fin cfg5.N) (p x : Fin 1024) (r : Fin 8192) (K : Fin 4096)
    (hr : r.val = s.val / 8 * 1024 + p.val) (hK : K.val = s.val % 4 * 1024 + x.val) :
    ((cfg5.win 0).blk s).view.emb (ix2 p x) = ix2 r K := by
  obtain ⟨e0, e1, -⟩ := idx_facts5 s
  funext a; apply Fin.ext
  match a with
  | ⟨0, _⟩ => show win5_0.index s (0 : Fin 2) * 1024 + 1 * p.val = r.val; omega
  | ⟨1, _⟩ => show win5_0.index s (1 : Fin 2) * 1024 + 1 * x.val = K.val; omega

theorem emb5_1 (s : Fin cfg5.N) (p x : Fin 1024) (r : Fin 8192) (K : Fin 4096)
    (hr : r.val = s.val / 8 * 1024 + p.val) (hK : K.val = s.val % 4 * 1024 + x.val) :
    ((cfg5.win 1).blk s).view.emb (ix2 p x) = ix2 r K := by
  obtain ⟨-, -, e0, e1, -⟩ := idx_facts5 s
  funext a; apply Fin.ext
  match a with
  | ⟨0, _⟩ => show win5_1.index s (0 : Fin 2) * 1024 + 1 * p.val = r.val; omega
  | ⟨1, _⟩ => show win5_1.index s (1 : Fin 2) * 1024 + 1 * x.val = K.val; omega

theorem emb5_2 (s : Fin cfg5.N) (q : Fin 2048) (x : Fin 1024) (cc K : Fin 4096)
    (hc : cc.val = s.val / 4 % 2 * 2048 + q.val) (hK : K.val = s.val % 4 * 1024 + x.val) :
    ((cfg5.win 2).blk s).view.emb (ix2 q x) = ix2 cc K := by
  obtain ⟨-, -, -, -, e0, e1, -⟩ := idx_facts5 s
  funext a; apply Fin.ext
  match a with
  | ⟨0, _⟩ => show win5_2.index s (0 : Fin 2) * 2048 + 1 * q.val = cc.val; omega
  | ⟨1, _⟩ => show win5_2.index s (1 : Fin 2) * 1024 + 1 * x.val = K.val; omega

theorem emb5_3 (s : Fin cfg5.N) (q : Fin 2048) (cc : Fin 4096) (hc : cc.val = s.val / 4 % 2 * 2048 + q.val) :
    ((cfg5.win 3).blk s).view.emb (ix1 q) = ix1 cc := by
  obtain ⟨-, -, -, -, -, -, e0, -⟩ := idx_facts5 s
  funext a; apply Fin.ext
  match a with
  | ⟨0, _⟩ => show win5_3.index s (0 : Fin 1) * 2048 + 1 * q.val = cc.val; omega

theorem emb5_4 (s : Fin cfg5.N) (p : Fin 1024) (q : Fin 2048) (r : Fin 8192) (cc : Fin 4096)
    (hr : r.val = s.val / 8 * 1024 + p.val) (hc : cc.val = s.val / 4 % 2 * 2048 + q.val) :
    ((cfg5.win 4).blk s).view.emb (ix2 p q) = ix2 r cc := by
  obtain ⟨-, -, -, -, -, -, -, e0, e1⟩ := idx_facts5 s
  funext a; apply Fin.ext
  match a with
  | ⟨0, _⟩ => show win5_4.index s (0 : Fin 2) * 1024 + 1 * p.val = r.val; omega
  | ⟨1, _⟩ => show win5_4.index s (1 : Fin 2) * 2048 + 1 * q.val = cc.val; omega

/-- The slab of point `s`, at step `m` of the contracted axis, is the product's terms over slab `m` of the arrays as the
    launch finds them. -/
theorem slab5_eq (c : Dev nD) (s : Fin cfg5.N) (m : Fin 4) (hm : s.val % 4 = m.val) (p : Fin 1024) (q : Fin 2048)
    (r : Fin 8192) (cc : Fin 4096) (hr : r.val = s.val / 8 * 1024 + p.val) (hc : cc.val = s.val / 4 % 2 * 2048 + q.val) :
    slab5 (iblk5 V c 0 s) (iblk5 V c 1 s) (iblk5 V c 2 s) p q
      = ∑ kk : Fin 1024, term5 (V c (Pipeline.arrRef spec5 0)) (V c (Pipeline.arrRef spec5 1)) (V c (Pipeline.arrRef spec5 2))
          r cc (SumSplit.col m kk) := by
  have hK : ∀ kk : Fin 1024, (SumSplit.col m kk).val = s.val % 4 * 1024 + kk.val := fun kk => by
    rw [SumSplit.col_val, hm]
  exact slab5_of _ _ _ _ _ _ m p q r cc
    (fun kk => congrArg (V c (Pipeline.arrRef spec5 0)) (emb5_0 s p kk r _ hr (hK kk)))
    (fun kk => congrArg (V c (Pipeline.arrRef spec5 1)) (emb5_1 s p kk r _ hr (hK kk)))
    (fun kk => congrArg (V c (Pipeline.arrRef spec5 2)) (emb5_2 s q kk cc _ hc (hK kk)))

/-! ## The accumulator at a step-3 point -/

theorem acc5_pred_r5 (c : Dev nD) (t s : Fin cfg5.N) (hs : s.val = t.val - 1) (h : t.val - 1 < cfg5.N) :
    acc5 V c (t.val - 1) h = acc5 V c s.val s.isLt := by
  obtain ⟨sv, hsv⟩ := s
  have hs' : sv = t.val - 1 := hs
  subst hs'
  rfl

/-- At a step-3 point the accumulator holds the four points' products added to zero, in the grid's order. -/
theorem acc5_flush_r5 (c : Dev nD) (t t1 t2 t3 : Fin cfg5.N) (h1 : t1.val = t.val - 1) (h2 : t2.val = t1.val - 1)
    (h3 : t3.val = t2.val - 1) (hm : t.val % 4 = 3) :
    acc5 V c t.val t.isLt
      = k5_pay2 (iblk5 V c 0 t) (iblk5 V c 1 t)
          (k5_pay2 (iblk5 V c 0 t1) (iblk5 V c 1 t1)
            (k5_pay2 (iblk5 V c 0 t2) (iblk5 V c 1 t2)
              (k5_pay2 (iblk5 V c 0 t3) (iblk5 V c 1 t3) (k5_pay1 (F := Ideal)) (iblk5 V c 2 t3))
              (iblk5 V c 2 t2))
            (iblk5 V c 2 t1))
          (iblk5 V c 2 t) := by
  rw [acc5_step V c t (by omega), acc5_pred_r5 V c t t1 h1, acc5_step V c t1 (by omega), acc5_pred_r5 V c t1 t2 h2,
    acc5_step V c t2 (by omega), acc5_pred_r5 V c t2 t3 h3, acc5_first V c t3 (by omega)]

/-! ## What a step-3 point writes back, the cover, the array -/

/-- What a step-3 point writes back is its block of the output product of the arrays as the launch finds them. -/
theorem flushed5_4_eq (c : Dev nD) (t : Fin cfg5.N) (hf : (cfg5.win 4).flush t = true) :
    (dat5 (F := Ideal) V c).flushed 4 t
      = ((cfg5.win 4).blk t).view.read (Elt Ideal)
          (DeepFM.out (V c (Pipeline.arrRef spec5 0)) (V c (Pipeline.arrRef spec5 1)) (V c (Pipeline.arrRef spec5 2))
            (V c (Pipeline.arrRef spec5 3))) := by
  have hm : t.val % 4 = 3 := (flush5_4 t).mp hf
  have hN : cfg5.N = 64 := N_5
  have ht : t.val < 64 := lt_of_lt_of_eq t.isLt hN
  obtain ⟨t1, h1⟩ : ∃ s : Fin cfg5.N, s.val = t.val - 1 := ⟨⟨t.val - 1, by omega⟩, rfl⟩
  obtain ⟨t2, h2⟩ : ∃ s : Fin cfg5.N, s.val = t.val - 2 := ⟨⟨t.val - 2, by omega⟩, rfl⟩
  obtain ⟨t3, h3⟩ : ∃ s : Fin cfg5.N, s.val = t.val - 3 := ⟨⟨t.val - 3, by omega⟩, rfl⟩
  show (cfg5.win 4).cut (grid5.coords t) ((dat5 V c).after 4 t) = _
  rw [after5_4, acc5_flush_r5 V c t t1 t2 t3 h1 (by omega) (by omega) hm]
  funext j
  obtain ⟨p, q, rfl⟩ : ∃ (p : Fin 1024) (q : Fin 2048), j = ix2 p q := ⟨j 0, j 1, eq_ix2 j⟩
  obtain ⟨r, hr⟩ : ∃ r : Fin 8192, r.val = t.val / 8 * 1024 + p.val := ⟨⟨_, by have := p.isLt; omega⟩, rfl⟩
  obtain ⟨cc, hc⟩ : ∃ cc : Fin 4096, cc.val = t.val / 4 % 2 * 2048 + q.val := ⟨⟨_, by have := q.isLt; omega⟩, rfl⟩
  show k5_pay3 (F := Ideal) _ _ (ix2 p q) = DeepFM.out _ _ _ _ (((cfg5.win 4).blk t).view.emb (ix2 p q))
  rw [emb5_4 t p q r cc hr hc]
  refine (pay_four5 _ _ _ _ _ _ _ _ _ _ _ _ _ p q).trans ?_
  rw [slab5_eq V c t3 0 (by show t3.val % 4 = 0; omega) p q r cc (by omega) (by omega),
    slab5_eq V c t2 1 (by show t2.val % 4 = 1; omega) p q r cc (by omega) (by omega),
    slab5_eq V c t1 2 (by show t1.val % 4 = 2; omega) p q r cc (by omega) (by omega),
    slab5_eq V c t 3 (by show t.val % 4 = 3; omega) p q r cc hr hc, zero_add]
  rw [DeepFM.out_apply]
  unfold DeepFM.outC
  refine congrArg₂ (· + ·) (SumSplit.sum_four_slabs
    (term5 (V c (Pipeline.arrRef spec5 0)) (V c (Pipeline.arrRef spec5 1)) (V c (Pipeline.arrRef spec5 2)) r cc)).symm ?_
  exact congrArg (V c (Pipeline.arrRef spec5 3)) (emb5_3 t q cc hc)

/-- An index of the array is in point `t`'s block iff each coordinate is in the block's range on its axis. -/
theorem mem_blk5_4 (t : Fin cfg5.N) (i : S8192x4096.Idx) :
    i ∈ ((cfg5.win 4).blk t).view.set
      ↔ ∀ a : Fin 2, win5_4.index t a * S1024x2048.size a ≤ (i a).val
          ∧ (i a).val < win5_4.index t a * S1024x2048.size a + S1024x2048.size a := by
  show i ∈ ((View.whole main_v24).slice (win5_4.rect t)).set ↔ _
  rw [View.set_slice_whole, Rect.mem_set_unit]
  exact Iff.rfl

/-- Every index is in the block of a step-3 point: (r, cc) in that of point (r / 1024, cc / 2048, 3). -/
theorem covered5 (i : S8192x4096.Idx) :
    ∃ t : Fin cfg5.N, (cfg5.win 4).flush t = true ∧ i ∈ ((cfg5.win 4).blk t).view.set := by
  have hi0 : (i 0).val < 8192 := (i 0).isLt
  have hi1 : (i 1).val < 4096 := (i 1).isLt
  obtain ⟨t, ht⟩ : ∃ t : Fin cfg5.N, t.val = (i 0).val / 1024 * 8 + (i 1).val / 2048 * 4 + 3 :=
    ⟨⟨_, by rw [show cfg5.N = 64 from N_5]; omega⟩, rfl⟩
  obtain ⟨-, -, -, -, -, -, -, e0, e1⟩ := idx_facts5 t
  refine ⟨t, (flush5_4 t).mpr (by omega), ?_⟩
  rw [mem_blk5_4]
  intro a
  match a with
  | ⟨0, _⟩ =>
    show win5_4.index t (0 : Fin 2) * 1024 ≤ (i 0).val ∧ (i 0).val < win5_4.index t (0 : Fin 2) * 1024 + 1024
    omega
  | ⟨1, _⟩ =>
    show win5_4.index t (1 : Fin 2) * 2048 ≤ (i 1).val ∧ (i 1).val < win5_4.index t (1 : Fin 2) * 2048 + 2048
    omega

/-- The output array after the last launch: the output product of the arrays as the launch finds them. -/
theorem final5 (c : Dev nD) :
    (dat5 (F := Ideal) V c).arrAt 4 cfg5.N
      = DeepFM.out (V c (Pipeline.arrRef spec5 0)) (V c (Pipeline.arrRef spec5 1)) (V c (Pipeline.arrRef spec5 2))
          (V c (Pipeline.arrRef spec5 3)) :=
  (dat5 V c).arrAt_eq_of_cover 4 _ (fun t hf => flushed5_4_eq V c t hf) covered5

end Cert.KernelIdeal.Hand

end
-- ==== Proof.Ideal.HostReads.lean ====
/-
  What the kernel program's four stretches of host operations compute, read as whole-array functions over the
  extended reals, from any buffer contents they start from.

  Over the extended reals a change of float format is the identity, so the three narrowed copies of the arguments
  are the arguments. Slice l of the stacked weights, taken as the sub-array of leading coordinate l and then
  reshaped so that the leading axis of size one is dropped, is entry by entry the stack at (l, a, b): the reshape
  keeps row-major positions, and (0 · 4096 + a) · 4096 + b = a · 4096 + b. The stacked biases likewise, one axis
  fewer.
-/
import proofs.«171023_j75617194213445_1_alg».proof.Proof.Gen.KernelIdeal.Launch
import proofs.«171023_j75617194213445_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostReads

open Cert.KernelIdeal Cert.KernelIdeal.Gen Idealize.ShloMosaic Idealize.ShloMosaic.TcCoe Idealize.ShloMosaic.ValueIdx

/-! ## A slice of a stack, its unit axis dropped -/

/-- The sub-array of the stacked weights at leading coordinate `l`, reshaped to drop the unit axis, is slice `l`. -/
theorem wsl_read (o : Nat) (l : Fin 4) (ho : l.val = o) (W : DeepFM.SW4.Idx → EReal)
    (hs : DeepFM.SW4.Slices ![o, 0, 0] S1x4096x4096) (hc : S1x4096x4096.ShapeCasts DeepFM.SW) :
    shapeCast DeepFM.SW (extractStridedSlice S1x4096x4096 ![o, 0, 0] W hs) hc = DeepFM.wsl W l := by
  funext i
  obtain ⟨a, b, rfl⟩ : ∃ a b, i = ix2 a b := ⟨i 0, i 1, eq_ix2 i⟩
  rw [shapeCast_apply _ hc (ix2 a b) (ix3 (0 : Fin 1) a b)
    (by rw [Shape.rowMajor_val_three, Shape.rowMajor_val_two]
        show (0 * 4096 + a.val) * 4096 + b.val = a.val * 4096 + b.val
        omega)]
  rw [extractStridedSlice_apply ![o, 0, 0] W hs (ix3 (0 : Fin 1) a b) (ix3 l a b) (fun d => match d with
    | ⟨0, _⟩ => by show l.val = o + 0; omega
    | ⟨1, _⟩ => by show a.val = 0 + a.val; omega
    | ⟨2, _⟩ => by show b.val = 0 + b.val; omega)]
  rfl

/-- The row of the stacked biases at leading coordinate `l`, reshaped to drop the unit axis, is slice `l`. -/
theorem bsl_read (o : Nat) (l : Fin 4) (ho : l.val = o) (B : DeepFM.SB4.Idx → EReal)
    (hs : DeepFM.SB4.Slices ![o, 0] S1x4096) (hc : S1x4096.ShapeCasts DeepFM.SB) :
    shapeCast DeepFM.SB (extractStridedSlice S1x4096 ![o, 0] B hs) hc = DeepFM.bsl B l := by
  funext i
  obtain ⟨a, rfl⟩ : ∃ a, i = ix1 a := ⟨i 0, eq_ix1 i⟩
  rw [shapeCast_apply _ hc (ix1 a) (ix2 (0 : Fin 1) a)
    (by rw [Shape.rowMajor_val_two, Shape.rowMajor_val_one]
        show 0 * 4096 + a.val = a.val
        omega)]
  rw [extractStridedSlice_apply ![o, 0] B hs (ix2 (0 : Fin 1) a) (ix2 l a) (fun d => match d with
    | ⟨0, _⟩ => by show l.val = o + 0; omega
    | ⟨1, _⟩ => by show a.val = 0 + a.val; omega)]
  rfl

variable (U : Valuation τ sig (Elt Ideal))

/-! ## The first stretch: the narrowed arguments, slice 0 -/

theorem h1_v1 : StableHlo.after hostOps1 U (Proc.devRef .tc main_v1) = U (Proc.devRef .tc main_arg1) := by
  after_results
  rfl

theorem h1_v2 : StableHlo.after hostOps1 U (Proc.devRef .tc main_v2) = U (Proc.devRef .tc main_arg3) := by
  after_results
  rfl

theorem h1_v3 : StableHlo.after hostOps1 U (Proc.devRef .tc main_v3) = U (Proc.devRef .tc main_arg0) := by
  after_results
  rfl

theorem h1_v5 : StableHlo.after hostOps1 U (Proc.devRef .tc main_v5) = DeepFM.wsl (U (Proc.devRef .tc main_arg1)) 0 := by
  after_results
  exact wsl_read 0 0 rfl (U (Proc.devRef .tc main_arg1)) slices_S4x4096x4096_S1x4096x4096_0_0_0 shapeCasts_S1x4096x4096_S4096x4096

theorem h1_v7 : StableHlo.after hostOps1 U (Proc.devRef .tc main_v7) = DeepFM.bsl (U (Proc.devRef .tc main_arg2)) 0 := by
  after_results
  exact bsl_read 0 0 rfl (U (Proc.devRef .tc main_arg2)) slices_S4x4096_S1x4096_0_0 shapeCasts_S1x4096_S4096

/-! ## Stretch 2: slice 1 -/

theorem h2_v10 : StableHlo.after hostOps2 U (Proc.devRef .tc main_v10) = DeepFM.wsl (U (Proc.devRef .tc main_v1)) 1 := by
  after_results
  exact wsl_read 1 1 rfl (U (Proc.devRef .tc main_v1)) slices_S4x4096x4096_S1x4096x4096_1_0_0 shapeCasts_S1x4096x4096_S4096x4096

theorem h2_v12 : StableHlo.after hostOps2 U (Proc.devRef .tc main_v12) = DeepFM.bsl (U (Proc.devRef .tc main_arg2)) 1 := by
  after_results
  exact bsl_read 1 1 rfl (U (Proc.devRef .tc main_arg2)) slices_S4x4096_S1x4096_1_0 shapeCasts_S1x4096_S4096

/-! ## Stretch 3: slice 2 -/

theorem h3_v15 : StableHlo.after hostOps3 U (Proc.devRef .tc main_v15) = DeepFM.wsl (U (Proc.devRef .tc main_v1)) 2 := by
  after_results
  exact wsl_read 2 2 rfl (U (Proc.devRef .tc main_v1)) slices_S4x4096x4096_S1x4096x4096_2_0_0 shapeCasts_S1x4096x4096_S4096x4096

theorem h3_v17 : StableHlo.after hostOps3 U (Proc.devRef .tc main_v17) = DeepFM.bsl (U (Proc.devRef .tc main_arg2)) 2 := by
  after_results
  exact bsl_read 2 2 rfl (U (Proc.devRef .tc main_arg2)) slices_S4x4096_S1x4096_2_0 shapeCasts_S1x4096_S4096

/-! ## Stretch 4: slice 3 -/

theorem h4_v20 : StableHlo.after hostOps4 U (Proc.devRef .tc main_v20) = DeepFM.wsl (U (Proc.devRef .tc main_v1)) 3 := by
  after_results
  exact wsl_read 3 3 rfl (U (Proc.devRef .tc main_v1)) slices_S4x4096x4096_S1x4096x4096_3_0_0 shapeCasts_S1x4096x4096_S4096x4096

theorem h4_v22 : StableHlo.after hostOps4 U (Proc.devRef .tc main_v22) = DeepFM.bsl (U (Proc.devRef .tc main_arg2)) 3 := by
  after_results
  exact bsl_read 3 3 rfl (U (Proc.devRef .tc main_arg2)) slices_S4x4096_S1x4096_3_0 shapeCasts_S1x4096_S4096

end Cert.KernelIdeal.HostReads

end
-- ==== Proof.Ideal.Value.lean ====
/-
  What the idealized kernel program leaves in its result array: the specification `DeepFM.G` of the arguments.
  Launch by launch, each launch's output array is the specification's stage of the arrays the launch reads; a host
  stretch only casts (the identity here), slices the stacked weights and biases and reshapes; buffers no item writes keep
  their contents.
-/
import proofs.«171023_j75617194213445_1_alg».proof.Proof.Ideal.Run
import proofs.«171023_j75617194213445_1_alg».proof.Proof.Ideal.Val0
import proofs.«171023_j75617194213445_1_alg».proof.Proof.Ideal.Val1
import proofs.«171023_j75617194213445_1_alg».proof.Proof.Ideal.Val2
import proofs.«171023_j75617194213445_1_alg».proof.Proof.Ideal.Val3
import proofs.«171023_j75617194213445_1_alg».proof.Proof.Ideal.Val4
import proofs.«171023_j75617194213445_1_alg».proof.Proof.Ideal.Val5
import proofs.«171023_j75617194213445_1_alg».proof.Proof.Ideal.HostReads
import proofs.«171023_j75617194213445_1_alg».proof.Proof.Spec

set_option maxRecDepth 16384

noncomputable section

namespace Cert.KernelIdeal.Hand

open Cert.KernelIdeal Cert.KernelIdeal.Gen Cert.KernelIdeal.HostReads
open Idealize.ShloMosaic Idealize.ShloMosaic.TcCoe Idealize.SL.Sem

variable (m : (ℓ : Loc nD τ sig) → Buf (Elt Ideal) ℓ) (c : Dev nD)

/-! ## The arguments, wherever an item reads them -/

theorem arg0_at1 : WW1 m c (Proc.devRef .tc main_arg0) = m ((c : Thread nD τ).loc main_arg0) :=
  (WW1_arr m c 0).trans (((dat0 (Ve0 m) c).arrAt_in 0 rfl _).trans (A_eq0 (Ve0 m) c 0))
theorem arg1_at1 : WW1 m c (Proc.devRef .tc main_arg1) = m ((c : Thread nD τ).loc main_arg1) := WW1_of_ne m c main_arg1 (by decide)
theorem arg2_at1 : WW1 m c (Proc.devRef .tc main_arg2) = m ((c : Thread nD τ).loc main_arg2) := WW1_of_ne m c main_arg2 (by decide)
theorem arg3_at1 : WW1 m c (Proc.devRef .tc main_arg3) = m ((c : Thread nD τ).loc main_arg3) := WW1_of_ne m c main_arg3 (by decide)
theorem arg2_at3 : WW3 m c (Proc.devRef .tc main_arg2) = m ((c : Thread nD τ).loc main_arg2) := ((WW3_of_ne m c main_arg2 (by decide)).trans (WW2_of m c main_arg2 (by decide))).trans (arg2_at1 m c)
theorem arg2_at5 : WW5 m c (Proc.devRef .tc main_arg2) = m ((c : Thread nD τ).loc main_arg2) := ((WW5_of_ne m c main_arg2 (by decide)).trans (WW4_of m c main_arg2 (by decide))).trans (arg2_at3 m c)
theorem arg2_at7 : WW7 m c (Proc.devRef .tc main_arg2) = m ((c : Thread nD τ).loc main_arg2) := ((WW7_of_ne m c main_arg2 (by decide)).trans (WW6_of m c main_arg2 (by decide))).trans (arg2_at5 m c)
theorem arg4_at9 : WW9 m c (Proc.devRef .tc main_arg4) = m ((c : Thread nD τ).loc main_arg4) := (((((((((WW9_of_ne m c main_arg4 (by decide)).trans (WW8_of m c main_arg4 (by decide))).trans (WW7_of_ne m c main_arg4 (by decide))).trans (WW6_of m c main_arg4 (by decide))).trans (WW5_of_ne m c main_arg4 (by decide))).trans (WW4_of m c main_arg4 (by decide))).trans (WW3_of_ne m c main_arg4 (by decide))).trans (WW2_of m c main_arg4 (by decide))).trans (WW1_of_ne m c main_arg4 (by decide)))

/-! ## The stacked weights, cast once and read by every later stretch; the output weights -/

theorem v1_at2 : WW2 m c (Proc.devRef .tc main_v1) = m ((c : Thread nD τ).loc main_arg1) := (h1_v1 (WW1 m c)).trans (arg1_at1 m c)
theorem v1_at3 : WW3 m c (Proc.devRef .tc main_v1) = m ((c : Thread nD τ).loc main_arg1) := (WW3_of_ne m c main_v1 (by decide)).trans (v1_at2 m c)
theorem v1_at5 : WW5 m c (Proc.devRef .tc main_v1) = m ((c : Thread nD τ).loc main_arg1) := ((WW5_of_ne m c main_v1 (by decide)).trans (WW4_of m c main_v1 (by decide))).trans (v1_at3 m c)
theorem v1_at7 : WW7 m c (Proc.devRef .tc main_v1) = m ((c : Thread nD τ).loc main_arg1) := ((WW7_of_ne m c main_v1 (by decide)).trans (WW6_of m c main_v1 (by decide))).trans (v1_at5 m c)
theorem v2_at9 : WW9 m c (Proc.devRef .tc main_v2) = m ((c : Thread nD τ).loc main_arg3) :=
  (((((((WW9_of_ne m c main_v2 (by decide)).trans (WW8_of m c main_v2 (by decide))).trans (WW7_of_ne m c main_v2 (by decide))).trans (WW6_of m c main_v2 (by decide))).trans (WW5_of_ne m c main_v2 (by decide))).trans (WW4_of m c main_v2 (by decide))).trans (WW3_of_ne m c main_v2 (by decide))).trans ((h1_v2 (WW1 m c)).trans (arg3_at1 m c))

/-! ## The launches' outputs -/

/-- The first launch leaves the interaction term, and nothing later writes it. -/
theorem v0_at1 : WW1 m c (Proc.devRef .tc main_v0) = DeepFM.inter (m ((c : Thread nD τ).loc main_arg0)) :=
  (WW1_arr m c 1).trans (final0 (Ve0 m) c)
theorem v0_at9 : WW9 m c (Proc.devRef .tc main_v0) = DeepFM.inter (m ((c : Thread nD τ).loc main_arg0)) :=
  ((((((((WW9_of_ne m c main_v0 (by decide)).trans (WW8_of m c main_v0 (by decide))).trans (WW7_of_ne m c main_v0 (by decide))).trans (WW6_of m c main_v0 (by decide))).trans (WW5_of_ne m c main_v0 (by decide))).trans (WW4_of m c main_v0 (by decide))).trans (WW3_of_ne m c main_v0 (by decide))).trans (WW2_of m c main_v0 (by decide))).trans (v0_at1 m c)

/-- The first layer. -/
theorem v8_at3 : WW3 m c (Proc.devRef .tc main_v8)
    = DeepFM.layer (m ((c : Thread nD τ).loc main_arg0)) (DeepFM.wsl (m ((c : Thread nD τ).loc main_arg1)) 0) (DeepFM.bsl (m ((c : Thread nD τ).loc main_arg2)) 0) := by
  refine (WW3_arr m c 3).trans ((final1 (Ve1 m) c).trans ?_)
  show DeepFM.layer (WW2 m c (Proc.devRef .tc main_v3)) (WW2 m c (Proc.devRef .tc main_v5)) (WW2 m c (Proc.devRef .tc main_v7)) = _
  have e3 : WW2 m c (Proc.devRef .tc main_v3) = m ((c : Thread nD τ).loc main_arg0) := (h1_v3 (WW1 m c)).trans (arg0_at1 m c)
  have e5 : WW2 m c (Proc.devRef .tc main_v5) = DeepFM.wsl (m ((c : Thread nD τ).loc main_arg1)) 0 := (h1_v5 (WW1 m c)).trans (by rw [arg1_at1])
  have e7 : WW2 m c (Proc.devRef .tc main_v7) = DeepFM.bsl (m ((c : Thread nD τ).loc main_arg2)) 0 := (h1_v7 (WW1 m c)).trans (by rw [arg2_at1])
  rw [e3, e5, e7]

/-- The second layer. -/
theorem v13_at5 : WW5 m c (Proc.devRef .tc main_v13)
    = DeepFM.layer (WW3 m c (Proc.devRef .tc main_v8)) (DeepFM.wsl (m ((c : Thread nD τ).loc main_arg1)) 1) (DeepFM.bsl (m ((c : Thread nD τ).loc main_arg2)) 1) := by
  refine (WW5_arr m c 3).trans ((final2 (Ve2 m) c).trans ?_)
  show DeepFM.layer (WW4 m c (Proc.devRef .tc main_v8)) (WW4 m c (Proc.devRef .tc main_v10)) (WW4 m c (Proc.devRef .tc main_v12)) = _
  have ew : WW4 m c (Proc.devRef .tc main_v10) = DeepFM.wsl (m ((c : Thread nD τ).loc main_arg1)) 1 := (h2_v10 (WW3 m c)).trans (by rw [v1_at3])
  have eb : WW4 m c (Proc.devRef .tc main_v12) = DeepFM.bsl (m ((c : Thread nD τ).loc main_arg2)) 1 := (h2_v12 (WW3 m c)).trans (by rw [arg2_at3])
  rw [WW4_of m c main_v8 (by decide), ew, eb]

/-- The third layer. -/
theorem v18_at7 : WW7 m c (Proc.devRef .tc main_v18)
    = DeepFM.layer (WW5 m c (Proc.devRef .tc main_v13)) (DeepFM.wsl (m ((c : Thread nD τ).loc main_arg1)) 2) (DeepFM.bsl (m ((c : Thread nD τ).loc main_arg2)) 2) := by
  refine (WW7_arr m c 3).trans ((final3 (Ve3 m) c).trans ?_)
  show DeepFM.layer (WW6 m c (Proc.devRef .tc main_v13)) (WW6 m c (Proc.devRef .tc main_v15)) (WW6 m c (Proc.devRef .tc main_v17)) = _
  have ew : WW6 m c (Proc.devRef .tc main_v15) = DeepFM.wsl (m ((c : Thread nD τ).loc main_arg1)) 2 := (h3_v15 (WW5 m c)).trans (by rw [v1_at5])
  have eb : WW6 m c (Proc.devRef .tc main_v17) = DeepFM.bsl (m ((c : Thread nD τ).loc main_arg2)) 2 := (h3_v17 (WW5 m c)).trans (by rw [arg2_at5])
  rw [WW6_of m c main_v13 (by decide), ew, eb]

/-- The fourth layer. -/
theorem v23_at9 : WW9 m c (Proc.devRef .tc main_v23)
    = DeepFM.layer (WW7 m c (Proc.devRef .tc main_v18)) (DeepFM.wsl (m ((c : Thread nD τ).loc main_arg1)) 3) (DeepFM.bsl (m ((c : Thread nD τ).loc main_arg2)) 3) := by
  refine (WW9_arr m c 3).trans ((final4 (Ve4 m) c).trans ?_)
  show DeepFM.layer (WW8 m c (Proc.devRef .tc main_v18)) (WW8 m c (Proc.devRef .tc main_v20)) (WW8 m c (Proc.devRef .tc main_v22)) = _
  have ew : WW8 m c (Proc.devRef .tc main_v20) = DeepFM.wsl (m ((c : Thread nD τ).loc main_arg1)) 3 := (h4_v20 (WW7 m c)).trans (by rw [v1_at7])
  have eb : WW8 m c (Proc.devRef .tc main_v22) = DeepFM.bsl (m ((c : Thread nD τ).loc main_arg2)) 3 := (h4_v22 (WW7 m c)).trans (by rw [arg2_at7])
  rw [WW8_of m c main_v18 (by decide), ew, eb]

/-- The result array after the last launch. -/
theorem kernel_value : WW10 m c (Proc.devRef .tc main_v24)
    = DeepFM.G (m ((c : Thread nD τ).loc main_arg0)) (m ((c : Thread nD τ).loc main_arg1)) (m ((c : Thread nD τ).loc main_arg2))
        (m ((c : Thread nD τ).loc main_arg3)) (m ((c : Thread nD τ).loc main_arg4)) := by
  refine (WW10_arr m c 4).trans ((final5 (Ve5 m) c).trans ?_)
  show DeepFM.out (WW9 m c (Proc.devRef .tc main_v23)) (WW9 m c (Proc.devRef .tc main_v0)) (WW9 m c (Proc.devRef .tc main_v2)) (WW9 m c (Proc.devRef .tc main_arg4)) = _
  rw [v23_at9, v18_at7, v13_at5, v8_at3, v0_at9, v2_at9, arg4_at9]
  rfl

end Cert.KernelIdeal.Hand

end
-- ==== Proof.RefG.lean ====
/-
  The reference program computes the specification, index by index.

  The interaction term is each entry times the sum of its row, positive part. Each of the four layers is the positive
  part of the transposed product of the previous value with slice l of the stacked weights, plus slice l of the
  stacked biases. The result is the transposed product of half the sum of the last layer and the interaction term
  with the output weight, plus the output bias.
-/
import proofs.«171023_j75617194213445_1_alg».proof.Proof.Gen.ReferenceIdeal.Run
import proofs.«171023_j75617194213445_1_alg».proof.Proof.Gen.ReferenceIdeal.Read
import proofs.«171023_j75617194213445_1_alg».proof.Proof.Spec
import Idealize.ShloMosaic.Lib.ValueIdx
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx

/-- The interaction term: entry (r, c) is x (r, c) times the sum of row r, positive part. -/
theorem inter_eq (x0 : (⟨S8192x4096, .f32⟩ : BufTy).Contents (Elt Ideal)) : val_main_v4 (F := Ideal) x0 = DeepFM.inter x0 := by
  funext i
  obtain ⟨r, c, rfl⟩ : ∃ (r : Fin 8192) (c : Fin 4096), i = ix2 r c := ⟨i 0, i 1, eq_ix2 i⟩
  rw [val_main_v4_apply, val_main_v3_apply, val_main_v2_apply, val_main_v1_apply, val_main_v0_apply, val_main_cst_apply,
    val_main_call0_v0_apply, val_main_call0_cst_apply, DeepFM.inter_apply]
  have hk : ∀ k : Fin 4096, idx_main_v0 (idx_main_v1 (idx_main_v2 (ix2 r c))) k = ix2 r k := fun k =>
    funext fun a => Fin.ext (by match a with | ⟨0, _⟩ => rfl | ⟨1, _⟩ => rfl)
  simp only [hk, Ideal.maximumf_def, Ideal.mulf_def, Ideal.ofBits_def, Ideal.ofBits_zero_f32, zero_add]
  rfl

/-- Slice 0 of the stacked weights. -/
theorem w0_eq (x1 : (⟨S4x4096x4096, .f32⟩ : BufTy).Contents (Elt Ideal)) : val_main_v6 (F := Ideal) x1 = DeepFM.wsl x1 0 := by
  funext i
  obtain ⟨a, b, rfl⟩ : ∃ (a : Fin 4096) (b : Fin 4096), i = ix2 a b := ⟨i 0, i 1, eq_ix2 i⟩
  rw [val_main_v6_apply, val_main_v5_apply, DeepFM.wsl_apply]
  refine congrArg x1 (funext fun d => Fin.ext ?_)
  have ha := a.isLt
  have hb := b.isLt
  match d with
  | ⟨0, _⟩ => rfl
  | ⟨1, _⟩ => show (a.val * 4096 + b.val) / 4096 % 4096 = a.val; omega
  | ⟨2, _⟩ => show (a.val * 4096 + b.val) % 4096 = b.val; omega

/-- Slice 0 of the stacked biases, spread over the rows. -/
theorem b0_eq (x2 : (⟨S4x4096, .f32⟩ : BufTy).Contents (Elt Ideal)) (r : Fin 8192) (c : Fin 4096) :
    val_main_v11 (F := Ideal) x2 (ix2 r c) = DeepFM.bsl x2 0 (ix1 c) := by
  rw [val_main_v11_apply, val_main_v10_apply, val_main_v9_apply, val_main_v8_apply, DeepFM.bsl_apply]
  refine congrArg x2 (funext fun d => Fin.ext ?_)
  have hc := c.isLt
  match d with
  | ⟨0, _⟩ => rfl
  | ⟨1, _⟩ => show c.val % 4096 = c.val; omega

/-- The first layer, applied to x. -/
theorem layer0_eq (x0 : (⟨S8192x4096, .f32⟩ : BufTy).Contents (Elt Ideal)) (x1 : (⟨S4x4096x4096, .f32⟩ : BufTy).Contents (Elt Ideal)) (x2 : (⟨S4x4096, .f32⟩ : BufTy).Contents (Elt Ideal)) :
    val_main_v13 (F := Ideal) x0 x1 x2 = DeepFM.layer x0 (DeepFM.wsl x1 0) (DeepFM.bsl x2 0) := by
  funext i
  obtain ⟨r, c, rfl⟩ : ∃ (r : Fin 8192) (c : Fin 4096), i = ix2 r c := ⟨i 0, i 1, eq_ix2 i⟩
  rw [val_main_v13_apply, val_main_v12_apply, val_main_v7_apply, w0_eq, b0_eq, val_main_call1_v0_apply,
    val_main_call1_cst_apply, DeepFM.layer_apply]
  have hl : ∀ k : Fin 4096, lidx_main_v7 (ix2 r c) k = ix2 r k := fun k =>
    funext fun a => Fin.ext (by match a with | ⟨0, _⟩ => rfl | ⟨1, _⟩ => rfl)
  have hr : ∀ k : Fin 4096, ridx_main_v7 (ix2 r c) k = ix2 c k := fun k =>
    funext fun a => Fin.ext (by match a with | ⟨0, _⟩ => rfl | ⟨1, _⟩ => rfl)
  simp only [hl, hr, Ideal.maximumf_def, Ideal.addf_def, Ideal.ofBits_def, Ideal.ofBits_zero_f32]
  rfl

/-- Slice 1 of the stacked weights. -/
theorem w1_eq (x1 : (⟨S4x4096x4096, .f32⟩ : BufTy).Contents (Elt Ideal)) : val_main_v15 (F := Ideal) x1 = DeepFM.wsl x1 1 := by
  funext i
  obtain ⟨a, b, rfl⟩ : ∃ (a : Fin 4096) (b : Fin 4096), i = ix2 a b := ⟨i 0, i 1, eq_ix2 i⟩
  rw [val_main_v15_apply, val_main_v14_apply, DeepFM.wsl_apply]
  refine congrArg x1 (funext fun d => Fin.ext ?_)
  have ha := a.isLt
  have hb := b.isLt
  match d with
  | ⟨0, _⟩ => rfl
  | ⟨1, _⟩ => show (a.val * 4096 + b.val) / 4096 % 4096 = a.val; omega
  | ⟨2, _⟩ => show (a.val * 4096 + b.val) % 4096 = b.val; omega

/-- Slice 1 of the stacked biases, spread over the rows. -/
theorem b1_eq (x2 : (⟨S4x4096, .f32⟩ : BufTy).Contents (Elt Ideal)) (r : Fin 8192) (c : Fin 4096) :
    val_main_v20 (F := Ideal) x2 (ix2 r c) = DeepFM.bsl x2 1 (ix1 c) := by
  rw [val_main_v20_apply, val_main_v19_apply, val_main_v18_apply, val_main_v17_apply, DeepFM.bsl_apply]
  refine congrArg x2 (funext fun d => Fin.ext ?_)
  have hc := c.isLt
  match d with
  | ⟨0, _⟩ => rfl
  | ⟨1, _⟩ => show c.val % 4096 = c.val; omega

/-- The second layer, applied to the previous layer's value. -/
theorem layer1_eq (x0 : (⟨S8192x4096, .f32⟩ : BufTy).Contents (Elt Ideal)) (x1 : (⟨S4x4096x4096, .f32⟩ : BufTy).Contents (Elt Ideal)) (x2 : (⟨S4x4096, .f32⟩ : BufTy).Contents (Elt Ideal)) :
    val_main_v22 (F := Ideal) x0 x1 x2
      = DeepFM.layer (val_main_v13 (F := Ideal) x0 x1 x2) (DeepFM.wsl x1 1) (DeepFM.bsl x2 1) := by
  funext i
  obtain ⟨r, c, rfl⟩ : ∃ (r : Fin 8192) (c : Fin 4096), i = ix2 r c := ⟨i 0, i 1, eq_ix2 i⟩
  rw [val_main_v22_apply, val_main_v21_apply, val_main_v16_apply, w1_eq, b1_eq, val_main_call2_v0_apply,
    val_main_call2_cst_apply, DeepFM.layer_apply]
  generalize val_main_v13 (F := Ideal) x0 x1 x2 = h
  have hl : ∀ k : Fin 4096, lidx_main_v16 (ix2 r c) k = ix2 r k := fun k =>
    funext fun a => Fin.ext (by match a with | ⟨0, _⟩ => rfl | ⟨1, _⟩ => rfl)
  have hr : ∀ k : Fin 4096, ridx_main_v16 (ix2 r c) k = ix2 c k := fun k =>
    funext fun a => Fin.ext (by match a with | ⟨0, _⟩ => rfl | ⟨1, _⟩ => rfl)
  simp only [hl, hr, Ideal.maximumf_def, Ideal.addf_def, Ideal.ofBits_def, Ideal.ofBits_zero_f32]
  rfl

/-- Slice 2 of the stacked weights. -/
theorem w2_eq (x1 : (⟨S4x4096x4096, .f32⟩ : BufTy).Contents (Elt Ideal)) : val_main_v24 (F := Ideal) x1 = DeepFM.wsl x1 2 := by
  funext i
  obtain ⟨a, b, rfl⟩ : ∃ (a : Fin 4096) (b : Fin 4096), i = ix2 a b := ⟨i 0, i 1, eq_ix2 i⟩
  rw [val_main_v24_apply, val_main_v23_apply, DeepFM.wsl_apply]
  refine congrArg x1 (funext fun d => Fin.ext ?_)
  have ha := a.isLt
  have hb := b.isLt
  match d with
  | ⟨0, _⟩ => rfl
  | ⟨1, _⟩ => show (a.val * 4096 + b.val) / 4096 % 4096 = a.val; omega
  | ⟨2, _⟩ => show (a.val * 4096 + b.val) % 4096 = b.val; omega

/-- Slice 2 of the stacked biases, spread over the rows. -/
theorem b2_eq (x2 : (⟨S4x4096, .f32⟩ : BufTy).Contents (Elt Ideal)) (r : Fin 8192) (c : Fin 4096) :
    val_main_v29 (F := Ideal) x2 (ix2 r c) = DeepFM.bsl x2 2 (ix1 c) := by
  rw [val_main_v29_apply, val_main_v28_apply, val_main_v27_apply, val_main_v26_apply, DeepFM.bsl_apply]
  refine congrArg x2 (funext fun d => Fin.ext ?_)
  have hc := c.isLt
  match d with
  | ⟨0, _⟩ => rfl
  | ⟨1, _⟩ => show c.val % 4096 = c.val; omega

/-- The third layer, applied to the previous layer's value. -/
theorem layer2_eq (x0 : (⟨S8192x4096, .f32⟩ : BufTy).Contents (Elt Ideal)) (x1 : (⟨S4x4096x4096, .f32⟩ : BufTy).Contents (Elt Ideal)) (x2 : (⟨S4x4096, .f32⟩ : BufTy).Contents (Elt Ideal)) :
    val_main_v31 (F := Ideal) x0 x1 x2
      = DeepFM.layer (val_main_v22 (F := Ideal) x0 x1 x2) (DeepFM.wsl x1 2) (DeepFM.bsl x2 2) := by
  funext i
  obtain ⟨r, c, rfl⟩ : ∃ (r : Fin 8192) (c : Fin 4096), i = ix2 r c := ⟨i 0, i 1, eq_ix2 i⟩
  rw [val_main_v31_apply, val_main_v30_apply, val_main_v25_apply, w2_eq, b2_eq, val_main_call3_v0_apply,
    val_main_call3_cst_apply, DeepFM.layer_apply]
  generalize val_main_v22 (F := Ideal) x0 x1 x2 = h
  have hl : ∀ k : Fin 4096, lidx_main_v25 (ix2 r c) k = ix2 r k := fun k =>
    funext fun a => Fin.ext (by match a with | ⟨0, _⟩ => rfl | ⟨1, _⟩ => rfl)
  have hr : ∀ k : Fin 4096, ridx_main_v25 (ix2 r c) k = ix2 c k := fun k =>
    funext fun a => Fin.ext (by match a with | ⟨0, _⟩ => rfl | ⟨1, _⟩ => rfl)
  simp only [hl, hr, Ideal.maximumf_def, Ideal.addf_def, Ideal.ofBits_def, Ideal.ofBits_zero_f32]
  rfl

/-- Slice 3 of the stacked weights. -/
theorem w3_eq (x1 : (⟨S4x4096x4096, .f32⟩ : BufTy).Contents (Elt Ideal)) : val_main_v33 (F := Ideal) x1 = DeepFM.wsl x1 3 := by
  funext i
  obtain ⟨a, b, rfl⟩ : ∃ (a : Fin 4096) (b : Fin 4096), i = ix2 a b := ⟨i 0, i 1, eq_ix2 i⟩
  rw [val_main_v33_apply, val_main_v32_apply, DeepFM.wsl_apply]
  refine congrArg x1 (funext fun d => Fin.ext ?_)
  have ha := a.isLt
  have hb := b.isLt
  match d with
  | ⟨0, _⟩ => rfl
  | ⟨1, _⟩ => show (a.val * 4096 + b.val) / 4096 % 4096 = a.val; omega
  | ⟨2, _⟩ => show (a.val * 4096 + b.val) % 4096 = b.val; omega

/-- Slice 3 of the stacked biases, spread over the rows. -/
theorem b3_eq (x2 : (⟨S4x4096, .f32⟩ : BufTy).Contents (Elt Ideal)) (r : Fin 8192) (c : Fin 4096) :
    val_main_v38 (F := Ideal) x2 (ix2 r c) = DeepFM.bsl x2 3 (ix1 c) := by
  rw [val_main_v38_apply, val_main_v37_apply, val_main_v36_apply, val_main_v35_apply, DeepFM.bsl_apply]
  refine congrArg x2 (funext fun d => Fin.ext ?_)
  have hc := c.isLt
  match d with
  | ⟨0, _⟩ => rfl
  | ⟨1, _⟩ => show c.val % 4096 = c.val; omega

/-- The fourth layer, applied to the previous layer's value. -/
theorem layer3_eq (x0 : (⟨S8192x4096, .f32⟩ : BufTy).Contents (Elt Ideal)) (x1 : (⟨S4x4096x4096, .f32⟩ : BufTy).Contents (Elt Ideal)) (x2 : (⟨S4x4096, .f32⟩ : BufTy).Contents (Elt Ideal)) :
    val_main_v40 (F := Ideal) x0 x1 x2
      = DeepFM.layer (val_main_v31 (F := Ideal) x0 x1 x2) (DeepFM.wsl x1 3) (DeepFM.bsl x2 3) := by
  funext i
  obtain ⟨r, c, rfl⟩ : ∃ (r : Fin 8192) (c : Fin 4096), i = ix2 r c := ⟨i 0, i 1, eq_ix2 i⟩
  rw [val_main_v40_apply, val_main_v39_apply, val_main_v34_apply, w3_eq, b3_eq, val_main_call4_v0_apply,
    val_main_call4_cst_apply, DeepFM.layer_apply]
  generalize val_main_v31 (F := Ideal) x0 x1 x2 = h
  have hl : ∀ k : Fin 4096, lidx_main_v34 (ix2 r c) k = ix2 r k := fun k =>
    funext fun a => Fin.ext (by match a with | ⟨0, _⟩ => rfl | ⟨1, _⟩ => rfl)
  have hr : ∀ k : Fin 4096, ridx_main_v34 (ix2 r c) k = ix2 c k := fun k =>
    funext fun a => Fin.ext (by match a with | ⟨0, _⟩ => rfl | ⟨1, _⟩ => rfl)
  simp only [hl, hr, Ideal.maximumf_def, Ideal.addf_def, Ideal.ofBits_def, Ideal.ofBits_zero_f32]
  rfl

/-- Half the sum of the last layer and the interaction term. -/
theorem mix_eq (x0 : (⟨S8192x4096, .f32⟩ : BufTy).Contents (Elt Ideal)) (x1 : (⟨S4x4096x4096, .f32⟩ : BufTy).Contents (Elt Ideal)) (x2 : (⟨S4x4096, .f32⟩ : BufTy).Contents (Elt Ideal)) :
    val_main_v43 (F := Ideal) x0 x1 x2
      = fun j => (val_main_v40 (F := Ideal) x0 x1 x2 j + val_main_v4 (F := Ideal) x0 j) * DeepFM.half := by
  funext j
  rw [val_main_v43_apply, val_main_v41_apply, val_main_v42_apply, val_main_cst_0_apply]
  generalize val_main_v40 (F := Ideal) x0 x1 x2 = h
  generalize val_main_v4 (F := Ideal) x0 = t
  simp only [Ideal.mulf_def, Ideal.addf_def, Ideal.ofBits_def]
  rfl

/-- The output bias, spread over the rows. -/
theorem bo_eq (x4 : (⟨S4096, .f32⟩ : BufTy).Contents (Elt Ideal)) (r : Fin 8192) (c : Fin 4096) : val_main_v46 (F := Ideal) x4 (ix2 r c) = x4 (ix1 c) := by
  rw [val_main_v46_apply, val_main_v45_apply]
  exact congrArg x4 (funext fun d => Fin.ext (by match d with | ⟨0, _⟩ => rfl))

/-- The last product, applied to the last layer's value and the interaction term. -/
theorem out_eq (x0 : (⟨S8192x4096, .f32⟩ : BufTy).Contents (Elt Ideal)) (x1 : (⟨S4x4096x4096, .f32⟩ : BufTy).Contents (Elt Ideal)) (x2 : (⟨S4x4096, .f32⟩ : BufTy).Contents (Elt Ideal)) (x3 : (⟨S4096x4096, .f32⟩ : BufTy).Contents (Elt Ideal)) (x4 : (⟨S4096, .f32⟩ : BufTy).Contents (Elt Ideal)) :
    val_main_v47 (F := Ideal) x0 x1 x2 x3 x4
      = DeepFM.out (val_main_v40 (F := Ideal) x0 x1 x2) (val_main_v4 (F := Ideal) x0) x3 x4 := by
  funext i
  obtain ⟨r, c, rfl⟩ : ∃ (r : Fin 8192) (c : Fin 4096), i = ix2 r c := ⟨i 0, i 1, eq_ix2 i⟩
  rw [val_main_v47_apply, val_main_v44_apply, mix_eq, bo_eq, DeepFM.out_apply]
  generalize val_main_v40 (F := Ideal) x0 x1 x2 = h
  generalize val_main_v4 (F := Ideal) x0 = t
  have hl : ∀ k : Fin 4096, lidx_main_v44 (ix2 r c) k = ix2 r k := fun k =>
    funext fun a => Fin.ext (by match a with | ⟨0, _⟩ => rfl | ⟨1, _⟩ => rfl)
  have hr : ∀ k : Fin 4096, ridx_main_v44 (ix2 r c) k = ix2 c k := fun k =>
    funext fun a => Fin.ext (by match a with | ⟨0, _⟩ => rfl | ⟨1, _⟩ => rfl)
  simp only [hl, hr, Ideal.addf_def]
  rfl

/-- The reference program's value is the specification. -/
theorem ref_eq (x0 : (⟨S8192x4096, .f32⟩ : BufTy).Contents (Elt Ideal)) (x1 : (⟨S4x4096x4096, .f32⟩ : BufTy).Contents (Elt Ideal)) (x2 : (⟨S4x4096, .f32⟩ : BufTy).Contents (Elt Ideal)) (x3 : (⟨S4096x4096, .f32⟩ : BufTy).Contents (Elt Ideal)) (x4 : (⟨S4096, .f32⟩ : BufTy).Contents (Elt Ideal)) :
    val_main_v47 (F := Ideal) x0 x1 x2 x3 x4 = DeepFM.G x0 x1 x2 x3 x4 := by
  rw [out_eq, layer3_eq, layer2_eq, layer1_eq, layer0_eq, inter_eq]
  rfl

end Cert.ReferenceIdeal.RefValue

end
-- ==== Proof.lean ====
/-
  Both programs compute, at the extended reals, the function `DeepFM.G` of Proof/Spec.lean: the interaction term
  x · rowsum x (positive part), four stacked layers relu(h · Wᵀ + b), and the output product of half their sum with the
  output weights, plus the output bias.

  The kernel program is six tiled launches. Each layer's launch accumulates its product over four steps of the
  contracted axis in a scratch accumulator; adding the four partial sums is the whole sum, by associativity and
  commutativity of addition alone, so nothing is asked of the inputs beyond what the statement gives. A change of float
  format is the identity at the extended reals, so the kernel's casts to the narrow format drop out.

  The three frames: each program runs to the end from any memory, and no argument array is an output of a launch or
  written by a host operation.
-/
import proofs.«171023_j75617194213445_1_alg».proof.Defs
import proofs.«171023_j75617194213445_1_alg».proof.Proof.Gen.Kernel
import proofs.«171023_j75617194213445_1_alg».proof.Proof.Gen.KernelIdeal
import proofs.«171023_j75617194213445_1_alg».proof.Proof.Gen.ReferenceIdeal
import proofs.«171023_j75617194213445_1_alg».proof.Proof.Gen.Pre_finite_inputs
import proofs.«171023_j75617194213445_1_alg».proof.Proof.Gen.ReferenceIdeal.Run
import proofs.«171023_j75617194213445_1_alg».proof.Proof.Gen.ReferenceIdeal.Read
import proofs.«171023_j75617194213445_1_alg».proof.Proof.Bits.Run
import proofs.«171023_j75617194213445_1_alg».proof.Proof.Ideal.Run
import proofs.«171023_j75617194213445_1_alg».proof.Proof.Ideal.Value
import proofs.«171023_j75617194213445_1_alg».proof.Proof.RefG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frameH m ρ
theorem frame_ki : Cert.frame_KernelIdeal := fun m ρ _ => Cert.KernelIdeal.Hand.frameH m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with `DeepFM.G` of the arguments in their result array. -/
theorem algebraic : Cert.algebraic_KernelIdeal_ReferenceIdeal := by
  intro m ρ m' ρ' _ hagree
  refine ⟨fun c => DeepFM.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ?_) (Cert.KernelIdeal.Hand.run_all (F := Ideal) m ρ)
    exact ⟨(h c _ (Cert.KernelIdeal.Hand.mem_ucH Cert.KernelIdeal.main_v24 (by decide))).trans (Cert.KernelIdeal.Hand.kernel_value m c),
      (h c _ (Cert.KernelIdeal.Hand.mem_ucH Cert.KernelIdeal.main_arg0 (by decide))).trans (Cert.KernelIdeal.Hand.WW10_main_arg0 m c),
      (h c _ (Cert.KernelIdeal.Hand.mem_ucH Cert.KernelIdeal.main_arg1 (by decide))).trans (Cert.KernelIdeal.Hand.WW10_main_arg1 m c),
      (h c _ (Cert.KernelIdeal.Hand.mem_ucH Cert.KernelIdeal.main_arg2 (by decide))).trans (Cert.KernelIdeal.Hand.WW10_main_arg2 m c),
      (h c _ (Cert.KernelIdeal.Hand.mem_ucH Cert.KernelIdeal.main_arg3 (by decide))).trans (Cert.KernelIdeal.Hand.WW10_main_arg3 m c),
      (h c _ (Cert.KernelIdeal.Hand.mem_ucH Cert.KernelIdeal.main_arg4 (by decide))).trans (Cert.KernelIdeal.Hand.WW10_main_arg4 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, Cert.ReferenceIdeal.RefValue.ref_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
